-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S512x80 : Shape := ⟨2, ![512, 80]⟩
abbrev S1x512x64 : Shape := ⟨3, ![1, 512, 64]⟩
abbrev S80 : Shape := ⟨1, ![80]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S512x80 : S_.BroadcastsInDim S512x80 (![] : Fin 0 → Fin S512x80.rank)
  reducesTo_S512x80_S_d0_1 : S512x80.ReducesTo [0, 1] S_
  bcast_S_S1x512x64 : S_.BroadcastsInDim S1x512x64 (![] : Fin 0 → Fin S1x512x64.rank)
  reducesTo_S1x512x64_S_d0_1_2 : S1x512x64.ReducesTo [0, 1, 2] S_
  bcast_S_S80 : S_.BroadcastsInDim S80 (![] : Fin 0 → Fin S80.rank)
  reducesTo_S80_S_d0 : S80.ReducesTo [0] S_

variable [Facts]

def fn_part1 {F : FTy → Type} [FloatOps F] (main_arg4 : FVec F S80 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  main_v23

def fn {F : FTy → Type} [FloatOps F] (main_arg0 : FVec F S64x2048x512 .f32) (main_arg1 : FVec F S512x80 .f32) (main_arg2 : FVec F S1x512x64 .f32) (main_arg3 : FVec F S80 .f32) (main_arg4 : FVec F S80 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S512x80 .f32 := Host.absf main_arg1
  let main_cst_0 : FVec F S_ .f32 := constant S_ .f32 0x7F800000#32
  let main_v5 : FVec F S512x80 .f32 := broadcastInDim S512x80 ![] bcast_S_S512x80 main_cst_0
  let main_v6 : IVec S512x80 1 := cmpf .olt main_v4 main_v5
  let main_c_1 : IVec S_ 1 := constantI S_ 1 1#1
  let main_v7 : IVec S_ 1 := (fun x v => Host.reduce IntOp.andi x v reducesTo_S512x80_S_d0_1 h_S_) main_v6 main_c_1
  let main_v8 : IVec S_ 1 := andi main_v3 main_v7
  let main_v9 : FVec F S1x512x64 .f32 := Host.absf main_arg2
  let main_cst_2 : FVec F S_ .f32 := constant S_ .f32 0x7F800000#32
  let main_v10 : FVec F S1x512x64 .f32 := broadcastInDim S1x512x64 ![] bcast_S_S1x512x64 main_cst_2
  let main_v11 : IVec S1x512x64 1 := cmpf .olt main_v9 main_v10
  let main_c_3 : IVec S_ 1 := constantI S_ 1 1#1
  let main_v12 : IVec S_ 1 := (fun x v => Host.reduce IntOp.andi x v reducesTo_S1x512x64_S_d0_1_2 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg4 main_v13 main_v16
-- ==== Kernel.lean ====
abbrev S64x2048x512 : Shape := ⟨3, ![64, 2048, 512]⟩
abbrev S512x80 : Shape := ⟨2, ![512, 80]⟩
abbrev S1x512x64 : Shape := ⟨3, ![1, 512, 64]⟩
abbrev S80 : Shape := ⟨1, ![80]⟩
abbrev S131072x512 : Shape := ⟨2, ![131072, 512]⟩
abbrev S131072x80 : Shape := ⟨2, ![131072, 80]⟩
abbrev S32x1x80 : Shape := ⟨3, ![32, 1, 80]⟩
abbrev S4096x512 : Shape := ⟨2, ![4096, 512]⟩
abbrev S4096x80 : Shape := ⟨2, ![4096, 80]⟩
abbrev S1x1x80 : Shape := ⟨3, ![1, 1, 80]⟩
abbrev S1x80 : Shape := ⟨2, ![1, 80]⟩
abbrev S_ : Shape := ⟨0, ![]⟩
abbrev S512x64 : Shape := ⟨2, ![512, 64]⟩
abbrev S64x2048x80 : Shape := ⟨3, ![64, 2048, 80]⟩
abbrev S64x64x512 : Shape := ⟨3, ![64, 64, 512]⟩
abbrev S1x2048x512 : Shape := ⟨3, ![1, 2048, 512]⟩
abbrev S1x2048x80 : Shape := ⟨3, ![1, 2048, 80]⟩
abbrev S1x64x512 : Shape := ⟨3, ![1, 64, 512]⟩
abbrev S2048x80 : Shape := ⟨2, ![2048, 80]⟩
abbrev S2048 : Shape := ⟨1, ![2048]⟩
abbrev S2048x1 : Shape := ⟨2, ![2048, 1]⟩
abbrev S2048x64 : Shape := ⟨2, ![2048, 64]⟩
abbrev S64 : Shape := ⟨1, ![64]⟩
abbrev S1x64 : Shape := ⟨2, ![1, 64]⟩
abbrev S2048x512 : Shape := ⟨2, ![2048, 512]⟩
abbrev S1 : Shape := ⟨1, ![1]⟩
abbrev S1x1 : Shape := ⟨2, ![1, 1]⟩
abbrev S64x512 : Shape := ⟨2, ![64, 512]⟩
abbrev S64x512x64 : Shape := ⟨3, ![64, 512, 64]⟩
abbrev S64x32768 : Shape := ⟨2, ![64, 32768]⟩

abbrev nBuf : Space → Nat
  | .hbm => 31
  | .vmem => 20
  | .smem => 0
  | _ => 0

abbrev bufTy : (tb : Table) → Fin (tcTables nBuf tb) → BufTy
  | .hbm, ⟨0, _⟩ => ⟨S64x2048x512, .f32⟩
  | .hbm, ⟨1, _⟩ => ⟨S512x80, .f32⟩
  | .hbm, ⟨2, _⟩ => ⟨S1x512x64, .f32⟩
  | .hbm, ⟨3, _⟩ => ⟨S80, .f32⟩
  | .hbm, ⟨4, _⟩ => ⟨S80, .f32⟩
  | .hbm, ⟨5, _⟩ => ⟨S131072x512, .f32⟩
  | .hbm, ⟨6, _⟩ => ⟨S131072x80, .f32⟩
  | .hbm, ⟨7, _⟩ => ⟨S32x1x80, .f32⟩
  | .hbm, ⟨8, _⟩ => ⟨S32x1x80, .f32⟩
  | .hbm, ⟨9, _⟩ => ⟨S_, .f32⟩
  | .hbm, ⟨10, _⟩ => ⟨S1x80, .f32⟩
  | .hbm, ⟨11, _⟩ => ⟨S_, .f32⟩
  | .hbm, ⟨12, _⟩ => ⟨S1x80, .f32⟩
  | .hbm, ⟨13, _⟩ => ⟨S1x80, .f32⟩
  | .hbm, ⟨14, _⟩ => ⟨S_, .f32⟩
  | .hbm, ⟨15, _⟩ => ⟨S1x80, .f32⟩
  | .hbm, ⟨16, _⟩ => ⟨S_, .f32⟩
  | .hbm, ⟨17, _⟩ => ⟨S1x80, .f32⟩
  | .hbm, ⟨18, _⟩ => ⟨S1x80, .f32⟩
  | .hbm, ⟨19, _⟩ => ⟨S1x80, .f32⟩
  | .hbm, ⟨20, _⟩ => ⟨S1x80, .f32⟩
  | .hbm, ⟨21, _⟩ => ⟨S_, .f32⟩
  | .hbm, ⟨22, _⟩ => ⟨S1x80, .f32⟩
  | .hbm, ⟨23, _⟩ => ⟨S1x80, .f32⟩
  | .hbm, ⟨24, _⟩ => ⟨S1x80, .f32⟩
  | .hbm, ⟨25, _⟩ => ⟨S1x80, .f32⟩
  | .hbm, ⟨26, _⟩ => ⟨S512x64, .f32⟩
  | .hbm, ⟨27, _⟩ => ⟨S64x2048x80, .f32⟩
  | .hbm, ⟨28, _⟩ => ⟨S64x64x512, .f32⟩
  | .hbm, ⟨29, _⟩ => ⟨S64x512x64, .f32⟩
  | .hbm, ⟨30, _⟩ => ⟨S64x32768, .f32⟩
  | .local _ .vmem, ⟨0, _⟩ => ⟨S4096x512, .f32⟩
  | .local _ .vmem, ⟨1, _⟩ => ⟨S4096x512, .f32⟩
  | .local _ .vmem, ⟨2, _⟩ => ⟨S512x80, .f32⟩
  | .local _ .vmem, ⟨3, _⟩ => ⟨S4096x80, .f32⟩
  | .local _ .vmem, ⟨4, _⟩ => ⟨S4096x80, .f32⟩
  | .local _ .vmem, ⟨5, _⟩ => ⟨S1x1x80, .f32⟩
  | .local _ .vmem, ⟨6, _⟩ => ⟨S1x1x80, .f32⟩
  | .local _ .vmem, ⟨7, _⟩ => ⟨S1x1x80, .f32⟩
  | .local _ .vmem, ⟨8, _⟩ => ⟨S1x1x80, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x80, .f32⟩
  | .local _ .vmem, ⟨12, _⟩ => ⟨S1x2048x80, .f32⟩
  | .local _ .vmem, ⟨13, _⟩ => ⟨S1x80, .f32⟩
  | .local _ .vmem, ⟨14, _⟩ => ⟨S1x80, .f32⟩
  | .local _ .vmem, ⟨15, _⟩ => ⟨S1x80, .f32⟩
  | .local _ .vmem, ⟨16, _⟩ => ⟨S1x80, .f32⟩
  | .local _ .vmem, ⟨17, _⟩ => ⟨S512x64, .f32⟩
  | .local _ .vmem, ⟨18, _⟩ => ⟨S1x64x512, .f32⟩
  | .local _ .vmem, ⟨19, _⟩ => ⟨S1x64x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x80 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x64x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S64x2048x512_S131072x512 : S64x2048x512.ShapeCasts S131072x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S512x80_S512x80_0_0 : ∀ a, (![0, 0] : Fin 2 → Nat) a + S512x80.size a ≤ S512x80.size a
  h_S512x80 : 0 < S512x80.numel
  inb_S4096x80_S4096x80_0_0 : ∀ a, (![0, 0] : Fin 2 → Nat) a + S4096x80.size a ≤ S4096x80.size a
  h_S4096x80 : 0 < S4096x80.numel
  reduces_S4096x80_S80 : S4096x80.Reduces [0] S80
  shapeCasts_S80_S1x80 : S80.ShapeCasts S1x80
  inb_S1x1x80_S1x1x80_0_0_0 : ∀ a, (![0, 0, 0] : Fin 3 → Nat) a + S1x1x80.size a ≤ S1x1x80.size a
  h_S1x1x80 : 0 < S1x1x80.numel
  shapeCasts_S1x1x80_S1x80 : S1x1x80.ShapeCasts S1x80
  shapeCasts_S1x80_S1x1x80 : S1x80.ShapeCasts S1x1x80
  reducesTo_S32x1x80_S1x80_d0 : S32x1x80.ReducesTo [0] S1x80
  h_S_ : 0 < S_.numel
  bcast_S_S1x80 : S_.BroadcastsInDim S1x80 (![] : Fin 0 → Fin S1x80.rank)
  shapeCasts_S1x512x64_S512x64 : S1x512x64.ShapeCasts S512x64
  shapeCasts_S131072x80_S64x2048x80 : S131072x80.ShapeCasts S64x2048x80
  inb_S1x2048x80_S1x2048x80_0_0_0 : ∀ a, (![0, 0, 0] : Fin 3 → Nat) a + S1x2048x80.size a ≤ S1x2048x80.size a
  h_S1x2048x80 : 0 < S1x2048x80.numel
  shapeCasts_S1x2048x80_S2048x80 : S1x2048x80.ShapeCasts S2048x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S2048x80 : S1x80.Broadcasts S2048x80
  reduces_S2048x80_S2048 : S2048x80.Reduces [1] S2048
  shapeCasts_S2048_S2048x1 : S2048.ShapeCasts S2048x1
  broadcasts_S2048x1_S2048x80 : S2048x1.Broadcasts S2048x80
  slices_S2048x80_o0_0_S2048x64 : S2048x80.Slices ![0, 0] S2048x64
  reduces_S2048x64_S64 : S2048x64.Reduces [0] S64
  shapeCasts_S64_S1x64 : S64.ShapeCasts S1x64
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  reduces_S512x64_S64 : S512x64.Reduces [0] S64
  reduces_S1x64_S1 : S1x64.Reduces [1] S1
  shapeCasts_S1_S1x1 : S1.ShapeCasts S1x1
  broadcasts_S1x1_S512x64 : S1x1.Broadcasts S512x64
  transposes_S512x64_p1_0_S64x512 : S512x64.Transposes [1, 0] S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  transposes_S64x64x512_S64x512x64_0_2_1 : S64x64x512.Transposes [0, 2, 1] S64x512x64
  shapeCasts_S64x512x64_S64x32768 : S64x512x64.ShapeCasts S64x32768
  dot_S4096x512_S512x80_S4096x80_1_0_0_1_n_n_wf : DotDims.WF S4096x512 S512x80 S4096x80 [1] [0] [0] [1] [] []
  dot_S2048x512_S2048x64_S512x64_0_0_1_1_n_n_wf : DotDims.WF S2048x512 S2048x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x80.size a ≤ S512x80.size a
  hwx0_1 : ∀ i : grid0.Coords, EltTy.bits .f32 = 32 ∨ (Rect.block (s := S512x80) S512x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x80.size a ≤ S131072x80.size a
  hwx0_2 : ∀ i : grid0.Coords, EltTy.bits .f32 = 32 ∨ (Rect.block (s := S131072x80) S4096x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x80.size a ≤ S32x1x80.size a
  hwx0_3 : ∀ i : grid0.Coords, EltTy.bits .f32 = 32 ∨ (Rect.block (s := S32x1x80) S1x1x80.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x80.size a ≤ S32x1x80.size a
  hwx0_4 : ∀ i : grid0.Coords, EltTy.bits .f32 = 32 ∨ (Rect.block (s := S32x1x80) S1x1x80.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S64x2048x512.size a
  hwx1_0 : ∀ i : grid1.Coords, EltTy.bits .f32 = 32 ∨ (Rect.block (s := S64x2048x512) S1x2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x80.size a ≤ S64x2048x80.size a
  hwx1_1 : ∀ i : grid1.Coords, EltTy.bits .f32 = 32 ∨ (Rect.block (s := S64x2048x80) S1x2048x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x80.size a ≤ S1x80.size a
  hwx1_2 : ∀ i : grid1.Coords, EltTy.bits .f32 = 32 ∨ (Rect.block (s := S1x80) S1x80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x80.size a ≤ S1x80.size a
  hwx1_3 : ∀ i : grid1.Coords, EltTy.bits .f32 = 32 ∨ (Rect.block (s := S1x80) S1x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x80.size a ≤ S1x80.size a
  hwx1_4 : ∀ i : grid1.Coords, EltTy.bits .f32 = 32 ∨ (Rect.block (s := S1x80) S1x80.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x80.size a ≤ S1x80.size a
  hwx1_5 : ∀ i : grid1.Coords, EltTy.bits .f32 = 32 ∨ (Rect.block (s := S1x80) S1x80.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S512x64.size a
  hwx1_6 : ∀ i : grid1.Coords, EltTy.bits .f32 = 32 ∨ (Rect.block (s := S512x64) S512x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x512.size a ≤ S64x64x512.size a
  hwx1_7 : ∀ i : grid1.Coords, EltTy.bits .f32 = 32 ∨ (Rect.block (s := S64x64x512) S1x64x512.size (cc1_transform_7 i) (hinb1_7 i)).WholeWords (EltTy.packing .f32)

variable [Facts₀]

def dot_S4096x512_S512x80_S4096x80_1_0_0_1_n_n : DotDims S4096x512 S512x80 S4096x80 where
  lhsContracting := [1]
  rhsContracting := [0]
  lhsNonContracting := [0]
  rhsNonContracting := [1]
  lhsBatch := []
  rhsBatch := []
  wf := dot_S4096x512_S512x80_S4096x80_1_0_0_1_n_n_wf
def dot_S2048x512_S2048x64_S512x64_0_0_1_1_n_n : DotDims S2048x512 S2048x64 S512x64 where
  lhsContracting := [0]
  rhsContracting := [0]
  lhsNonContracting := [1]
  rhsNonContracting := [1]
  lhsBatch := []
  rhsBatch := []
  wf := dot_S2048x512_S2048x64_S512x64_0_0_1_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4096x80.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x80.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x80.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x2048x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x80.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x80.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x80.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S512x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x64x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S64x2048x512 : Shape := ⟨3, ![64, 2048, 512]⟩
abbrev S512x80 : Shape := ⟨2, ![512, 80]⟩
abbrev S1x512x64 : Shape := ⟨3, ![1, 512, 64]⟩
abbrev S80 : Shape := ⟨1, ![80]⟩
abbrev S131072x512 : Shape := ⟨2, ![131072, 512]⟩
abbrev S131072x80 : Shape := ⟨2, ![131072, 80]⟩
abbrev S_ : Shape := ⟨0, ![]⟩
abbrev S1x80 : Shape := ⟨2, ![1, 80]⟩
abbrev S131072 : Shape := ⟨1, ![131072]⟩
abbrev S131072x1 : Shape := ⟨2, ![131072, 1]⟩
abbrev S131072x64 : Shape := ⟨2, ![131072, 64]⟩
abbrev S64x2048x64 : Shape := ⟨3, ![64, 2048, 64]⟩
abbrev S64x64 : Shape := ⟨2, ![64, 64]⟩
abbrev S64x512x64 : Shape := ⟨3, ![64, 512, 64]⟩
abbrev S64x1x64 : Shape := ⟨3, ![64, 1, 64]⟩
abbrev S64x32768 : Shape := ⟨2, ![64, 32768]⟩
abbrev S64 : Shape := ⟨1, ![64]⟩
abbrev S64x1 : Shape := ⟨2, ![64, 1]⟩

abbrev nBuf : Space → Nat
  | .hbm => 96
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S512x80, .f32⟩
  | .hbm, ⟨2, _⟩ => ⟨S1x512x64, .f32⟩
  | .hbm, ⟨3, _⟩ => ⟨S80, .f32⟩
  | .hbm, ⟨4, _⟩ => ⟨S80, .f32⟩
  | .hbm, ⟨5, _⟩ => ⟨S131072x512, .f32⟩
  | .hbm, ⟨6, _⟩ => ⟨S131072x80, .f32⟩
  | .hbm, ⟨7, _⟩ => ⟨S_, .f32⟩
  | .hbm, ⟨8, _⟩ => ⟨S80, .f32⟩
  | .hbm, ⟨9, _⟩ => ⟨S_, .f32⟩
  | .hbm, ⟨10, _⟩ => ⟨S80, .f32⟩
  | .hbm, ⟨11, _⟩ => ⟨S80, .f32⟩
  | .hbm, ⟨12, _⟩ => ⟨S_, .i32⟩
  | .hbm, ⟨13, _⟩ => ⟨S_, .f32⟩
  | .hbm, ⟨14, _⟩ => ⟨S80, .f32⟩
  | .hbm, ⟨15, _⟩ => ⟨S1x80, .f32⟩
  | .hbm, ⟨16, _⟩ => ⟨S_, .f32⟩
  | .hbm, ⟨17, _⟩ => ⟨S1x80, .f32⟩
  | .hbm, ⟨18, _⟩ => ⟨S1x80, .f32⟩
  | .hbm, ⟨19, _⟩ => ⟨S131072x80, .f32⟩
  | .hbm, ⟨20, _⟩ => ⟨S131072x80, .f32⟩
  | .hbm, ⟨21, _⟩ => ⟨S131072x80, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S80, .f32⟩
  | .hbm, ⟨27, _⟩ => ⟨S80, .f32⟩
  | .hbm, ⟨28, _⟩ => ⟨S80, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S80, .f32⟩
  | .hbm, ⟨34, _⟩ => ⟨S80, .f32⟩
  | .hbm, ⟨35, _⟩ => ⟨S1x80, .f32⟩
  | .hbm, ⟨36, _⟩ => ⟨S131072x80, .f32⟩
  | .hbm, ⟨37, _⟩ => ⟨S131072x80, .f32⟩
  | .hbm, ⟨38, _⟩ => ⟨S_, .f32⟩
  | .hbm, ⟨39, _⟩ => ⟨S80, .f32⟩
  | .hbm, ⟨40, _⟩ => ⟨S80, .f32⟩
  | .hbm, ⟨41, _⟩ => ⟨S80, .f32⟩
  | .hbm, ⟨42, _⟩ => ⟨S1x80, .f32⟩
  | .hbm, ⟨43, _⟩ => ⟨S131072x80, .f32⟩
  | .hbm, ⟨44, _⟩ => ⟨S131072x80, .f32⟩
  | .hbm, ⟨45, _⟩ => ⟨S1x80, .f32⟩
  | .hbm, ⟨46, _⟩ => ⟨S131072x80, .f32⟩
  | .hbm, ⟨47, _⟩ => ⟨S131072x80, .f32⟩
  | .hbm, ⟨48, _⟩ => ⟨S1x80, .f32⟩
  | .hbm, ⟨49, _⟩ => ⟨S131072x80, .f32⟩
  | .hbm, ⟨50, _⟩ => ⟨S131072x80, .f32⟩
  | .hbm, ⟨51, _⟩ => ⟨S_, .f32⟩
  | .hbm, ⟨52, _⟩ => ⟨S131072, .f32⟩
  | .hbm, ⟨53, _⟩ => ⟨S_, .f32⟩
  | .hbm, ⟨54, _⟩ => ⟨S131072, .f32⟩
  | .hbm, ⟨55, _⟩ => ⟨S131072, .f32⟩
  | .hbm, ⟨56, _⟩ => ⟨S131072x1, .f32⟩
  | .hbm, ⟨57, _⟩ => ⟨S131072x80, .f32⟩
  | .hbm, ⟨58, _⟩ => ⟨S131072x80, .f32⟩
  | .hbm, ⟨59, _⟩ => ⟨S131072x80, .f32⟩
  | .hbm, ⟨60, _⟩ => ⟨S_, .f32⟩
  | .hbm, ⟨61, _⟩ => ⟨S131072, .f32⟩
  | .hbm, ⟨62, _⟩ => ⟨S131072x1, .f32⟩
  | .hbm, ⟨63, _⟩ => ⟨S131072x80, .f32⟩
  | .hbm, ⟨64, _⟩ => ⟨S131072x80, .f32⟩
  | .hbm, ⟨65, _⟩ => ⟨S131072x64, .f32⟩
  | .hbm, ⟨66, _⟩ => ⟨S64x2048x64, .f32⟩
  | .hbm, ⟨67, _⟩ => ⟨S_, .f32⟩
  | .hbm, ⟨68, _⟩ => ⟨S64x64, .f32⟩
  | .hbm, ⟨69, _⟩ => ⟨S64x512x64, .f32⟩
  | .hbm, ⟨70, _⟩ => ⟨S64x1x64, .f32⟩
  | .hbm, ⟨71, _⟩ => ⟨S64x512x64, .f32⟩
  | .hbm, ⟨72, _⟩ => ⟨S64x512x64, .f32⟩
  | .hbm, ⟨73, _⟩ => ⟨S64x512x64, .f32⟩
  | .hbm, ⟨74, _⟩ => ⟨S64x512x64, .f32⟩
  | .hbm, ⟨75, _⟩ => ⟨S64x512x64, .f32⟩
  | .hbm, ⟨76, _⟩ => ⟨S_, .f32⟩
  | .hbm, ⟨77, _⟩ => ⟨S64x64, .f32⟩
  | .hbm, ⟨78, _⟩ => ⟨S64x1x64, .f32⟩
  | .hbm, ⟨79, _⟩ => ⟨S64x1x64, .f32⟩
  | .hbm, ⟨80, _⟩ => ⟨S_, .f32⟩
  | .hbm, ⟨81, _⟩ => ⟨S64x1x64, .f32⟩
  | .hbm, ⟨82, _⟩ => ⟨S64x1x64, .f32⟩
  | .hbm, ⟨83, _⟩ => ⟨S64x512x64, .f32⟩
  | .hbm, ⟨84, _⟩ => ⟨S64x512x64, .f32⟩
  | .hbm, ⟨85, _⟩ => ⟨S64x32768, .f32⟩
  | .hbm, ⟨86, _⟩ => ⟨S64x32768, .f32⟩
  | .hbm, ⟨87, _⟩ => ⟨S_, .f32⟩
  | .hbm, ⟨88, _⟩ => ⟨S64, .f32⟩
  | .hbm, ⟨89, _⟩ => ⟨S64x1, .f32⟩
  | .hbm, ⟨90, _⟩ => ⟨S64x1, .f32⟩
  | .hbm, ⟨91, _⟩ => ⟨S_, .f32⟩
  | .hbm, ⟨92, _⟩ => ⟨S64x1, .f32⟩
  | .hbm, ⟨93, _⟩ => ⟨S64x1, .f32⟩
  | .hbm, ⟨94, _⟩ => ⟨S64x32768, .f32⟩
  | .hbm, ⟨95, _⟩ => ⟨S64x32768, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_2 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call1_v0 : Ref sig .tc := ⟨.hbm, 75, rfl⟩
abbrev main_call1_cst : Ref sig .tc := ⟨.hbm, 76, rfl⟩
abbrev main_call1_v1 : Ref sig .tc := ⟨.hbm, 77, rfl⟩
abbrev main_call1_v2 : Ref sig .tc := ⟨.hbm, 78, rfl⟩
abbrev main_v41 : Ref sig .tc := ⟨.hbm, 79, rfl⟩
abbrev main_cst_6 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_call2_v2 : Ref sig .tc := ⟨.hbm, 89, rfl⟩
abbrev main_v47 : Ref sig .tc := ⟨.hbm, 90, rfl⟩
abbrev main_cst_7 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩

abbrev nD : Nat := 1
abbrev τ : Topo := Topo.v7x

variable {F : FTy → Type} [FloatOps F]

class Facts₀ : Prop where
  shapeCasts_S64x2048x512_S131072x512 : S64x2048x512.ShapeCasts S131072x512
  reducesTo_S131072x80_S80_d0 : S131072x80.ReducesTo [0] S80
  h_S_ : 0 < S_.numel
  bcast_S_S80 : S_.BroadcastsInDim S80 (![] : Fin 0 → Fin S80.rank)
  bcast_S80_S1x80_1 : S80.BroadcastsInDim S1x80 (![1] : Fin 1 → Fin S1x80.rank)
  bcast_S_S1x80 : S_.BroadcastsInDim S1x80 (![] : Fin 0 → Fin S1x80.rank)
  bcast_S1x80_S131072x80_0_1 : S1x80.BroadcastsInDim S131072x80 (![0, 1] : Fin 2 → Fin S131072x80.rank)
  reducesTo_S131072x80_S131072_d1 : S131072x80.ReducesTo [1] S131072
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x80_0_1 : S131072x1.BroadcastsInDim S131072x80 (![0, 1] : Fin 2 → Fin S131072x80.rank)
  slices_S131072x80_S131072x64_0_0 : S131072x80.Slices ![0, 0] S131072x64
  shapeCasts_S131072x64_S64x2048x64 : S131072x64.ShapeCasts S64x2048x64
  reducesTo_S64x2048x64_S64x64_d1 : S64x2048x64.ReducesTo [1] S64x64
  bcast_S64x64_S64x1x64_0_2 : S64x64.BroadcastsInDim S64x1x64 (![0, 2] : Fin 2 → Fin S64x1x64.rank)
  bcast_S64x1x64_S64x512x64_0_1_2 : S64x1x64.BroadcastsInDim S64x512x64 (![0, 1, 2] : Fin 3 → Fin S64x512x64.rank)
  bcast_S1x512x64_S64x512x64_0_1_2 : S1x512x64.BroadcastsInDim S64x512x64 (![0, 1, 2] : Fin 3 → Fin S64x512x64.rank)
  reducesTo_S64x512x64_S64x64_d1 : S64x512x64.ReducesTo [1] S64x64
  bcast_S_S64x1x64 : S_.BroadcastsInDim S64x1x64 (![] : Fin 0 → Fin S64x1x64.rank)
  shapeCasts_S64x512x64_S64x32768 : S64x512x64.ShapeCasts S64x32768
  reducesTo_S64x32768_S64_d1 : S64x32768.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32768_0_1 : S64x1.BroadcastsInDim S64x32768 (![0, 1] : Fin 2 → Fin S64x32768.rank)
  dot_S131072x512_S512x80_S131072x80_1_0_0_1_n_n_wf : DotDims.WF S131072x512 S512x80 S131072x80 [1] [0] [0] [1] [] []
  dot_S64x2048x512_S64x2048x64_S64x512x64_1_1_2_2_0_0_wf : DotDims.WF S64x2048x512 S64x2048x64 S64x512x64 [1] [1] [2] [2] [0] [0]

variable [Facts₀]

def dot_S131072x512_S512x80_S131072x80_1_0_0_1_n_n : DotDims S131072x512 S512x80 S131072x80 where
  lhsContracting := [1]
  rhsContracting := [0]
  lhsNonContracting := [0]
  rhsNonContracting := [1]
  lhsBatch := []
  rhsBatch := []
  wf := dot_S131072x512_S512x80_S131072x80_1_0_0_1_n_n_wf
def dot_S64x2048x512_S64x2048x64_S64x512x64_1_1_2_2_0_0 : DotDims S64x2048x512 S64x2048x64 S64x512x64 where
  lhsContracting := [1]
  rhsContracting := [1]
  lhsNonContracting := [2]
  rhsNonContracting := [2]
  lhsBatch := [0]
  rhsBatch := [0]
  wf := dot_S64x2048x512_S64x2048x64_S64x512x64_1_1_2_2_0_0_wf

class Facts : Prop extends Facts₀ where

variable [Facts]
-- ==== Proof.Spec.lean ====
/-
  The common mathematical specification of the two programs, over plain families of extended reals.

  Both programs compute a NetVLAD descriptor. With rows r = (b, n) of the flattened batch (64 batches of 2048
  rows), the projection is a r j = ∑ k, x r k * cl k j (80 columns). Per column, batch statistics μ j (mean)
  and v j (variance) are taken over all 131072 rows. Then, per row: the batch-normalised activations
  bn = (a - μ) * rsqrt (v + ε₅) * w + β, a softmax over the 80 columns, of which the first 64 are kept
  (soft). Per batch b: asum k = ∑ n, soft, raw d k = ∑ n, x * soft, vlad = raw - asum * c2, a column-wise
  normalisation by sqrt (∑ d, vlad²) + ε₆, and a final normalisation by max (sqrt (∑ vn²)) ε₁₂.

  The two programs differ only in how the statistics are formed: the kernel sums 32 blocks of 4096 rows and
  forms the variance as max (E[a²] - μ², 0); the reference sums all rows at once and forms E[(a - μ)²]. On
  finite values the two agree (stats_eq, proved in Stats.lean).
-/
import Idealize.ShloMosaic.PureOps.Ideal
import Idealize.ShloMosaic.PureOps.Ideal.Laws

noncomputable section

namespace Cert.Vlad

open Idealize.ShloMosaic

/-- The shared float literals, kept as the words both programs print (never evaluated). -/
abbrev eps5 : EReal := Ideal.ofBits .f32 0x3727C5AC#32
abbrev eps6 : EReal := Ideal.ofBits .f32 0x358637BD#32
abbrev eps12 : EReal := Ideal.ofBits .f32 0x2B8CBCCC#32
/-- The row count 131072 as both programs print it. -/
abbrev cR : EReal := Ideal.ofBits .f32 0x48000000#32
/-- The initial value of the row maximum, the word of -∞. -/
abbrev negInf : EReal := Ideal.ofBits .f32 0xFF800000#32

/-- Row n of batch b in the flattened batch. -/
def row (b : Fin 64) (n : Fin 2048) : Fin 131072 := ⟨b.val * 2048 + n.val, by omega⟩
/-- Row ρ of block i when the flattened batch is cut into 32 blocks of 4096 rows. -/
def brow (i : Fin 32) (ρ : Fin 4096) : Fin 131072 := ⟨i.val * 4096 + ρ.val, by omega⟩
/-- The batch of a flattened row, and its row within the batch. -/
def rowB (r : Fin 131072) : Fin 64 := ⟨r.val / 2048, by omega⟩
def rowN (r : Fin 131072) : Fin 2048 := ⟨r.val % 2048, Nat.mod_lt _ (by decide)⟩
/-- The first 64 of the 80 columns. -/
def col (k : Fin 64) : Fin 80 := ⟨k.val, by omega⟩

/-! ## The projection and the batch statistics -/

/-- The projection of flattened row r on column j. -/
def proj (x : Fin 64 → Fin 2048 → Fin 512 → EReal) (cl : Fin 512 → Fin 80 → EReal) (r : Fin 131072) (j : Fin 80) : EReal :=
  ∑ k : Fin 512, x (rowB r) (rowN r) k * cl k j

/-- The reference's mean: all rows summed, divided by the row count. -/
def meanR (af : Fin 131072 → Fin 80 → EReal) (j : Fin 80) : EReal := Ideal.div (∑ r : Fin 131072, af r j) cR
/-- The reference's variance: the mean of the squared deviations (its divisor is the row count less zero degrees
    of freedom). -/
def varR (af : Fin 131072 → Fin 80 → EReal) (j : Fin 80) : EReal :=
  Ideal.div (∑ r : Fin 131072, (af r j - meanR af j) * (af r j - meanR af j)) (cR - ((0 : ℝ) : EReal))
/-- The kernel's mean: 32 block sums of 4096 rows, summed, divided by the row count. -/
def meanK (af : Fin 131072 → Fin 80 → EReal) (j : Fin 80) : EReal :=
  Ideal.div (∑ i : Fin 32, ∑ ρ : Fin 4096, af (brow i ρ) j) cR
/-- The kernel's variance: the mean of the squares less the squared mean, clamped at zero. -/
def varK (af : Fin 131072 → Fin 80 → EReal) (j : Fin 80) : EReal :=
  max (Ideal.div (∑ i : Fin 32, ∑ ρ : Fin 4096, af (brow i ρ) j * af (brow i ρ) j) cR - meanK af j * meanK af j) 0

/-! ## One row: batch normalisation and the softmax over the 80 columns -/

section Soft
variable (ar μ v w β : Fin 80 → EReal)

/-- Batch normalisation of one activation of a row ar. -/
def bn (j : Fin 80) : EReal := (ar j - μ j) * Ideal.rsqrt (v j + eps5) * w j + β j
/-- The row's maximum over the 80 columns, from -∞. -/
def rowmax : EReal := (Finset.univ : Finset (Fin 80)).fold max negInf (fun j => bn ar μ v w β j)
def ex (j : Fin 80) : EReal := Ideal.exp (bn ar μ v w β j - rowmax ar μ v w β)
def den : EReal := ∑ j : Fin 80, ex ar μ v w β j
/-- The soft assignment of the row to cluster k (the first 64 columns of the softmax). -/
def soft (k : Fin 64) : EReal := Ideal.div (ex ar μ v w β (col k)) (den ar μ v w β)

end Soft

/-! ## One batch: aggregation over its 2048 rows and the two normalisations -/

section Agg
variable (xb : Fin 2048 → Fin 512 → EReal) (sf : Fin 2048 → Fin 64 → EReal) (c2 : Fin 512 → Fin 64 → EReal)

def asum (k : Fin 64) : EReal := ∑ n : Fin 2048, sf n k
def raw (d : Fin 512) (k : Fin 64) : EReal := ∑ n : Fin 2048, xb n d * sf n k
def vlad (d : Fin 512) (k : Fin 64) : EReal := raw xb sf d k - asum sf k * c2 d k
def nrm (k : Fin 64) : EReal := Ideal.sqrt (∑ d : Fin 512, vlad xb sf c2 d k * vlad xb sf c2 d k) + eps6
def vn (d : Fin 512) (k : Fin 64) : EReal := Ideal.div (vlad xb sf c2 d k) (nrm xb sf c2 k)
def tot : EReal := max (Ideal.sqrt (∑ k : Fin 64, ∑ d : Fin 512, vn xb sf c2 d k * vn xb sf c2 d k)) eps12
/-- The batch's descriptor entry (d, k). -/
def out (d : Fin 512) (k : Fin 64) : EReal := Ideal.div (vn xb sf c2 d k) (tot xb sf c2)

end Agg

/-- The whole descriptor from the inputs, given the statistics (mean μ, variance v) of the projection. -/
def descr (μ v : Fin 80 → EReal)
    (x : Fin 64 → Fin 2048 → Fin 512 → EReal) (cl : Fin 512 → Fin 80 → EReal) (c2 : Fin 512 → Fin 64 → EReal)
    (w β : Fin 80 → EReal) (b : Fin 64) (d : Fin 512) (k : Fin 64) : EReal :=
  out (x b) (fun n => soft (fun j => proj x cl (row b n) j) μ v w β) c2 d k

/-- Position (d, k) of a flattened descriptor of 512 × 64 entries. -/
def flat (d : Fin 512) (k : Fin 64) : Fin 32768 := ⟨d.val * 64 + k.val, by omega⟩

end Cert.Vlad

end
-- ==== Proof.K0Value.lean ====
/-
  What the first region leaves in its three output arrays: the projection of every flattened row, and per block of
  4096 rows the column sums of the projection and of its squares.
-/
import proofs.«417997_j17514876633265_3_alg».proof.Proof.Gen.KernelIdeal.Frame
import proofs.«417997_j17514876633265_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.K0

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The region's two input arrays at their literal types: the flattened features and the cluster matrix. -/
abbrev xf : FVec Ideal S131072x512 .f32 := V c main_v0
abbrev clm : FVec Ideal S512x80 .f32 := V c main_arg1

/-- The projection of flattened row r on column j, from the region's two input arrays. -/
abbrev pr (r : Fin 131072) (j : Fin 80) : EReal := ∑ k : Fin 512, xf V c (ix2 r k) * clm V c (ix2 k j)

/-! ## The payloads at an index -/

theorem lhs_0 (i : S4096x80.Idx) (q : dot_S4096x512_S512x80_S4096x80_1_0_0_1_n_n.contr.Idx) :
    (dot_S4096x512_S512x80_S4096x80_1_0_0_1_n_n.lhsIdx i q 0).val = (i 0).val := by
  unfold DotDims.lhsIdx
  rw [dif_neg (show ¬(0 : Fin S4096x512.rank) ∈ dot_S4096x512_S512x80_S4096x80_1_0_0_1_n_n.lhsBatch by decide),
    dif_pos (show (0 : Fin S4096x512.rank) ∈ dot_S4096x512_S512x80_S4096x80_1_0_0_1_n_n.lhsNonContracting by decide)]
  rfl

theorem lhs_1 (i : S4096x80.Idx) (q : dot_S4096x512_S512x80_S4096x80_1_0_0_1_n_n.contr.Idx) :
    (dot_S4096x512_S512x80_S4096x80_1_0_0_1_n_n.lhsIdx i q 1).val = (q ⟨0, by decide⟩).val :=
  dot_S4096x512_S512x80_S4096x80_1_0_0_1_n_n.lhsIdx_val_of_single rfl i q

theorem rhs_0 (i : S4096x80.Idx) (q : dot_S4096x512_S512x80_S4096x80_1_0_0_1_n_n.contr.Idx) :
    (dot_S4096x512_S512x80_S4096x80_1_0_0_1_n_n.rhsIdx i q 0).val = (q ⟨0, by decide⟩).val :=
  dot_S4096x512_S512x80_S4096x80_1_0_0_1_n_n.rhsIdx_val_of_single rfl i q

theorem rhs_1 (i : S4096x80.Idx) (q : dot_S4096x512_S512x80_S4096x80_1_0_0_1_n_n.contr.Idx) :
    (dot_S4096x512_S512x80_S4096x80_1_0_0_1_n_n.rhsIdx i q 1).val = (i 1).val := by
  unfold DotDims.rhsIdx
  rw [dif_neg (show ¬(1 : Fin S512x80.rank) ∈ dot_S4096x512_S512x80_S4096x80_1_0_0_1_n_n.rhsBatch by decide),
    dif_pos (show (1 : Fin S512x80.rank) ∈ dot_S4096x512_S512x80_S4096x80_1_0_0_1_n_n.rhsNonContracting by decide)]
  rfl

/-- The projection block at (ρ, j): the sum over the 512 features of the row's entry times the cluster matrix's. -/
theorem pay1_apply (x0 : Vec Ideal S4096x512 .f32) (x1 : Vec Ideal S512x80 .f32) (ρ : Fin 4096) (j : Fin 80) :
    k0_pay1 x0 x1 (ix2 ρ j) = ∑ k : Fin 512, x0 (ix2 ρ k) * x1 (ix2 k j) := by
  unfold k0_pay1
  simp only [matmul]
  rw [Ideal.matmul_constant_zero_apply,
    ← Equiv.sum_comp (contrEquiv1 dot_S4096x512_S512x80_S4096x80_1_0_0_1_n_n 512 rfl rfl).symm]
  refine Finset.sum_congr rfl fun k _ => ?_
  have hk := contrEquiv1_symm_val dot_S4096x512_S512x80_S4096x80_1_0_0_1_n_n 512 rfl rfl k
  have el : dot_S4096x512_S512x80_S4096x80_1_0_0_1_n_n.lhsIdx (ix2 ρ j)
      ((contrEquiv1 dot_S4096x512_S512x80_S4096x80_1_0_0_1_n_n 512 rfl rfl).symm k) = ix2 ρ k :=
    funext fun a => Fin.ext (by
      match a with
      | ⟨0, _⟩ => exact lhs_0 _ _
      | ⟨1, _⟩ => exact (lhs_1 _ _).trans hk)
  have er : dot_S4096x512_S512x80_S4096x80_1_0_0_1_n_n.rhsIdx (ix2 ρ j)
      ((contrEquiv1 dot_S4096x512_S512x80_S4096x80_1_0_0_1_n_n 512 rfl rfl).symm k) = ix2 k j :=
    funext fun a => Fin.ext (by
      match a with
      | ⟨0, _⟩ => exact (rhs_0 _ _).trans hk
      | ⟨1, _⟩ => exact rhs_1 _ _)
  rw [el, er, truncf_apply, truncf_apply, shapeCast_self]

/-- The reduced column index j with row k put back is (k, j). -/
theorem lift_col (h : S4096x80.Reduces [0] S80) (j : Fin 80) (k : Fin (S4096x80.size 0)) :
    h.lift (ix1 j) k = ix2 (⟨k.val, k.isLt⟩ : Fin 4096) j := by
  funext a; apply Fin.ext
  match a with
  | ⟨0, _⟩ => rfl
  | ⟨1, _⟩ => rfl

/-- The sum of a [4096, 80] block over its rows, read at column j. -/
theorem colsum_apply (src : FVec Ideal S4096x80 .f32) (h : S4096x80.Reduces [0] S80) (hφ : FKind.Formats .f32)
    (hacc : (0x00000000#32 : BitVec 32) = FKind.add.neutral .f32 hφ) (j : Fin 80) :
    multiReduction .add [0] S80 src 0x00000000#32 h hφ hacc (ix1 j) = ∑ ρ : Fin 4096, src (ix2 ρ j) := by
  refine (Ideal.multiReduction_add_single src 0x00000000#32 h hφ hacc (ix1 j)).trans ?_
  show ∑ k : Fin 4096, src (h.lift (ix1 j) k) = _
  exact Finset.sum_congr rfl fun k _ => congrArg src (lift_col h j k)

/-- The block's column sums of the projection. -/
theorem pay2_apply (x0 : Vec Ideal S4096x512 .f32) (x1 : Vec Ideal S512x80 .f32) (u v : Fin 1) (j : Fin 80) :
    k0_pay2 x0 x1 (ix3 u v j) = ∑ ρ : Fin 4096, k0_pay1 x0 x1 (ix2 ρ j) := by
  unfold k0_pay2
  refine (shapeCast_ab_1ab_apply _ _ u v j).trans ?_
  refine (shapeCast_a_1a_apply _ _ v j).trans ?_
  exact colsum_apply _ _ _ _ j

/-- The block's column sums of the squared projection. -/
theorem pay3_apply (x0 : Vec Ideal S4096x512 .f32) (x1 : Vec Ideal S512x80 .f32) (u v : Fin 1) (j : Fin 80) :
    k0_pay3 x0 x1 (ix3 u v j) = ∑ ρ : Fin 4096, k0_pay1 x0 x1 (ix2 ρ j) * k0_pay1 x0 x1 (ix2 ρ j) := by
  unfold k0_pay3
  refine (shapeCast_ab_1ab_apply _ _ u v j).trans ?_
  refine (shapeCast_a_1a_apply _ _ v j).trans ?_
  exact colsum_apply _ _ _ _ j

/-! ## The blocks of the grid's 32 points -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: point t reads row block t of the features and the whole cluster matrix,
    and writes row block t of the projection and row t of the two arrays of column sums. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Block t of the flattened features is its rows 4096·t … 4096·t + 4095. -/
theorem blk0_apply (t : Fin cfg0.N) (ρ : Fin 4096) (k : Fin 512) (r : Fin 131072) (hr : r.val = t.val * 4096 + ρ.val) :
    (iblk0 V c 0 t : Vec Ideal S4096x512 .f32) (ix2 ρ k) = xf V c (ix2 r k) := by
  obtain ⟨e0, e1, -⟩ := idx_facts t
  unfold iblk0
  rw [View.read_apply]
  show V c main_v0 _ = V c main_v0 _
  refine congrArg (V c main_v0) ?_
  funext a
  apply Fin.ext
  match a with
  | ⟨0, _⟩ => show win0_0.index t (0 : Fin 2) * 4096 + 1 * ρ.val = r.val; rw [e0, hr]; omega
  | ⟨1, _⟩ => show win0_0.index t (1 : Fin 2) * 512 + 1 * k.val = k.val; rw [e1]; omega

/-- Every point's block of the cluster matrix is the whole matrix. -/
theorem blk1_apply (t : Fin cfg0.N) (k : Fin 512) (j : Fin 80) :
    (iblk0 V c 1 t : Vec Ideal S512x80 .f32) (ix2 k j) = clm V c (ix2 k j) := by
  obtain ⟨-, -, e2, e3, -⟩ := idx_facts t
  unfold iblk0
  rw [View.read_apply]
  show V c main_arg1 _ = V c main_arg1 _
  refine congrArg (V c main_arg1) ?_
  funext a
  apply Fin.ext
  match a with
  | ⟨0, _⟩ => show win0_1.index t (0 : Fin 2) * 512 + 1 * k.val = k.val; rw [e2]; omega
  | ⟨1, _⟩ => show win0_1.index t (1 : Fin 2) * 80 + 1 * j.val = j.val; rw [e3]; omega

/-- The projection computed from point t's blocks, at row ρ of the block, is the projection of row 4096·t + ρ. -/
theorem pay1_blk (t : Fin cfg0.N) (ρ : Fin 4096) (j : Fin 80) (r : Fin 131072) (hr : r.val = t.val * 4096 + ρ.val) :
    k0_pay1 (iblk0 V c 0 t) (iblk0 V c 1 t) (ix2 ρ j) = pr V c r j := by
  refine (pay1_apply (iblk0 V c 0 t) (iblk0 V c 1 t) ρ j).trans ?_
  refine Finset.sum_congr rfl fun k _ => ?_
  rw [blk0_apply V c t ρ k r hr, blk1_apply V c t k j]

/-! ## What each point writes back, and the three arrays after the run -/

/-- Point t writes back block t of the projection. -/
theorem flushed2_eq (t : Fin cfg0.N) :
    (dat0 (F := Ideal) V c).flushed 2 t
      = ((cfg0.win 2).blk t).view.read (Elt Ideal) (fun i : S131072x80.Idx => pr V c (i 0) (i 1)) := by
  show (cfg0.win 2).cut (grid0.coords t) ((dat0 V c).after 2 t) = _
  rw [after0_2]
  unfold out0_2
  rw [View.canon_unit_zero hz2]
  simp only [View.ld_unit_zero (S := S4096x512) hz2, View.ld_unit_zero (S := S512x80) hz2]
  obtain ⟨-, -, -, -, e4, e5, -⟩ := idx_facts t
  have hN : cfg0.N = 32 := N_0
  have ht : t.val < 32 := hN ▸ t.isLt
  refine funext fun (y : S4096x80.Idx) => ?_
  obtain ⟨ρ, j, rfl⟩ : ∃ (ρ : Fin 4096) (j : Fin 80), y = ix2 ρ j := ⟨y 0, y 1, eq_ix2 y⟩
  have hr : t.val * 4096 + ρ.val < 131072 := by omega
  have h0 : (((cfg0.win 2).blk t).view.emb (ix2 ρ j)) 0 = (⟨t.val * 4096 + ρ.val, hr⟩ : Fin 131072) := Fin.ext (by
    show win0_2.index t (0 : Fin 2) * 4096 + 1 * ρ.val = t.val * 4096 + ρ.val; rw [e4]; omega)
  have h1 : (((cfg0.win 2).blk t).view.emb (ix2 ρ j)) 1 = j := Fin.ext (by
    show win0_2.index t (1 : Fin 2) * 80 + 1 * j.val = j.val; rw [e5]; omega)
  show k0_pay1 (iblk0 V c 0 t) (iblk0 V c 1 t) (ix2 ρ j)
    = pr V c ((((cfg0.win 2).blk t).view.emb (ix2 ρ j)) 0) ((((cfg0.win 2).blk t).view.emb (ix2 ρ j)) 1)
  rw [h0, h1]
  exact pay1_blk V c t ρ j _ rfl

/-- A row of the projection is in point t's block iff it is one of rows 4096·t … 4096·t + 4095. -/
theorem mem_blk2 (t : Fin cfg0.N) (i : S131072x80.Idx) :
    i ∈ ((cfg0.win 2).blk t).view.set ↔ ∀ a : Fin 2, win0_2.index t a * S4096x80.size a ≤ (i a).val
      ∧ (i a).val < win0_2.index t a * S4096x80.size a + S4096x80.size a := by
  show i ∈ ((View.whole main_v1_0).slice (win0_2.rect t)).set ↔ _
  rw [View.set_slice_whole, Rect.mem_set_unit]
  exact Iff.rfl

/-- Row r of the projection is written by point r / 4096. -/
theorem cover2 (i : S131072x80.Idx) :
    ∃ t : Fin cfg0.N, (cfg0.win 2).flush t = true ∧ i ∈ ((cfg0.win 2).blk t).view.set := by
  have hN : cfg0.N = 32 := N_0
  have hi0 : (i 0).val < 131072 := (i 0).isLt
  have hi1 : (i 1).val < 80 := (i 1).isLt
  obtain ⟨t, ht⟩ : ∃ t : Fin cfg0.N, t.val = (i 0).val / 4096 := ⟨⟨(i 0).val / 4096, by rw [hN]; omega⟩, rfl⟩
  obtain ⟨-, -, -, -, e4, e5, -⟩ := idx_facts t
  refine ⟨t, flush0_2 t, ?_⟩
  rw [mem_blk2]
  intro a
  match a with
  | ⟨0, _⟩ =>
    show win0_2.index t (0 : Fin 2) * 4096 ≤ (i 0).val ∧ (i 0).val < win0_2.index t (0 : Fin 2) * 4096 + 4096
    rw [e4]; omega
  | ⟨1, _⟩ =>
    show win0_2.index t (1 : Fin 2) * 80 ≤ (i 1).val ∧ (i 1).val < win0_2.index t (1 : Fin 2) * 80 + 80
    rw [e5]; omega

/-- The column sums of the projection over the 4096 rows of block i, and of its squares. -/
abbrev bsum : FVec Ideal S32x1x80 .f32 := fun i => ∑ ρ : Fin 4096, pr V c (Vlad.brow (i 0) ρ) (i 2)
abbrev bsq : FVec Ideal S32x1x80 .f32 :=
  fun i => ∑ ρ : Fin 4096, pr V c (Vlad.brow (i 0) ρ) (i 2) * pr V c (Vlad.brow (i 0) ρ) (i 2)

/-- Point t writes back row t of the block sums of the projection. -/
theorem flushed3_eq (t : Fin cfg0.N) :
    (dat0 (F := Ideal) V c).flushed 3 t = ((cfg0.win 3).blk t).view.read (Elt Ideal) (bsum V c) := by
  show (cfg0.win 3).cut (grid0.coords t) ((dat0 V c).after 3 t) = _
  rw [after0_3]
  unfold out0_3
  rw [View.canon_unit_zero hz3]
  simp only [View.ld_unit_zero (S := S4096x512) hz2, View.ld_unit_zero (S := S512x80) hz2]
  obtain ⟨-, -, -, -, -, -, e0, -, e2, -⟩ := idx_facts t
  have hN : cfg0.N = 32 := N_0
  have ht : t.val < 32 := hN ▸ t.isLt
  refine funext fun (y : S1x1x80.Idx) => ?_
  obtain ⟨u, v, j, rfl⟩ : ∃ (u v : Fin 1) (j : Fin 80), y = ix3 u v j := ⟨y 0, y 1, y 2, eq_ix3 y⟩
  have h0 : (((cfg0.win 3).blk t).view.emb (ix3 u v j)) 0 = (⟨t.val, ht⟩ : Fin 32) := Fin.ext (by
    show win0_3.index t (0 : Fin 3) * 1 + 1 * u.val = t.val; rw [e0]; omega)
  have h2 : (((cfg0.win 3).blk t).view.emb (ix3 u v j)) 2 = j := Fin.ext (by
    show win0_3.index t (2 : Fin 3) * 80 + 1 * j.val = j.val; rw [e2]; omega)
  show (k0_pay2 (iblk0 V c 0 t) (iblk0 V c 1 t) (ix3 u v j) : EReal)
    = ∑ ρ : Fin 4096, pr V c (Vlad.brow ((((cfg0.win 3).blk t).view.emb (ix3 u v j)) 0) ρ) ((((cfg0.win 3).blk t).view.emb (ix3 u v j)) 2)
  rw [h0, h2]
  refine (pay2_apply _ _ u v j).trans ?_
  refine Finset.sum_congr rfl fun ρ _ => ?_
  rw [pay1_blk V c t ρ j (Vlad.brow ⟨t.val, ht⟩ ρ) rfl]

/-- An entry of the array of block sums is in point t's block iff its block coordinate is t. -/
theorem mem_blk3 (t : Fin cfg0.N) (i : S32x1x80.Idx) :
    i ∈ ((cfg0.win 3).blk t).view.set ↔ ∀ a : Fin 3, win0_3.index t a * S1x1x80.size a ≤ (i a).val
      ∧ (i a).val < win0_3.index t a * S1x1x80.size a + S1x1x80.size a := by
  show i ∈ ((View.whole main_v1_1).slice (win0_3.rect t)).set ↔ _
  rw [View.set_slice_whole, Rect.mem_set_unit]
  exact Iff.rfl

/-- Row i of the array of block sums is written by point i. -/
theorem cover3 (i : S32x1x80.Idx) :
    ∃ t : Fin cfg0.N, (cfg0.win 3).flush t = true ∧ i ∈ ((cfg0.win 3).blk t).view.set := by
  have hN : cfg0.N = 32 := N_0
  have hi0 : (i 0).val < 32 := (i 0).isLt
  have hi1 : (i 1).val < 1 := (i 1).isLt
  have hi2 : (i 2).val < 80 := (i 2).isLt
  obtain ⟨t, ht⟩ : ∃ t : Fin cfg0.N, t.val = (i 0).val := ⟨⟨(i 0).val, by rw [hN]; omega⟩, rfl⟩
  obtain ⟨-, -, -, -, -, -, e0, e1, e2, -⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 80 ≤ (i 2).val ∧ (i 2).val < win0_3.index t (2 : Fin 3) * 80 + 80
    rw [e2]; omega

/-- Point t writes back row t of the block sums of the squared projection. -/
theorem flushed4_eq (t : Fin cfg0.N) :
    (dat0 (F := Ideal) V c).flushed 4 t = ((cfg0.win 4).blk t).view.read (Elt Ideal) (bsq V c) := by
  show (cfg0.win 4).cut (grid0.coords t) ((dat0 V c).after 4 t) = _
  rw [after0_4]
  unfold out0_4
  rw [View.canon_unit_zero hz3]
  simp only [View.ld_unit_zero (S := S4096x512) hz2, View.ld_unit_zero (S := S512x80) hz2]
  obtain ⟨-, -, -, -, -, -, -, -, -, e0, -, e2⟩ := idx_facts t
  have hN : cfg0.N = 32 := N_0
  have ht : t.val < 32 := hN ▸ t.isLt
  refine funext fun (y : S1x1x80.Idx) => ?_
  obtain ⟨u, v, j, rfl⟩ : ∃ (u v : Fin 1) (j : Fin 80), y = ix3 u v j := ⟨y 0, y 1, y 2, eq_ix3 y⟩
  have h0 : (((cfg0.win 4).blk t).view.emb (ix3 u v j)) 0 = (⟨t.val, ht⟩ : Fin 32) := Fin.ext (by
    show win0_4.index t (0 : Fin 3) * 1 + 1 * u.val = t.val; rw [e0]; omega)
  have h2 : (((cfg0.win 4).blk t).view.emb (ix3 u v j)) 2 = j := Fin.ext (by
    show win0_4.index t (2 : Fin 3) * 80 + 1 * j.val = j.val; rw [e2]; omega)
  show (k0_pay3 (iblk0 V c 0 t) (iblk0 V c 1 t) (ix3 u v j) : EReal)
    = ∑ ρ : Fin 4096, pr V c (Vlad.brow ((((cfg0.win 4).blk t).view.emb (ix3 u v j)) 0) ρ) ((((cfg0.win 4).blk t).view.emb (ix3 u v j)) 2) * pr V c (Vlad.brow ((((cfg0.win 4).blk t).view.emb (ix3 u v j)) 0) ρ) ((((cfg0.win 4).blk t).view.emb (ix3 u v j)) 2)
  rw [h0, h2]
  refine (pay3_apply _ _ u v j).trans ?_
  refine Finset.sum_congr rfl fun ρ _ => ?_
  rw [pay1_blk V c t ρ j (Vlad.brow ⟨t.val, ht⟩ ρ) rfl]

/-- An entry of the array of block sums is in point t's block iff its block coordinate is t. -/
theorem mem_blk4 (t : Fin cfg0.N) (i : S32x1x80.Idx) :
    i ∈ ((cfg0.win 4).blk t).view.set ↔ ∀ a : Fin 3, win0_4.index t a * S1x1x80.size a ≤ (i a).val
      ∧ (i a).val < win0_4.index t a * S1x1x80.size a + S1x1x80.size a := by
  show i ∈ ((View.whole main_v1_2).slice (win0_4.rect t)).set ↔ _
  rw [View.set_slice_whole, Rect.mem_set_unit]
  exact Iff.rfl

/-- Row i of the array of block sums is written by point i. -/
theorem cover4 (i : S32x1x80.Idx) :
    ∃ t : Fin cfg0.N, (cfg0.win 4).flush t = true ∧ i ∈ ((cfg0.win 4).blk t).view.set := by
  have hN : cfg0.N = 32 := N_0
  have hi0 : (i 0).val < 32 := (i 0).isLt
  have hi1 : (i 1).val < 1 := (i 1).isLt
  have hi2 : (i 2).val < 80 := (i 2).isLt
  obtain ⟨t, ht⟩ : ∃ t : Fin cfg0.N, t.val = (i 0).val := ⟨⟨(i 0).val, by rw [hN]; omega⟩, rfl⟩
  obtain ⟨-, -, -, -, -, -, -, -, -, e0, e1, e2⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 1 ≤ (i 1).val ∧ (i 1).val < win0_4.index t (1 : Fin 3) * 1 + 1
    rw [e1]; omega
  | ⟨2, _⟩ =>
    show win0_4.index t (2 : Fin 3) * 80 ≤ (i 2).val ∧ (i 2).val < win0_4.index t (2 : Fin 3) * 80 + 80
    rw [e2]; omega

theorem arr0_2 : ((dat0 (F := Ideal) V c).arrAt 2 cfg0.N : FVec Ideal S131072x80 .f32) = fun i => pr V c (i 0) (i 1) :=
  (dat0 (F := Ideal) V c).arrAt_eq_of_cover 2 (fun i : S131072x80.Idx => pr V c (i 0) (i 1))
    (fun t _ => flushed2_eq V c t) cover2

theorem arr0_3 : ((dat0 (F := Ideal) V c).arrAt 3 cfg0.N : FVec Ideal S32x1x80 .f32)
    = fun i => ∑ ρ : Fin 4096, pr V c (Vlad.brow (i 0) ρ) (i 2) :=
  (dat0 (F := Ideal) V c).arrAt_eq_of_cover 3 (bsum V c) (fun t _ => flushed3_eq V c t) cover3

theorem arr0_4 : ((dat0 (F := Ideal) V c).arrAt 4 cfg0.N : FVec Ideal S32x1x80 .f32)
    = fun i => ∑ ρ : Fin 4096, pr V c (Vlad.brow (i 0) ρ) (i 2) * pr V c (Vlad.brow (i 0) ρ) (i 2) :=
  (dat0 (F := Ideal) V c).arrAt_eq_of_cover 4 (bsq V c) (fun t _ => flushed4_eq V c t) cover4

end Cert.KernelIdeal.K0

end
-- ==== Proof.K1Payload.lean ====
/-
  The second kernel's arithmetic read at an index. Its body, for one batch, forms the soft assignment of each of the
  2048 rows (batch normalisation, softmax over 80 columns, the first 64 kept), sums it over the rows, contracts it
  with the batch's features over the rows, subtracts the weighted cluster centres, and normalises twice; the
  result is stored transposed (cluster, feature).
-/
import proofs.«417997_j17514876633265_3_alg».proof.Proof.Gen.KernelIdeal.Skeleton
import proofs.«417997_j17514876633265_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.K1

open Cert.KernelIdeal Cert.KernelIdeal.Gen Idealize.ShloMosaic Idealize.ShloMosaic.ValueIdx

/-! ## Pointwise unary operations at an index -/

section Unary
variable {s : Shape} {φ : FTy}

theorem rsqrt_apply (a : FVec Ideal s φ) (i : s.Idx) : Idealize.ShloMosaic.rsqrt a i = Ideal.rsqrt (a i) := rfl
theorem exp_apply (a : FVec Ideal s φ) (i : s.Idx) : Idealize.ShloMosaic.exp a i = Ideal.exp (a i) := rfl
theorem sqrt_apply (a : FVec Ideal s φ) (i : s.Idx) : Idealize.ShloMosaic.sqrt a i = Ideal.sqrt (a i) := rfl

end Unary

/-! ## Layout operations at explicit coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## Reductions over one axis at explicit coordinates -/

/-- The row maximum of a `[2048, 80]` array at row `n`. -/
theorem rowmax_apply (v : FVec Ideal S2048x80 .f32) (hφ : FKind.Formats .f32)
    (hacc : (0xFF800000#32 : BitVec 32) = 0xFF800000#32) (n : Fin 2048) :
    multiReduction (F := Ideal) .maximumf [1] S2048 v 0xFF800000#32 reduces_S2048x80_S2048 hφ hacc (ix1 n)
      = (Finset.univ : Finset (Fin 80)).fold max Vlad.negInf (fun j => v (ix2 n j)) := by
  refine (Ideal.multiReduction_maximumf_single v 0xFF800000#32 reduces_S2048x80_S2048 hφ hacc (ix1 n)).trans ?_
  show (Finset.univ : Finset (Fin 80)).fold max Vlad.negInf (fun j => v (reduces_S2048x80_S2048.lift (ix1 n) j)) = _
  refine congrArg (fun f : Fin 80 → EReal => (Finset.univ : Finset (Fin 80)).fold max Vlad.negInf f) (funext fun j => congrArg v ?_)
  funext c; apply Fin.ext
  match c with
  | ⟨0, _⟩ => rfl
  | ⟨1, _⟩ => rfl

/-- The row sum of a `[2048, 80]` array at row `n`. -/
theorem rowsum_apply (v : FVec Ideal S2048x80 .f32) (hφ : FKind.Formats .f32)
    (hacc : (0x00000000#32 : BitVec 32) = 0x00000000#32) (n : Fin 2048) :
    multiReduction (F := Ideal) .add [1] S2048 v 0x00000000#32 reduces_S2048x80_S2048 hφ hacc (ix1 n)
      = ∑ j : Fin 80, v (ix2 n j) := by
  refine (Ideal.multiReduction_add_single v 0x00000000#32 reduces_S2048x80_S2048 hφ hacc (ix1 n)).trans ?_
  show ∑ j : Fin 80, v (reduces_S2048x80_S2048.lift (ix1 n) j) = _
  refine Finset.sum_congr rfl fun j _ => congrArg v ?_
  funext c; apply Fin.ext
  match c with
  | ⟨0, _⟩ => rfl
  | ⟨1, _⟩ => rfl

/-- The column sum of a `[2048, 64]` array at column `k`. -/
theorem colsum2048_apply (v : FVec Ideal S2048x64 .f32) (hφ : FKind.Formats .f32)
    (hacc : (0x00000000#32 : BitVec 32) = 0x00000000#32) (k : Fin 64) :
    multiReduction (F := Ideal) .add [0] S64 v 0x00000000#32 reduces_S2048x64_S64 hφ hacc (ix1 k)
      = ∑ n : Fin 2048, v (ix2 n k) := by
  refine (Ideal.multiReduction_add_single v 0x00000000#32 reduces_S2048x64_S64 hφ hacc (ix1 k)).trans ?_
  show ∑ n : Fin 2048, v (reduces_S2048x64_S64.lift (ix1 k) n) = _
  refine Finset.sum_congr rfl fun n _ => congrArg v ?_
  funext c; apply Fin.ext
  match c with
  | ⟨0, _⟩ => rfl
  | ⟨1, _⟩ => rfl

/-- The column sum of a `[512, 64]` array at column `k`. -/
theorem colsum512_apply (v : FVec Ideal S512x64 .f32) (hφ : FKind.Formats .f32)
    (hacc : (0x00000000#32 : BitVec 32) = 0x00000000#32) (k : Fin 64) :
    multiReduction (F := Ideal) .add [0] S64 v 0x00000000#32 reduces_S512x64_S64 hφ hacc (ix1 k)
      = ∑ d : Fin 512, v (ix2 d k) := by
  refine (Ideal.multiReduction_add_single v 0x00000000#32 reduces_S512x64_S64 hφ hacc (ix1 k)).trans ?_
  show ∑ d : Fin 512, v (reduces_S512x64_S64.lift (ix1 k) d) = _
  refine Finset.sum_congr rfl fun d _ => congrArg v ?_
  funext c; apply Fin.ext
  match c with
  | ⟨0, _⟩ => rfl
  | ⟨1, _⟩ => rfl

/-- The sum of a `[1, 64]` array over its 64 lanes. -/
theorem lanesum64_apply (v : FVec Ideal S1x64 .f32) (hφ : FKind.Formats .f32)
    (hacc : (0x00000000#32 : BitVec 32) = 0x00000000#32) (u : Fin 1) :
    multiReduction (F := Ideal) .add [1] S1 v 0x00000000#32 reduces_S1x64_S1 hφ hacc (ix1 u)
      = ∑ k : Fin 64, v (ix2 u k) := by
  refine (Ideal.multiReduction_add_single v 0x00000000#32 reduces_S1x64_S1 hφ hacc (ix1 u)).trans ?_
  show ∑ k : Fin 64, v (reduces_S1x64_S1.lift (ix1 u) k) = _
  refine Finset.sum_congr rfl fun k _ => congrArg v ?_
  funext c; apply Fin.ext
  match c with
  | ⟨0, _⟩ => rfl
  | ⟨1, _⟩ => rfl

/-! ## The transposed product: contraction over the rows of both operands -/

theorem lhs_dot_0 (j : S512x64.Idx) (q : dot_S2048x512_S2048x64_S512x64_0_0_1_1_n_n.contr.Idx) :
    (dot_S2048x512_S2048x64_S512x64_0_0_1_1_n_n.lhsIdx j q 0).val = (q ⟨0, Nat.one_pos⟩).val :=
  DotDims.lhsIdx_val_of_single dot_S2048x512_S2048x64_S512x64_0_0_1_1_n_n (cl := 0) rfl j q

theorem lhs_dot_1 (j : S512x64.Idx) (q : dot_S2048x512_S2048x64_S512x64_0_0_1_1_n_n.contr.Idx) :
    (dot_S2048x512_S2048x64_S512x64_0_0_1_1_n_n.lhsIdx j q 1).val = (j 0).val := by
  unfold DotDims.lhsIdx
  rw [dif_neg (show ¬ (1 : Fin S2048x512.rank) ∈ dot_S2048x512_S2048x64_S512x64_0_0_1_1_n_n.lhsBatch by decide),
    dif_pos (show (1 : Fin S2048x512.rank) ∈ dot_S2048x512_S2048x64_S512x64_0_0_1_1_n_n.lhsNonContracting by decide)]
  rfl

theorem rhs_dot_0 (j : S512x64.Idx) (q : dot_S2048x512_S2048x64_S512x64_0_0_1_1_n_n.contr.Idx) :
    (dot_S2048x512_S2048x64_S512x64_0_0_1_1_n_n.rhsIdx j q 0).val = (q ⟨0, Nat.one_pos⟩).val :=
  DotDims.rhsIdx_val_of_single dot_S2048x512_S2048x64_S512x64_0_0_1_1_n_n (cr := 0) rfl j q

theorem rhs_dot_1 (j : S512x64.Idx) (q : dot_S2048x512_S2048x64_S512x64_0_0_1_1_n_n.contr.Idx) :
    (dot_S2048x512_S2048x64_S512x64_0_0_1_1_n_n.rhsIdx j q 1).val = (j 1).val := by
  unfold DotDims.rhsIdx
  rw [dif_neg (show ¬ (1 : Fin S2048x64.rank) ∈ dot_S2048x512_S2048x64_S512x64_0_0_1_1_n_n.rhsBatch by decide),
    dif_pos (show (1 : Fin S2048x64.rank) ∈ dot_S2048x512_S2048x64_S512x64_0_0_1_1_n_n.rhsNonContracting by decide)]
  rfl

/-- The product contracted over the 2048 rows of both operands, at `(d, k)`. -/
theorem matmul_rows_apply (A : FVec Ideal S2048x512 .bf16) (B : FVec Ideal S2048x64 .bf16) (d : Fin 512) (k : Fin 64) :
    matmul dot_S2048x512_S2048x64_S512x64_0_0_1_1_n_n none A B (constant (F := Ideal) S512x64 .f32 0x00000000#32) (ix2 d k)
      = ∑ n : Fin 2048, A (ix2 n d) * B (ix2 n k) := by
  show FloatOps.matmul dot_S2048x512_S2048x64_S512x64_0_0_1_1_n_n none A B (constant S512x64 .f32 0x00000000#32) (ix2 d k) = _
  rw [Ideal.matmul_constant_zero_apply,
    ← Equiv.sum_comp (contrEquiv1 dot_S2048x512_S2048x64_S512x64_0_0_1_1_n_n 2048 rfl rfl).symm]
  refine Finset.sum_congr rfl fun n _ => ?_
  have c := contrEquiv1_symm_val dot_S2048x512_S2048x64_S512x64_0_0_1_1_n_n 2048 rfl rfl n
  have l : dot_S2048x512_S2048x64_S512x64_0_0_1_1_n_n.lhsIdx (ix2 d k)
      ((contrEquiv1 dot_S2048x512_S2048x64_S512x64_0_0_1_1_n_n 2048 rfl rfl).symm n) = ix2 n d := by
    funext ax; apply Fin.ext
    match ax with
    | ⟨0, _⟩ => exact (lhs_dot_0 _ _).trans c
    | ⟨1, _⟩ => exact lhs_dot_1 _ _
  have r : dot_S2048x512_S2048x64_S512x64_0_0_1_1_n_n.rhsIdx (ix2 d k)
      ((contrEquiv1 dot_S2048x512_S2048x64_S512x64_0_0_1_1_n_n 2048 rfl rfl).symm n) = ix2 n k := by
    funext ax; apply Fin.ext
    match ax with
    | ⟨0, _⟩ => exact (rhs_dot_0 _ _).trans c
    | ⟨1, _⟩ => exact rhs_dot_1 _ _
  rw [l, r]

/-! ## The softmax tail over an arbitrary array of activations -/

/-- Over any `[2048, 80]` array `B`: subtract the row maximum, exponentiate, divide by the row sum, keep the first 64
    columns. Read at `(n, k)`. -/
theorem softTail_apply (B : FVec Ideal S2048x80 .f32) (hφ : FKind.Formats .f32)
    (hmax : (0xFF800000#32 : BitVec 32) = 0xFF800000#32) (hadd : (0x00000000#32 : BitVec 32) = 0x00000000#32)
    (n : Fin 2048) (k : Fin 64) :
    extractStridedSlice S2048x64 ![0, 0]
        (divf
          (Idealize.ShloMosaic.exp (subf B (broadcastTo S2048x80 (shapeCast S2048x1
            (multiReduction (F := Ideal) .maximumf [1] S2048 B 0xFF800000#32 reduces_S2048x80_S2048 hφ hmax)
            shapeCasts_S2048_S2048x1) broadcasts_S2048x1_S2048x80)))
          (broadcastTo S2048x80 (shapeCast S2048x1
            (multiReduction (F := Ideal) .add [1] S2048
              (Idealize.ShloMosaic.exp (subf B (broadcastTo S2048x80 (shapeCast S2048x1
                (multiReduction (F := Ideal) .maximumf [1] S2048 B 0xFF800000#32 reduces_S2048x80_S2048 hφ hmax)
                shapeCasts_S2048_S2048x1) broadcasts_S2048x1_S2048x80)))
              0x00000000#32 reduces_S2048x80_S2048 hφ hadd)
            shapeCasts_S2048_S2048x1) broadcasts_S2048x1_S2048x80))
        slices_S2048x80_o0_0_S2048x64 (ix2 n k)
      = Ideal.div
          (Ideal.exp (B (ix2 n (Vlad.col k)) - (Finset.univ : Finset (Fin 80)).fold max Vlad.negInf (fun j => B (ix2 n j))))
          (∑ j : Fin 80, Ideal.exp (B (ix2 n j) - (Finset.univ : Finset (Fin 80)).fold max Vlad.negInf (fun j' => B (ix2 n j')))) := by
  rw [slice2_axis1_apply 0 _ slices_S2048x80_o0_0_S2048x64 n k (Vlad.col k) (by show k.val = 0 + k.val; omega)]
  rw [divf_apply, exp_apply, subf_apply, broadcastTo_a1_ab_apply, shapeCast_a_a1_apply, rowmax_apply,
    broadcastTo_a1_ab_apply, shapeCast_a_a1_apply, rowsum_apply]
  refine congrArg _ (Finset.sum_congr rfl fun j _ => ?_)
  rw [exp_apply, subf_apply, broadcastTo_a1_ab_apply, shapeCast_a_a1_apply, rowmax_apply]

/-! ## The soft assignment -/

/-- The batch-normalised activations as the body forms them, at `(n, j)`. -/
theorem bn_apply (v0 : Vec Ideal S1x2048x80 .f32) (v2 v6 v13 v17 : Vec Ideal S1x80 .f32) (n : Fin 2048) (j : Fin 80) :
    addf (mulf (mulf (subf (shapeCast S2048x80 v0 shapeCasts_S1x2048x80_S2048x80)
            (broadcastTo S2048x80 (shapeCast S1x80 v2 shapeCasts_S1x80_S1x80) broadcasts_S1x80_S2048x80))
          (broadcastTo S2048x80 (Idealize.ShloMosaic.rsqrt (addf (shapeCast S1x80 v6 shapeCasts_S1x80_S1x80)
            (broadcast S1x80 (Scalar.ofBits (F := Ideal) .f32 0x3727C5AC#32)))) broadcasts_S1x80_S2048x80))
          (broadcastTo S2048x80 (shapeCast S1x80 v13 shapeCasts_S1x80_S1x80) broadcasts_S1x80_S2048x80))
        (broadcastTo S2048x80 (shapeCast S1x80 v17 shapeCasts_S1x80_S1x80) broadcasts_S1x80_S2048x80) (ix2 n j)
      = Vlad.bn (fun j => v0 (ix3 0 n j)) (fun j => v2 (ix2 0 j)) (fun j => v6 (ix2 0 j)) (fun j => v13 (ix2 0 j))
          (fun j => v17 (ix2 0 j)) j := by
  rw [addf_apply, mulf_apply, mulf_apply, subf_apply, shapeCast_1ab_ab_apply]
  simp only [broadcastTo_1b_ab_apply, shapeCast_self, rsqrt_apply, addf_apply, broadcast_apply]
  rfl

/-- The soft assignment the body forms, at row n and cluster k. -/
theorem pay2_apply (v0 : Vec Ideal S1x2048x80 .f32) (v2 v6 v13 v17 : Vec Ideal S1x80 .f32) (n : Fin 2048) (k : Fin 64) :
    k1_pay2 v0 v2 v6 v13 v17 (ix2 n k)
      = Vlad.soft (fun j => v0 (ix3 0 n j)) (fun j => v2 (ix2 0 j)) (fun j => v6 (ix2 0 j)) (fun j => v13 (ix2 0 j))
          (fun j => v17 (ix2 0 j)) k := by
  unfold k1_pay2
  refine (softTail_apply _ _ _ _ n k).trans ?_
  unfold Vlad.soft Vlad.den Vlad.ex Vlad.rowmax
  simp only [bn_apply]

/-! ## The aggregation: the two normalisations, each over the pointwise reading of its operand -/

/-- The column normalisation as the body forms it from a residual array `V` that reads `vl`, at `(d, k)`. -/
theorem vnStage_apply (V : FVec Ideal S512x64 .f32) (vl : Fin 512 → Fin 64 → EReal)
    (hV : ∀ d k, V (ix2 d k) = vl d k) (hφ : FKind.Formats .f32)
    (hadd : (0x00000000#32 : BitVec 32) = 0x00000000#32) (d : Fin 512) (k : Fin 64) :
    divf V (broadcastTo S512x64
        (addf (Idealize.ShloMosaic.sqrt (shapeCast S1x64
            (multiReduction (F := Ideal) .add [0] S64 (mulf V V) 0x00000000#32 reduces_S512x64_S64 hφ hadd) shapeCasts_S64_S1x64))
          (broadcast S1x64 (Scalar.ofBits (F := Ideal) .f32 0x358637BD#32)))
        broadcasts_S1x64_S512x64) (ix2 d k)
      = Ideal.div (vl d k) (Ideal.sqrt (∑ d' : Fin 512, vl d' k * vl d' k) + Vlad.eps6) := by
  rw [divf_apply, broadcastTo_1b_ab_apply, addf_apply, sqrt_apply, shapeCast_a_1a_apply, colsum512_apply, broadcast_apply, hV,
    Finset.sum_congr rfl fun d' _ => (show mulf V V (ix2 d' k) = vl d' k * vl d' k by rw [mulf_apply, hV])]
  rfl

/-- The final normalisation, transposition and added unit axis as the body forms them from a column-normalised array
    `W` that reads `w`, at `(0, k, d)`. -/
theorem outStage_apply (W : FVec Ideal S512x64 .f32) (w : Fin 512 → Fin 64 → EReal)
    (hW : ∀ d k, W (ix2 d k) = w d k) (hφ : FKind.Formats .f32)
    (hadd : (0x00000000#32 : BitVec 32) = 0x00000000#32) (u : Fin 1) (k : Fin 64) (d : Fin 512) :
    shapeCast S1x64x512
        (transpose S64x512 [1, 0]
          (divf W (broadcastTo S512x64
            (maximumf
              (Idealize.ShloMosaic.sqrt (shapeCast S1x1
                (multiReduction (F := Ideal) .add [1] S1
                  (shapeCast S1x64
                    (multiReduction (F := Ideal) .add [0] S64 (mulf W W) 0x00000000#32 reduces_S512x64_S64 hφ hadd)
                    shapeCasts_S64_S1x64)
                  0x00000000#32 reduces_S1x64_S1 hφ hadd)
                shapeCasts_S1_S1x1))
              (broadcast S1x1 (Scalar.ofBits (F := Ideal) .f32 0x2B8CBCCC#32)))
            broadcasts_S1x1_S512x64))
          transposes_S512x64_p1_0_S64x512)
        shapeCasts_S64x512_S1x64x512 (ix3 u k d)
      = Ideal.div (w d k)
          (max (Ideal.sqrt (∑ k' : Fin 64, ∑ d' : Fin 512, w d' k' * w d' k')) Vlad.eps12) := by
  have hsum : ∀ k' : Fin 64,
      shapeCast S1x64
          (multiReduction (F := Ideal) .add [0] S64 (mulf W W) 0x00000000#32 reduces_S512x64_S64 hφ hadd)
          shapeCasts_S64_S1x64 (ix2 (0 : Fin 1) k')
        = ∑ d' : Fin 512, w d' k' * w d' k' := by
    intro k'
    rw [shapeCast_a_1a_apply, colsum512_apply]
    refine Finset.sum_congr rfl fun d' _ => ?_
    rw [mulf_apply, hW]
  rw [shapeCast_ab_1ab_apply, transpose_ix2_apply, divf_apply, broadcastTo_11_ab_apply, maximumf_apply, sqrt_apply,
    shapeCast_a_1a_apply, lanesum64_apply, broadcast_apply, hW, Finset.sum_congr rfl fun k' _ => hsum k']
  rfl

/-- The column sums of an arbitrary `[2048, 64]` array as the body forms them, at `(0, k)`. -/
theorem asumStage_apply (s : FVec Ideal S2048x64 .f32) (hφ : FKind.Formats .f32)
    (hadd : (0x00000000#32 : BitVec 32) = 0x00000000#32) (u : Fin 1) (k : Fin 64) :
    shapeCast S1x64 (multiReduction (F := Ideal) .add [0] S64 s 0x00000000#32 reduces_S2048x64_S64 hφ hadd)
        shapeCasts_S64_S1x64 (ix2 u k)
      = ∑ n : Fin 2048, s (ix2 n k) := by
  rw [shapeCast_a_1a_apply, colsum2048_apply]

/-- The product of the features with an arbitrary `[2048, 64]` array over the rows as the body forms it, at `(d, k)`. -/
theorem rawStage_apply (v33 : Vec Ideal S1x2048x512 .f32) (s : FVec Ideal S2048x64 .f32) (d : Fin 512) (k : Fin 64) :
    matmul dot_S2048x512_S2048x64_S512x64_0_0_1_1_n_n none
        (truncf .bf16 (shapeCast S2048x512 v33 shapeCasts_S1x2048x512_S2048x512) bitsLt_bf16_f32)
        (truncf .bf16 s bitsLt_bf16_f32) (constant (F := Ideal) S512x64 .f32 0x00000000#32) (ix2 d k)
      = ∑ n : Fin 2048, v33 (ix3 0 n d) * s (ix2 n k) := by
  rw [matmul_rows_apply]
  refine Finset.sum_congr rfl fun n _ => ?_
  rw [truncf_apply, truncf_apply, shapeCast_1ab_ab_apply]

/-- The stored block at (cluster k, feature d), over the soft assignment as the body formed it. -/
theorem pay1_apply (v0 : Vec Ideal S1x2048x80 .f32) (v2 v6 v13 v17 : Vec Ideal S1x80 .f32)
    (v33 : Vec Ideal S1x2048x512 .f32) (v38 : Vec Ideal S512x64 .f32) (k : Fin 64) (d : Fin 512) :
    k1_pay1 (k1_pay3 v0 v2 v6 v13 v17) (k1_pay4 v0 v2 v6 v13 v17 v33) v38 (ix3 0 k d)
      = Vlad.out (fun n d => v33 (ix3 0 n d)) (fun n k => k1_pay2 v0 v2 v6 v13 v17 (ix2 n k)) (fun d k => v38 (ix2 d k)) d k := by
  have h3 : ∀ k' : Fin 64,
      k1_pay3 v0 v2 v6 v13 v17 (ix2 0 k') = ∑ n : Fin 2048, k1_pay2 v0 v2 v6 v13 v17 (ix2 n k') := by
    intro k'
    unfold k1_pay3
    exact asumStage_apply _ _ _ 0 k'
  have h4 : ∀ (d' : Fin 512) (k' : Fin 64),
      k1_pay4 v0 v2 v6 v13 v17 v33 (ix2 d' k')
        = ∑ n : Fin 2048, v33 (ix3 0 n d') * k1_pay2 v0 v2 v6 v13 v17 (ix2 n k') := by
    intro d' k'
    unfold k1_pay4
    exact rawStage_apply v33 _ d' k'
  unfold k1_pay1
  refine outStage_apply _
    (Vlad.vn (fun n d => v33 (ix3 0 n d)) (fun n k => k1_pay2 v0 v2 v6 v13 v17 (ix2 n k)) (fun d k => v38 (ix2 d k)))
    (fun d' k' => vnStage_apply _
      (Vlad.vlad (fun n d => v33 (ix3 0 n d)) (fun n k => k1_pay2 v0 v2 v6 v13 v17 (ix2 n k)) (fun d k => v38 (ix2 d k)))
      (fun d'' k'' => ?_) _ _ d' k') _ _ 0 k d
  rw [subf_apply, mulf_apply, broadcastTo_1b_ab_apply, shapeCast_self, h3, h4]
  rfl

end Cert.KernelIdeal.K1

end
-- ==== Proof.K1Value.lean ====
/-
  What the second region leaves in its output array: block b (one batch) holds the batch's descriptor, transposed,
  as a function of the region's input arrays; the 64 blocks tile the array.
-/
import proofs.«417997_j17514876633265_3_alg».proof.Proof.Gen.KernelIdeal.Frame
import proofs.«417997_j17514876633265_3_alg».proof.Proof.K1Payload

set_option maxRecDepth 16384

noncomputable section

namespace Cert.KernelIdeal.K1

open Cert.KernelIdeal Cert.KernelIdeal.Gen Idealize.ShloMosaic Idealize.ShloMosaic.ValueIdx Idealize.ShloMosaic.TcCoe Idealize.SL.Sem
open Idealize.ShloMosaic.Pipeline (Dat)

/-- The zero offsets of a whole rank-3 block, however spelt. -/
theorem Block.zeroOff3 : (![0, 0, 0] : Fin 3 → Nat) = fun _ => 0 :=
  funext fun a => by match a with | ⟨0, _⟩ => rfl | ⟨1, _⟩ => rfl | ⟨2, _⟩ => rfl
/-- The zero offsets of a whole rank-2 block. -/
theorem Block.zeroOff2 : (![0, 0] : Fin 2 → Nat) = fun _ => 0 :=
  funext fun a => by match a with | ⟨0, _⟩ => rfl | ⟨1, _⟩ => rfl

/-- The body's output block from its input blocks, at (cluster k, feature d). -/
theorem out1_7_apply (x0 : Vec Ideal S1x2048x512 .f32) (x1 : Vec Ideal S1x2048x80 .f32) (x2 x3 x4 x5 : Vec Ideal S1x80 .f32)
    (x6 : Vec Ideal S512x64 .f32) (k : Fin 64) (d : Fin 512) :
    out1_7 x0 x1 x2 x3 x4 x5 x6 (ix3 0 k d)
      = Vlad.out (fun n d => x0 (ix3 0 n d))
          (fun n => Vlad.soft (fun j => x1 (ix3 0 n j)) (fun j => x2 (ix2 0 j)) (fun j => x3 (ix2 0 j)) (fun j => x4 (ix2 0 j))
            (fun j => x5 (ix2 0 j)))
          (fun d k => x6 (ix2 d k)) d k := by
  unfold out1_7
  rw [View.canon_unit_zero Block.zeroOff3]
  simp only [View.ld_unit_zero (S := S1x2048x80) Block.zeroOff3, View.ld_unit_zero (S := S1x80) Block.zeroOff2,
    View.ld_unit_zero (S := S1x2048x512) Block.zeroOff3, View.ld_unit_zero (S := S512x64) Block.zeroOff2]
  rw [pay1_apply]
  refine congrArg (fun s => Vlad.out (fun n d => x0 (ix3 0 n d)) s (fun d k => x6 (ix2 d k)) d k) ?_
  funext n k'
  exact pay2_apply x1 x2 x3 x4 x5 n k'

section
variable (V : (c : Dev nD) → (b : Ref sig .tc) → Buf (Elt Ideal) ((c : Thread nD τ).loc b)) (c : Dev nD)

/-- The region's seven input arrays at their literal types. -/
abbrev ax : FVec Ideal S64x2048x512 .f32 := V c main_arg0
abbrev aa : FVec Ideal S64x2048x80 .f32 := V c main_v15
abbrev amean : FVec Ideal S1x80 .f32 := V c main_v4
abbrev avar : FVec Ideal S1x80 .f32 := V c main_v11
abbrev aw : FVec Ideal S1x80 .f32 := V c main_v12
abbrev ab : FVec Ideal S1x80 .f32 := V c main_v13
abbrev ac2 : FVec Ideal S512x64 .f32 := V c main_v14

/-- The descriptor array as one function of the region's input arrays: entry (b, k, d) is the descriptor of batch b
    at feature d and cluster k (the array is stored cluster-major). -/
abbrev Block.descr : FVec Ideal S64x64x512 .f32 := fun i =>
  Vlad.out (fun n d => ax V c (ix3 (i 0) n d))
    (fun n => Vlad.soft (fun j => aa V c (ix3 (i 0) n j)) (fun j => amean V c (ix2 0 j)) (fun j => avar V c (ix2 0 j))
      (fun j => aw V c (ix2 0 j)) (fun j => ab V c (ix2 0 j)))
    (fun d k => ac2 V c (ix2 d k)) (i 2) (i 1)

/-- The printed index maps over the 64 grid points: the two batched inputs and the output sit at block (t, 0, 0),
    the five small inputs at block (0, 0); and a point's number is below 64. -/
theorem Block.index : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 3) = t.val ∧ win1_7.index t (1 : Fin 3) = 0 ∧ win1_7.index t (2 : Fin 3) = 0)
    ∧ t.val < 64 :=
  (by decide +kernel : ∀ t : Fin grid1.N, _)

/-- Input block 0 at point t is batch t of the features: its row n, feature d. -/
theorem Block.in0_apply (t : Fin cfg1.N) (b : Fin 64) (hb : b.val = t.val) (n : Fin 2048) (d : Fin 512) :
    (iblk1 V c 0 t : Vec Ideal S1x2048x512 .f32) (ix3 0 n d) = ax V c (ix3 b n d) := by
  obtain ⟨⟨e0, e1, e2⟩, -⟩ := Block.index t
  unfold iblk1
  show V c main_arg0 (((cfg1.win 0).blk t).view.emb (ix3 0 n d)) = V c main_arg0 (ix3 b n d)
  refine congrArg (V c main_arg0) ?_
  funext a; apply Fin.ext
  match a with
  | ⟨0, _⟩ => show win1_0.index t (0 : Fin 3) * 1 + 1 * 0 = b.val; omega
  | ⟨1, _⟩ => show win1_0.index t (1 : Fin 3) * 2048 + 1 * n.val = n.val; omega
  | ⟨2, _⟩ => show win1_0.index t (2 : Fin 3) * 512 + 1 * d.val = d.val; omega

/-- Input block 1 at point t is batch t of the projections: its row n, column j. -/
theorem Block.in1_apply (t : Fin cfg1.N) (b : Fin 64) (hb : b.val = t.val) (n : Fin 2048) (j : Fin 80) :
    (iblk1 V c 1 t : Vec Ideal S1x2048x80 .f32) (ix3 0 n j) = aa V c (ix3 b n j) := by
  obtain ⟨-, ⟨e0, e1, e2⟩, -⟩ := Block.index t
  unfold iblk1
  show V c main_v15 (((cfg1.win 1).blk t).view.emb (ix3 0 n j)) = V c main_v15 (ix3 b n j)
  refine congrArg (V c main_v15) ?_
  funext a; apply Fin.ext
  match a with
  | ⟨0, _⟩ => show win1_1.index t (0 : Fin 3) * 1 + 1 * 0 = b.val; omega
  | ⟨1, _⟩ => show win1_1.index t (1 : Fin 3) * 2048 + 1 * n.val = n.val; omega
  | ⟨2, _⟩ => show win1_1.index t (2 : Fin 3) * 80 + 1 * j.val = j.val; omega

/-- Input blocks 2 to 5 are the whole statistic and scale rows, block 6 the whole centre matrix, at every point. -/
theorem Block.in2_eq (t : Fin cfg1.N) : (iblk1 V c 2 t : Vec Ideal S1x80 .f32) = amean V c := by
  obtain ⟨-, -, ⟨e0, e1⟩, -⟩ := Block.index t
  unfold iblk1
  funext (y : S1x80.Idx)
  show V c main_v4 (((cfg1.win 2).blk t).view.emb y) = V c main_v4 y
  refine congrArg (V c main_v4) ?_
  funext a; apply Fin.ext
  match a with
  | ⟨0, _⟩ => show win1_2.index t (0 : Fin 2) * 1 + 1 * (y 0).val = (y 0).val; omega
  | ⟨1, _⟩ => show win1_2.index t (1 : Fin 2) * 80 + 1 * (y 1).val = (y 1).val; omega
theorem Block.in3_eq (t : Fin cfg1.N) : (iblk1 V c 3 t : Vec Ideal S1x80 .f32) = avar V c := by
  obtain ⟨-, -, -, ⟨e0, e1⟩, -⟩ := Block.index t
  unfold iblk1
  funext (y : S1x80.Idx)
  show V c main_v11 (((cfg1.win 3).blk t).view.emb y) = V c main_v11 y
  refine congrArg (V c main_v11) ?_
  funext a; apply Fin.ext
  match a with
  | ⟨0, _⟩ => show win1_3.index t (0 : Fin 2) * 1 + 1 * (y 0).val = (y 0).val; omega
  | ⟨1, _⟩ => show win1_3.index t (1 : Fin 2) * 80 + 1 * (y 1).val = (y 1).val; omega
theorem Block.in4_eq (t : Fin cfg1.N) : (iblk1 V c 4 t : Vec Ideal S1x80 .f32) = aw V c := by
  obtain ⟨-, -, -, -, ⟨e0, e1⟩, -⟩ := Block.index t
  unfold iblk1
  funext (y : S1x80.Idx)
  show V c main_v12 (((cfg1.win 4).blk t).view.emb y) = V c main_v12 y
  refine congrArg (V c main_v12) ?_
  funext a; apply Fin.ext
  match a with
  | ⟨0, _⟩ => show win1_4.index t (0 : Fin 2) * 1 + 1 * (y 0).val = (y 0).val; omega
  | ⟨1, _⟩ => show win1_4.index t (1 : Fin 2) * 80 + 1 * (y 1).val = (y 1).val; omega
theorem Block.in5_eq (t : Fin cfg1.N) : (iblk1 V c 5 t : Vec Ideal S1x80 .f32) = ab V c := by
  obtain ⟨-, -, -, -, -, ⟨e0, e1⟩, -⟩ := Block.index t
  unfold iblk1
  funext (y : S1x80.Idx)
  show V c main_v13 (((cfg1.win 5).blk t).view.emb y) = V c main_v13 y
  refine congrArg (V c main_v13) ?_
  funext a; apply Fin.ext
  match a with
  | ⟨0, _⟩ => show win1_5.index t (0 : Fin 2) * 1 + 1 * (y 0).val = (y 0).val; omega
  | ⟨1, _⟩ => show win1_5.index t (1 : Fin 2) * 80 + 1 * (y 1).val = (y 1).val; omega
theorem Block.in6_eq (t : Fin cfg1.N) : (iblk1 V c 6 t : Vec Ideal S512x64 .f32) = ac2 V c := by
  obtain ⟨-, -, -, -, -, -, ⟨e0, e1⟩, -⟩ := Block.index t
  unfold iblk1
  funext (y : S512x64.Idx)
  show V c main_v14 (((cfg1.win 6).blk t).view.emb y) = V c main_v14 y
  refine congrArg (V c main_v14) ?_
  funext a; apply Fin.ext
  match a with
  | ⟨0, _⟩ => show win1_6.index t (0 : Fin 2) * 512 + 1 * (y 0).val = (y 0).val; omega
  | ⟨1, _⟩ => show win1_6.index t (1 : Fin 2) * 64 + 1 * (y 1).val = (y 1).val; omega

/-- An entry (0, k, d) of the output block at point t sits in the array at (t, k, d). -/
theorem Block.out_emb (t : Fin cfg1.N) (b : Fin 64) (hb : b.val = t.val) (j : S1x64x512.Idx) :
    ((cfg1.win 7).blk t).view.emb j = (ix3 b (j 1) (j 2) : S64x64x512.Idx) := by
  obtain ⟨-, -, -, -, -, -, -, ⟨e0, e1, e2⟩, -⟩ := Block.index t
  have hj : (j 0).val < 1 := (j 0).isLt
  funext a; apply Fin.ext
  match a with
  | ⟨0, _⟩ => show win1_7.index t (0 : Fin 3) * 1 + 1 * (j 0).val = b.val; omega
  | ⟨1, _⟩ => show win1_7.index t (1 : Fin 3) * 64 + 1 * (j 1).val = (j 1).val; omega
  | ⟨2, _⟩ => show win1_7.index t (2 : Fin 3) * 512 + 1 * (j 2).val = (j 2).val; omega

/-- What the body leaves at point t, over the point's input blocks, is batch t of the descriptor array. -/
theorem Block.out_eq (t : Fin cfg1.N) (b : Fin 64) (hb : b.val = t.val) (j : S1x64x512.Idx) :
    out1_7 (iblk1 V c 0 t) (iblk1 V c 1 t) (iblk1 V c 2 t) (iblk1 V c 3 t) (iblk1 V c 4 t) (iblk1 V c 5 t) (iblk1 V c 6 t) j
      = Block.descr V c (ix3 b (j 1) (j 2)) := by
  obtain ⟨z, k, d, rfl⟩ : ∃ (z : Fin 1) (k : Fin 64) (d : Fin 512), j = ix3 z k d := ⟨j 0, j 1, j 2, eq_ix3 j⟩
  obtain rfl : z = 0 := Subsingleton.elim _ _
  refine (out1_7_apply (iblk1 V c 0 t) (iblk1 V c 1 t) (iblk1 V c 2 t) (iblk1 V c 3 t) (iblk1 V c 4 t) (iblk1 V c 5 t) (iblk1 V c 6 t) k d).trans ?_
  rw [Block.in2_eq V c t, Block.in3_eq V c t, Block.in4_eq V c t, Block.in5_eq V c t, Block.in6_eq V c t]
  simp only [Block.in0_apply V c t b hb, Block.in1_apply V c t b hb]

/-- The write-back of point t is block t of the descriptor array. -/
theorem Block.flushed_eq (t : Fin cfg1.N) :
    (dat1 (F := Ideal) V c).flushed 7 t = ((cfg1.win 7).blk t).view.read (Elt Ideal) (Block.descr V c) := by
  obtain ⟨-, -, -, -, -, -, -, -, hlt⟩ := Block.index t
  show (cfg1.win 7).cut (grid1.coords t) ((dat1 V c).after 7 t) = _
  rw [after1_7]
  funext j
  show out1_7 (iblk1 V c 0 t) (iblk1 V c 1 t) (iblk1 V c 2 t) (iblk1 V c 3 t) (iblk1 V c 4 t) (iblk1 V c 5 t) (iblk1 V c 6 t) j
      = Block.descr V c (((cfg1.win 7).blk t).view.emb j)
  rw [Block.out_emb t ⟨t.val, hlt⟩ rfl j]
  exact Block.out_eq V c t ⟨t.val, hlt⟩ rfl j

/-- An index of the array is in point t's block iff each coordinate is in the block's range on its axis. -/
theorem Block.mem_out (t : Fin cfg1.N) (i : S64x64x512.Idx) :
    i ∈ ((cfg1.win 7).blk t).view.set ↔ ∀ a : Fin 3, win1_7.index t a * S1x64x512.size a ≤ (i a).val ∧ (i a).val < win1_7.index t a * S1x64x512.size a + S1x64x512.size a := by
  show i ∈ ((View.whole main_v16).slice (win1_7.rect t)).set ↔ _
  rw [View.set_slice_whole, Rect.mem_set_unit]
  exact Iff.rfl

/-- Every entry (b, k, d) of the array is in the block of point b, which is written back. -/
theorem Block.cover (i : S64x64x512.Idx) :
    ∃ t : Fin cfg1.N, (cfg1.win 7).flush t = true ∧ i ∈ ((cfg1.win 7).blk t).view.set := by
  have h0 : (i 0).val < 64 := (i 0).isLt
  have h1 : (i 1).val < 64 := (i 1).isLt
  have h2 : (i 2).val < 512 := (i 2).isLt
  obtain ⟨t, ht⟩ : ∃ t : Fin cfg1.N, t.val = (i 0).val := ⟨⟨(i 0).val, by rw [show cfg1.N = 64 from N_1]; exact h0⟩, rfl⟩
  obtain ⟨-, -, -, -, -, -, -, ⟨e0, e1, e2⟩, -⟩ := Block.index t
  refine ⟨t, flush1_7 t, ?_⟩
  rw [Block.mem_out]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 64 ≤ (i 1).val ∧ (i 1).val < win1_7.index t (1 : Fin 3) * 64 + 64; omega
  | ⟨2, _⟩ => show win1_7.index t (2 : Fin 3) * 512 ≤ (i 2).val ∧ (i 2).val < win1_7.index t (2 : Fin 3) * 512 + 512; omega

/-- The region's output array after the region, from the contents V it is entered with. -/
theorem arr1_7 : ((dat1 (F := Ideal) V c).arrAt 7 cfg1.N : FVec Ideal S64x64x512 .f32) = fun i =>
      Vlad.out (fun n d => ax V c (ix3 (i 0) n d))
        (fun n => Vlad.soft (fun j => aa V c (ix3 (i 0) n j)) (fun j => amean V c (ix2 0 j)) (fun j => avar V c (ix2 0 j))
          (fun j => aw V c (ix2 0 j)) (fun j => ab V c (ix2 0 j)))
        (fun d k => ac2 V c (ix2 d k)) (i 2) (i 1) :=
  (dat1 (F := Ideal) V c).arrAt_eq_of_cover 7 (Block.descr V c) (fun t _ => Block.flushed_eq V c t) Block.cover

end

end Cert.KernelIdeal.K1

end
-- ==== Proof.KernelValue.lean ====
/-
  The idealized kernel program's result as a function of its argument arrays: through the host reshapes, the first
  region's projection and block statistics, the host's mean and clamped variance, the second region's descriptor
  per batch, and the closing transpose and reshape, the result at (b, d * 64 + k) is the specification's descriptor
  with the kernel's statistics.

  The buffer contents are followed boundary by boundary. Each host stretch is read as the term of its operations
  over the contents before it (the sums, quotients and reshapes stay folded); each region replaces its output
  arrays by what it leaves and keeps every other buffer. Each term is then read at an index: a reshape moves an
  entry to the index with the same row-major position, a sum over the leading axis of a [32, 1, 80] array at
  column j is the sum over the 32 block rows, and the closing transpose swaps the last two coordinates.
-/
import proofs.«417997_j17514876633265_3_alg».proof.Proof.K0Value
import proofs.«417997_j17514876633265_3_alg».proof.Proof.K1Value
import Idealize.ShloMosaic.Lib.StableHlo.Run
import Idealize.ShloMosaic.Lib.IdealHost

set_option maxRecDepth 16384

noncomputable section

namespace Cert.KernelIdeal.KValue

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The argument arrays as plain families. -/
abbrev X3 : Fin 64 → Fin 2048 → Fin 512 → EReal := fun b n k => (m ((c.tc : Thread nD τ).loc main_arg0) : FVec Ideal S64x2048x512 .f32) (ix3 b n k)
abbrev CL : Fin 512 → Fin 80 → EReal := fun k j => (m ((c.tc : Thread nD τ).loc main_arg1) : FVec Ideal S512x80 .f32) (ix2 k j)
abbrev C2 : Fin 512 → Fin 64 → EReal := fun d k => (m ((c.tc : Thread nD τ).loc main_arg2) : FVec Ideal S1x512x64 .f32) (ix3 0 d k)
abbrev Wt : Fin 80 → EReal := fun j => (m ((c.tc : Thread nD τ).loc main_arg3) : FVec Ideal S80 .f32) (ix1 j)
abbrev Bs : Fin 80 → EReal := fun j => (m ((c.tc : Thread nD τ).loc main_arg4) : FVec Ideal S80 .f32) (ix1 j)

/-! ## The buffer contents at each boundary, as folded terms -/

/-- The flattened features after the first host stretch: the argument's reshape. -/
theorem W1_v0 : (W1 (F := Ideal) m ρ c (Proc.devRef .tc main_v0) : FVec Ideal S131072x512 .f32)
    = shapeCast S131072x512 (m ((c.tc : Thread nD τ).loc main_arg0) : FVec Ideal S64x2048x512 .f32) shapeCasts_S64x2048x512_S131072x512 := by
  show StableHlo.after hostOps0 (W0 m ρ c) (Proc.devRef .tc main_v0) = _
  after_results
  rfl

/-- The first cluster matrix is not written before the first region. -/
theorem W1_arg1 : W1 (F := Ideal) m ρ c (Proc.devRef .tc main_arg1) = m ((c.tc : Thread nD τ).loc main_arg1) := by
  show StableHlo.after hostOps0 (W0 m ρ c) (Proc.devRef .tc main_arg1) = _
  after_results

/-- The mean row after the second host stretch, as the host operations' term over the block sums. -/
theorem W3_v4 : (W3 (F := Ideal) m ρ c (Proc.devRef .tc main_v4) : FVec Ideal S1x80 .f32)
    = Host.divf (Host.reduceAdd (F := Ideal) (W2 (F := Ideal) m ρ c (Proc.devRef .tc main_v1_1) : FVec Ideal S32x1x80 .f32)
          (constant (F := Ideal) S_ .f32 0x00000000#32) reducesTo_S32x1x80_S1x80_d0 h_S_)
        (broadcastInDim S1x80 ![] bcast_S_S1x80 (constant (F := Ideal) S_ .f32 0x48000000#32)) := by
  show StableHlo.after hostOps1 (W2 m ρ c) (Proc.devRef .tc main_v4) = _
  after_results

/-- The variance row: the mean of the squares less the squared mean, clamped at the zero row. -/
theorem W3_v11 : (W3 (F := Ideal) m ρ c (Proc.devRef .tc main_v11) : FVec Ideal S1x80 .f32)
    = maximumf (subf
        (Host.divf (Host.reduceAdd (F := Ideal) (W2 (F := Ideal) m ρ c (Proc.devRef .tc main_v1_2) : FVec Ideal S32x1x80 .f32)
          (constant (F := Ideal) S_ .f32 0x00000000#32) reducesTo_S32x1x80_S1x80_d0 h_S_)
          (broadcastInDim S1x80 ![] bcast_S_S1x80 (constant (F := Ideal) S_ .f32 0x48000000#32)))
        (mulf (W3 (F := Ideal) m ρ c (Proc.devRef .tc main_v4) : FVec Ideal S1x80 .f32) (W3 (F := Ideal) m ρ c (Proc.devRef .tc main_v4) : FVec Ideal S1x80 .f32)))
      (broadcastInDim S1x80 ![] bcast_S_S1x80 (constant (F := Ideal) S_ .f32 0x00000000#32)) := by
  rw [W3_v4]
  show StableHlo.after hostOps1 (W2 m ρ c) (Proc.devRef .tc main_v11) = _
  after_results

/-- The scale, the shift, the second cluster matrix and the projection enter the second region reshaped. -/
theorem W3_v12 : (W3 (F := Ideal) m ρ c (Proc.devRef .tc main_v12) : FVec Ideal S1x80 .f32)
    = shapeCast S1x80 (W2 (F := Ideal) m ρ c (Proc.devRef .tc main_arg3) : FVec Ideal S80 .f32) shapeCasts_S80_S1x80 := by
  show StableHlo.after hostOps1 (W2 m ρ c) (Proc.devRef .tc main_v12) = _
  after_results
  rfl

theorem W3_v13 : (W3 (F := Ideal) m ρ c (Proc.devRef .tc main_v13) : FVec Ideal S1x80 .f32)
    = shapeCast S1x80 (W2 (F := Ideal) m ρ c (Proc.devRef .tc main_arg4) : FVec Ideal S80 .f32) shapeCasts_S80_S1x80 := by
  show StableHlo.after hostOps1 (W2 m ρ c) (Proc.devRef .tc main_v13) = _
  after_results
  rfl

theorem W3_v14 : (W3 (F := Ideal) m ρ c (Proc.devRef .tc main_v14) : FVec Ideal S512x64 .f32)
    = shapeCast S512x64 (W2 (F := Ideal) m ρ c (Proc.devRef .tc main_arg2) : FVec Ideal S1x512x64 .f32) shapeCasts_S1x512x64_S512x64 := by
  show StableHlo.after hostOps1 (W2 m ρ c) (Proc.devRef .tc main_v14) = _
  after_results
  rfl

theorem W3_v15 : (W3 (F := Ideal) m ρ c (Proc.devRef .tc main_v15) : FVec Ideal S64x2048x80 .f32)
    = shapeCast S64x2048x80 (W2 (F := Ideal) m ρ c (Proc.devRef .tc main_v1_0) : FVec Ideal S131072x80 .f32) shapeCasts_S131072x80_S64x2048x80 := by
  show StableHlo.after hostOps1 (W2 m ρ c) (Proc.devRef .tc main_v15) = _
  after_results
  rfl

/-- The features themselves reach the second region as launched. -/
theorem W3_arg0 : W3 (F := Ideal) m ρ c (Proc.devRef .tc main_arg0) = m ((c.tc : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- An argument no window of the first region holds is, at that region's exit, as launched. -/
theorem W2_arg2 : W2 (F := Ideal) m ρ c (Proc.devRef .tc main_arg2) = m ((c.tc : Thread nD τ).loc main_arg2) := by
  rw [W2_of_ne m ρ c main_arg2 (by decide)]
  show StableHlo.after hostOps0 (W0 m ρ c) (Proc.devRef .tc main_arg2) = _
  after_results
theorem W2_arg3 : W2 (F := Ideal) m ρ c (Proc.devRef .tc main_arg3) = m ((c.tc : Thread nD τ).loc main_arg3) := by
  rw [W2_of_ne m ρ c main_arg3 (by decide)]
  show StableHlo.after hostOps0 (W0 m ρ c) (Proc.devRef .tc main_arg3) = _
  after_results
theorem W2_arg4 : W2 (F := Ideal) m ρ c (Proc.devRef .tc main_arg4) = m ((c.tc : Thread nD τ).loc main_arg4) := by
  rw [W2_of_ne m ρ c main_arg4 (by decide)]
  show StableHlo.after hostOps0 (W0 m ρ c) (Proc.devRef .tc main_arg4) = _
  after_results

/-- The result buffer after the last host stretch: the second region's output, transposed and flattened. -/
theorem W5_v18 : (W5 (F := Ideal) m ρ c (Proc.devRef .tc main_v18) : FVec Ideal S64x32768 .f32)
    = shapeCast S64x32768 (transpose S64x512x64 [0, 2, 1] (W4 (F := Ideal) m ρ c (Proc.devRef .tc main_v16) : FVec Ideal S64x64x512 .f32)
        transposes_S64x64x512_S64x512x64_0_2_1) shapeCasts_S64x512x64_S64x32768 := by
  show StableHlo.after hostOps2 (W4 m ρ c) (Proc.devRef .tc main_v18) = _
  after_results
  rfl

/-! ## The values read at an index -/

/-- Row r of the flattened features is row (r mod 2048) of batch (r div 2048). -/
theorem v0_apply (r : Fin 131072) (k : Fin 512) :
    (W1 (F := Ideal) m ρ c (Proc.devRef .tc main_v0) : FVec Ideal S131072x512 .f32) (ix2 r k)
      = X3 m c (Vlad.rowB r) (Vlad.rowN r) k := by
  rw [W1_v0]
  refine shapeCast_apply _ _ _ (ix3 (Vlad.rowB r) (Vlad.rowN r) k) ?_
  rw [Shape.rowMajor_val_three, Shape.rowMajor_val_two]
  show (r.val / 2048 * 2048 + r.val % 2048) * 512 + k.val = r.val * 512 + k.val
  omega

theorem arg1_apply (k : Fin 512) (j : Fin 80) :
    (W1 (F := Ideal) m ρ c (Proc.devRef .tc main_arg1) : FVec Ideal S512x80 .f32) (ix2 k j) = CL m c k j := by
  rw [W1_arg1]

/-- The first region's projection, from the contents it is entered with, is the specification's. -/
theorem pr_eq (r : Fin 131072) (j : Fin 80) :
    K0.pr (V1 (F := Ideal) m ρ) c r j = Vlad.proj (X3 m c) (CL m c) r j := by
  unfold Vlad.proj
  exact Finset.sum_congr rfl fun k _ =>
    congrArg₂ (fun a b : EReal => a * b) (v0_apply m ρ c r k) (arg1_apply m ρ c k j)

/-- The first region's three output arrays at its exit, over the specification's projection. -/
theorem W2_v1_0 : (W2 (F := Ideal) m ρ c (Proc.devRef .tc main_v1_0) : FVec Ideal S131072x80 .f32)
    = fun i => Vlad.proj (X3 m c) (CL m c) (i 0) (i 1) := by
  refine ((W2_arr (F := Ideal) m ρ c 2).trans (K0.arr0_2 (V1 m ρ) c)).trans ?_
  funext i; exact pr_eq m ρ c (i 0) (i 1)

theorem W2_v1_1 : (W2 (F := Ideal) m ρ c (Proc.devRef .tc main_v1_1) : FVec Ideal S32x1x80 .f32)
    = fun i => ∑ q : Fin 4096, Vlad.proj (X3 m c) (CL m c) (Vlad.brow (i 0) q) (i 2) := by
  refine ((W2_arr (F := Ideal) m ρ c 3).trans (K0.arr0_3 (V1 m ρ) c)).trans ?_
  funext i; exact Finset.sum_congr rfl fun q _ => pr_eq m ρ c _ _

theorem W2_v1_2 : (W2 (F := Ideal) m ρ c (Proc.devRef .tc main_v1_2) : FVec Ideal S32x1x80 .f32)
    = fun i => ∑ q : Fin 4096, Vlad.proj (X3 m c) (CL m c) (Vlad.brow (i 0) q) (i 2) * Vlad.proj (X3 m c) (CL m c) (Vlad.brow (i 0) q) (i 2) := by
  refine ((W2_arr (F := Ideal) m ρ c 4).trans (K0.arr0_4 (V1 m ρ) c)).trans ?_
  funext i; exact Finset.sum_congr rfl fun q _ =>
    congrArg₂ (fun a b : EReal => a * b) (pr_eq m ρ c _ _) (pr_eq m ρ c _ _)

/-- A sum over the 32 block rows of a [32, 1, 80] array of per-block values, read at column j. -/
theorem sum_lift (f : Fin 32 → Fin 80 → EReal) (h : Shape.Reduces S32x1x80 [0] S1x80) (j : Fin 80) :
    ∑ k : Fin (S32x1x80.size 0), (fun i : S32x1x80.Idx => f (i 0) (i 2)) (h.lift (ix2 0 j) k) = ∑ i : Fin 32, f i j := by
  show ∑ k : Fin 32, f ((h.lift (ix2 0 j) k) 0) ((h.lift (ix2 0 j) k) 2) = _
  exact Finset.sum_congr rfl fun k _ => rfl

/-- The host's mean row is the kernel's mean of the projection. -/
theorem mean_apply (j : Fin 80) :
    (W3 (F := Ideal) m ρ c (Proc.devRef .tc main_v4) : FVec Ideal S1x80 .f32) (ix2 0 j)
      = Vlad.meanK (Vlad.proj (X3 m c) (CL m c)) j := by
  have h : Shape.Reduces S32x1x80 [0] S1x80 := by decide
  rw [W3_v4, hostDivf_apply, hostReduceAdd_apply, Ideal.hostReduceAdd_single reducesTo_S32x1x80_S1x80_d0 h,
    broadcastInDim_scalar_apply, constant_apply, constant_apply, Ideal.ofBits_zero_f32, zero_add, W2_v1_1]
  unfold Vlad.meanK
  exact congrArg (fun s => Ideal.div s Vlad.cR) (sum_lift (fun i j => ∑ q : Fin 4096, Vlad.proj (X3 m c) (CL m c) (Vlad.brow i q) j) h j)

/-- The host's clamped variance row is the kernel's variance of the projection. -/
theorem var_apply (j : Fin 80) :
    (W3 (F := Ideal) m ρ c (Proc.devRef .tc main_v11) : FVec Ideal S1x80 .f32) (ix2 0 j)
      = Vlad.varK (Vlad.proj (X3 m c) (CL m c)) j := by
  have h : Shape.Reduces S32x1x80 [0] S1x80 := by decide
  rw [W3_v11, maximumf_apply, subf_apply, mulf_apply, mean_apply, hostDivf_apply, hostReduceAdd_apply,
    Ideal.hostReduceAdd_single reducesTo_S32x1x80_S1x80_d0 h, broadcastInDim_scalar_apply, broadcastInDim_scalar_apply]
  simp only [constant_apply]
  rw [Ideal.ofBits_zero_f32, zero_add, W2_v1_2]
  unfold Vlad.varK
  exact congrArg (fun s => max (Ideal.div s Vlad.cR
      - Vlad.meanK (Vlad.proj (X3 m c) (CL m c)) j * Vlad.meanK (Vlad.proj (X3 m c) (CL m c)) j) 0)
    (sum_lift (fun i j => ∑ q : Fin 4096, Vlad.proj (X3 m c) (CL m c) (Vlad.brow i q) j * Vlad.proj (X3 m c) (CL m c) (Vlad.brow i q) j) h j)

/-- The scale, the shift and the second cluster matrix enter the second region as reshapes of the arguments. -/
theorem w_apply (j : Fin 80) :
    (W3 (F := Ideal) m ρ c (Proc.devRef .tc main_v12) : FVec Ideal S1x80 .f32) (ix2 0 j) = Wt m c j := by
  rw [W3_v12, shapeCast_a_1a_apply, W2_arg3]

theorem b_apply (j : Fin 80) :
    (W3 (F := Ideal) m ρ c (Proc.devRef .tc main_v13) : FVec Ideal S1x80 .f32) (ix2 0 j) = Bs m c j := by
  rw [W3_v13, shapeCast_a_1a_apply, W2_arg4]

theorem c2_apply (d : Fin 512) (k : Fin 64) :
    (W3 (F := Ideal) m ρ c (Proc.devRef .tc main_v14) : FVec Ideal S512x64 .f32) (ix2 d k) = C2 m c d k := by
  rw [W3_v14, shapeCast_1ab_ab_apply, W2_arg2]

/-- The projection array enters the second region cut into batches: row n of batch b is flattened row b * 2048 + n. -/
theorem aa_apply (b : Fin 64) (n : Fin 2048) (j : Fin 80) :
    (W3 (F := Ideal) m ρ c (Proc.devRef .tc main_v15) : FVec Ideal S64x2048x80 .f32) (ix3 b n j)
      = Vlad.proj (X3 m c) (CL m c) (Vlad.row b n) j := by
  rw [W3_v15, W2_v1_0]
  refine (shapeCast_apply _ _ _ (ix2 (Vlad.row b n) j) ?_).trans rfl
  rw [Shape.rowMajor_val_three, Shape.rowMajor_val_two]
  rfl

theorem ax_apply (b : Fin 64) (n : Fin 2048) (d : Fin 512) :
    (W3 (F := Ideal) m ρ c (Proc.devRef .tc main_arg0) : FVec Ideal S64x2048x512 .f32) (ix3 b n d) = X3 m c b n d := by
  rw [W3_arg0]

/-! ## The assembly -/

theorem soft_congr {ar ar' μ μ' v v' w w' β β' : Fin 80 → EReal} (h1 : ∀ j, ar j = ar' j) (h2 : ∀ j, μ j = μ' j)
    (h3 : ∀ j, v j = v' j) (h4 : ∀ j, w j = w' j) (h5 : ∀ j, β j = β' j) :
    Vlad.soft ar μ v w β = Vlad.soft ar' μ' v' w' β' := by
  obtain rfl : ar = ar' := funext h1
  obtain rfl : μ = μ' := funext h2
  obtain rfl : v = v' := funext h3
  obtain rfl : w = w' := funext h4
  obtain rfl : β = β' := funext h5
  rfl

theorem out_congr {xb xb' : Fin 2048 → Fin 512 → EReal} {sf sf' : Fin 2048 → Fin 64 → EReal} {c2 c2' : Fin 512 → Fin 64 → EReal}
    (h1 : ∀ n d, xb n d = xb' n d) (h2 : ∀ n, sf n = sf' n) (h3 : ∀ d k, c2 d k = c2' d k) (d : Fin 512) (k : Fin 64) :
    Vlad.out xb sf c2 d k = Vlad.out xb' sf' c2' d k := by
  obtain rfl : xb = xb' := funext fun n => funext (h1 n)
  obtain rfl : sf = sf' := funext h2
  obtain rfl : c2 = c2' := funext fun d => funext (h3 d)
  rfl

theorem kernel_value (b : Fin 64) (d : Fin 512) (k : Fin 64) :
    (W5 (F := Ideal) m ρ c (Proc.devRef .tc main_v18) : FVec Ideal S64x32768 .f32) (ix2 b (Vlad.flat d k))
      = Vlad.descr (Vlad.meanK (Vlad.proj (X3 m c) (CL m c))) (Vlad.varK (Vlad.proj (X3 m c) (CL m c)))
          (X3 m c) (CL m c) (C2 m c) (Wt m c) (Bs m c) b d k := by
  rw [W5_v18]
  refine (shapeCast_apply _ _ _ (ix3 b d k) ?_).trans ?_
  · rw [Shape.rowMajor_val_three, Shape.rowMajor_val_two]
    show (b.val * 512 + d.val) * 64 + k.val = b.val * 32768 + (d.val * 64 + k.val)
    omega
  rw [transpose_ix3_021_apply]
  refine (congrFun ((W4_arr (F := Ideal) m ρ c 7).trans (K1.arr1_7 (V3 m ρ) c)) (ix3 b k d)).trans ?_
  unfold Vlad.descr
  exact out_congr (fun n d => ax_apply m ρ c b n d)
    (fun n => soft_congr (fun j => aa_apply m ρ c b n j) (mean_apply m ρ c) (var_apply m ρ c) (w_apply m ρ c) (b_apply m ρ c))
    (fun d k => c2_apply m ρ c d k) d k

end Cert.KernelIdeal.KValue

end
-- ==== Proof.RefStages.lean ====
/-
  The reference program's host operations grouped into nine stages, each stage one pure function of the
  arrays it reads, written exactly as the program's lines spell them (the outlined functions for the variance,
  the select and the two norms are written out at their calls). The run of the reference ends with its result
  at ref_out of the argument arrays; the value lemmas read each stage at an index.
-/
import proofs.«417997_j17514876633265_3_alg».proof.ReferenceIdeal
import proofs.«417997_j17514876633265_3_alg».proof.Proof.Gen.ReferenceIdeal
import Idealize.ShloMosaic.PureOps.Ideal

noncomputable section

namespace Cert.ReferenceIdeal.Stages

open Cert.ReferenceIdeal Cert.ReferenceIdeal.Facts₀ Idealize.ShloMosaic

/-- A float array of extended reals. -/
abbrev FV (s : Shape) : Type := FVec Ideal s .f32

/-- Lines %0, %1: the flattened batch times the cluster matrix. -/
def st_v1 (x : FV S64x2048x512) (cl : FV S512x80) : FV S131072x80 :=
  Host.dotGeneral dot_S131072x512_S512x80_S131072x80_1_0_0_1_n_n none
    (shapeCast S131072x512 x shapeCasts_S64x2048x512_S131072x512) cl

/-- Lines %cst … %4: the column means. -/
def st_mean (v1 : FV S131072x80) : FV S80 :=
  Host.divf (Host.reduceAdd v1 (constant S_ .f32 0x00000000#32) reducesTo_S131072x80_S80_d0 h_S_)
    (broadcastInDim S80 ![] bcast_S_S80 (constant S_ .f32 0x48000000#32))

/-- The centred squares inside the variance (its lines %cst … %6). -/
def st_var_sq (v1 : FV S131072x80) : FV S131072x80 :=
  let v5 : FV S131072x80 := subf v1 (broadcastInDim S131072x80 ![0, 1] bcast_S1x80_S131072x80_0_1
    (Host.divf (broadcastInDim S1x80 ![1] bcast_S80_S1x80_1
        (Host.reduceAdd v1 (constant S_ .f32 0x00000000#32) reducesTo_S131072x80_S80_d0 h_S_))
      (broadcastInDim S1x80 ![] bcast_S_S1x80 (constant S_ .f32 0x48000000#32))))
  mulf v5 v5

/-- The variance's divisor (its lines %7, %cst_1, %8): the row count less the degrees of freedom, the integer 0. -/
def st_var_n : FV S_ :=
  subf (constant S_ .f32 0x48000000#32) (sitofp .f32 (constantI S_ 32 0#32))

/-- The column variances (the outlined variance and its select, lines %c, %5). -/
def st_var (v1 : FV S131072x80) : FV S80 :=
  select (broadcastInDim S80 ![] bcast_S_S80 (cmpf .ogt st_var_n (constant S_ .f32 0x00000000#32)))
    (Host.divf (Host.reduceAdd (st_var_sq v1) (constant S_ .f32 0x00000000#32) reducesTo_S131072x80_S80_d0 h_S_)
      (broadcastInDim S80 ![] bcast_S_S80 st_var_n))
    (broadcastInDim S80 ![] bcast_S_S80 (id (constant S_ .f32 0x7FC00000#32)))

/-- Lines %6 … %20: batch normalisation. -/
def st_bn (v1 : FV S131072x80) (μ var w β : FV S80) : FV S131072x80 :=
  let bc : FV S80 → FV S131072x80 := fun u =>
    broadcastInDim S131072x80 ![0, 1] bcast_S1x80_S131072x80_0_1 (broadcastInDim S1x80 ![1] bcast_S80_S1x80_1 u)
  addf (mulf (mulf (subf v1 (bc μ))
      (bc (Host.rsqrt (addf var (broadcastInDim S80 ![] bcast_S_S80 (constant S_ .f32 0x3727C5AC#32))))))
    (bc w)) (bc β)

/-- Lines %cst_2 … %31: the softmax over the 80 columns. -/
def st_soft (v20 : FV S131072x80) : FV S131072x80 :=
  let bc : FV S131072 → FV S131072x80 := fun u =>
    broadcastInDim S131072x80 ![0, 1] bcast_S131072x1_S131072x80_0_1 (broadcastInDim S131072x1 ![0] bcast_S131072_S131072x1_0 u)
  let v23 : FV S131072 := maximumf (broadcastInDim S131072 ![] bcast_S_S131072 (constant S_ .f32 0xFF800000#32))
    (Host.reduce FloatOps.maximumf v20 (constant S_ .f32 0xFF800000#32) reducesTo_S131072x80_S131072_d1 h_S_)
  let v27 : FV S131072x80 := Host.exp (subf v20 (bc v23))
  Host.divf v27 (bc (Host.reduceAdd v27 (constant S_ .f32 0x00000000#32) reducesTo_S131072x80_S131072_d1 h_S_))

/-- Lines %32, %33: the first 64 columns, by batch. -/
def st_trim (v31 : FV S131072x80) : FV S64x2048x64 :=
  shapeCast S64x2048x64 (extractStridedSlice S131072x64 ![0, 0] v31 slices_S131072x80_S131072x64_0_0)
    shapeCasts_S131072x64_S64x2048x64

/-- Lines %cst_5 … %40: the aggregated residuals. -/
def st_vlad (x : FV S64x2048x512) (v33 : FV S64x2048x64) (c2 : FV S1x512x64) : FV S64x512x64 :=
  subf (Host.dotGeneral dot_S64x2048x512_S64x2048x64_S64x512x64_1_1_2_2_0_0 none x v33)
    (mulf (broadcastInDim S64x512x64 ![0, 1, 2] bcast_S64x1x64_S64x512x64_0_1_2
        (broadcastInDim S64x1x64 ![0, 2] bcast_S64x64_S64x1x64_0_2
          (Host.reduceAdd v33 (constant S_ .f32 0x00000000#32) reducesTo_S64x2048x64_S64x64_d1 h_S_)))
      (broadcastInDim S64x512x64 ![0, 1, 2] bcast_S1x512x64_S64x512x64_0_1_2 c2))

/-- Lines %41 … %46: the normalisation within each cluster, then flattened. -/
def st_intra (v40 : FV S64x512x64) : FV S64x32768 :=
  shapeCast S64x32768
    (Host.divf v40 (broadcastInDim S64x512x64 ![0, 1, 2] bcast_S64x1x64_S64x512x64_0_1_2
      (addf (Host.sqrt (broadcastInDim S64x1x64 ![0, 2] bcast_S64x64_S64x1x64_0_2
          (Host.reduceAdd (mulf v40 v40) (constant S_ .f32 0x00000000#32) reducesTo_S64x512x64_S64x64_d1 h_S_)))
        (broadcastInDim S64x1x64 ![] bcast_S_S64x1x64 (constant S_ .f32 0x358637BD#32)))))
    shapeCasts_S64x512x64_S64x32768

/-- Lines %47 … %51: the normalisation of each whole descriptor. -/
def st_final (v46 : FV S64x32768) : FV S64x32768 :=
  Host.divf v46 (broadcastInDim S64x32768 ![0, 1] bcast_S64x1_S64x32768_0_1
    (maximumf (Host.sqrt (broadcastInDim S64x1 ![0] bcast_S64_S64x1_0
        (Host.reduceAdd (mulf v46 v46) (constant S_ .f32 0x00000000#32) reducesTo_S64x32768_S64_d1 h_S_)))
      (broadcastInDim S64x1 ![] bcast_S_S64x1 (constant S_ .f32 0x2B8CBCCC#32))))

/-- The reference's result as one function of its argument arrays. -/
def ref_out (x : FV S64x2048x512) (cl : FV S512x80) (c2 : FV S1x512x64) (w β : FV S80) : FV S64x32768 :=
  st_final (st_intra (st_vlad x
    (st_trim (st_soft (st_bn (st_v1 x cl) (st_mean (st_v1 x cl)) (st_var (st_v1 x cl)) w β))) c2))

end Cert.ReferenceIdeal.Stages

end
-- ==== Proof.RefRun.lean ====
/-
  The reference program's run: its @main is a straight line of host operations (the outlined variance, select and
  norms written out at their calls), so every weakly fair execution ends with the result buffer at ref_out of the
  argument arrays and the arguments unchanged.
-/
import proofs.«417997_j17514876633265_3_alg».proof.Proof.RefStages
import Idealize.ShloMosaic.Lib.StableHlo.Run

noncomputable section

namespace Cert.ReferenceIdeal.RefRun

open Cert.ReferenceIdeal Cert.ReferenceIdeal.Gen Cert.ReferenceIdeal.Stages
open Idealize.ShloMosaic Idealize.ShloMosaic.TcCoe Idealize.SL.Sem Idealize.ShloMosaic.StableHlo

section Line

variable {F : FTy → Type} [FloatOps F]

/-- The operations of @main in program order, the three calls written out over their records. -/
abbrev ops : List (HloOp τ sig (Elt F)) :=
  [ reshape main_arg0 main_v0 rfl shapeCasts_S64x2048x512_S131072x512,
    binary main_v0 main_arg1 main_v1 ((fun l r => Host.dotGeneral dot_S131072x512_S512x80_S131072x80_1_0_0_1_n_n none l r) : (⟨S131072x512, .f32⟩ : BufTy).Contents (Elt F) → (⟨S512x80, .f32⟩ : BufTy).Contents (Elt F) → (⟨S131072x80, .f32⟩ : BufTy).Contents (Elt F)),
    nullary main_cst (constant S_ .f32 0x00000000#32),
    binary main_v1 main_cst main_v2 ((fun x v => Host.reduceAdd x v reducesTo_S131072x80_S80_d0 h_S_) : (⟨S131072x80, .f32⟩ : BufTy).Contents (Elt F) → (⟨S_, .f32⟩ : BufTy).Contents (Elt F) → (⟨S80, .f32⟩ : BufTy).Contents (Elt F)),
    nullary main_cst_0 (constant S_ .f32 0x48000000#32),
    unary main_cst_0 main_v3 (broadcastInDim S80 ![] bcast_S_S80 : (⟨S_, .f32⟩ : BufTy).Contents (Elt F) → (⟨S80, .f32⟩ : BufTy).Contents (Elt F)),
    binary main_v2 main_v3 main_v4 (Host.divf : (⟨S80, .f32⟩ : BufTy).Contents (Elt F) → (⟨S80, .f32⟩ : BufTy).Contents (Elt F) → (⟨S80, .f32⟩ : BufTy).Contents (Elt F)),
    nullary main_c (constantI S_ 32 0#32),
    TRef.nullary main_call0.cst (constant S_ .f32 0x00000000#32),
    TRef.binary (.of main_v1 : TRef sig ⟨S131072x80, .f32⟩) main_call0.cst main_call0.v0 (fun x v => Host.reduceAdd x v reducesTo_S131072x80_S80_d0 h_S_),
    TRef.unary main_call0.v0 main_call0.v1 (broadcastInDim S1x80 ![1] bcast_S80_S1x80_1),
    TRef.nullary main_call0.cst_0 (constant S_ .f32 0x48000000#32),
    TRef.unary main_call0.cst_0 main_call0.v2 (broadcastInDim S1x80 ![] bcast_S_S1x80),
    TRef.binary main_call0.v1 main_call0.v2 main_call0.v3 Host.divf,
    TRef.unary main_call0.v3 main_call0.v4 (broadcastInDim S131072x80 ![0, 1] bcast_S1x80_S131072x80_0_1),
    TRef.binary (.of main_v1 : TRef sig ⟨S131072x80, .f32⟩) main_call0.v4 main_call0.v5 subf,
    TRef.binary main_call0.v5 main_call0.v5 main_call0.v6 mulf,
    TRef.unary (.of main_c : TRef sig ⟨S_, .i32⟩) main_call0.v7 (sitofp (F := F) .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S131072x80_S80_d0 h_S_),
    TRef.unary main_call0.v8 main_call0.v10 (broadcastInDim S80 ![] bcast_S_S80),
    TRef.binary main_call0.v9 main_call0.v10 main_call0.v11 Host.divf,
    TRef.nullary main_call0.cst_3 (constant S_ .f32 0x00000000#32),
    TRef.binary main_call0.v8 main_call0.cst_3 main_call0.v12 (cmpf (F := F) .ogt),
    TRef.nullary main_call0.cst_4 (constant S_ .f32 0x7FC00000#32),
    TRef.unary main_call0.cst_4 main_call0.call0.v0 id,
    TRef.unary main_call0.call0.v0 main_call0.call0.v1 (broadcastInDim S80 ![] bcast_S_S80),
    TRef.ternary main_call0.v12 main_call0.v11 main_call0.call0.v1 main_call0.call0.v2 (fun p a b => select (broadcastInDim S80 ![] bcast_S_S80 p) a b),
    unary main_v4 main_v6 (broadcastInDim S1x80 ![1] bcast_S80_S1x80_1 : (⟨S80, .f32⟩ : BufTy).Contents (Elt F) → (⟨S1x80, .f32⟩ : BufTy).Contents (Elt F)),
    unary main_v6 main_v7 (broadcastInDim S131072x80 ![0, 1] bcast_S1x80_S131072x80_0_1 : (⟨S1x80, .f32⟩ : BufTy).Contents (Elt F) → (⟨S131072x80, .f32⟩ : BufTy).Contents (Elt F)),
    binary main_v1 main_v7 main_v8 (subf : (⟨S131072x80, .f32⟩ : BufTy).Contents (Elt F) → (⟨S131072x80, .f32⟩ : BufTy).Contents (Elt F) → (⟨S131072x80, .f32⟩ : BufTy).Contents (Elt F)),
    nullary main_cst_1 (constant S_ .f32 0x3727C5AC#32),
    unary main_cst_1 main_v9 (broadcastInDim S80 ![] bcast_S_S80 : (⟨S_, .f32⟩ : BufTy).Contents (Elt F) → (⟨S80, .f32⟩ : BufTy).Contents (Elt F)),
    binary main_v5 main_v9 main_v10 (addf : (⟨S80, .f32⟩ : BufTy).Contents (Elt F) → (⟨S80, .f32⟩ : BufTy).Contents (Elt F) → (⟨S80, .f32⟩ : BufTy).Contents (Elt F)),
    unary main_v10 main_v11 (Host.rsqrt : (⟨S80, .f32⟩ : BufTy).Contents (Elt F) → (⟨S80, .f32⟩ : BufTy).Contents (Elt F)),
    unary main_v11 main_v12 (broadcastInDim S1x80 ![1] bcast_S80_S1x80_1 : (⟨S80, .f32⟩ : BufTy).Contents (Elt F) → (⟨S1x80, .f32⟩ : BufTy).Contents (Elt F)),
    unary main_v12 main_v13 (broadcastInDim S131072x80 ![0, 1] bcast_S1x80_S131072x80_0_1 : (⟨S1x80, .f32⟩ : BufTy).Contents (Elt F) → (⟨S131072x80, .f32⟩ : BufTy).Contents (Elt F)),
    binary main_v8 main_v13 main_v14 (mulf : (⟨S131072x80, .f32⟩ : BufTy).Contents (Elt F) → (⟨S131072x80, .f32⟩ : BufTy).Contents (Elt F) → (⟨S131072x80, .f32⟩ : BufTy).Contents (Elt F)),
    unary main_arg3 main_v15 (broadcastInDim S1x80 ![1] bcast_S80_S1x80_1 : (⟨S80, .f32⟩ : BufTy).Contents (Elt F) → (⟨S1x80, .f32⟩ : BufTy).Contents (Elt F)),
    unary main_v15 main_v16 (broadcastInDim S131072x80 ![0, 1] bcast_S1x80_S131072x80_0_1 : (⟨S1x80, .f32⟩ : BufTy).Contents (Elt F) → (⟨S131072x80, .f32⟩ : BufTy).Contents (Elt F)),
    binary main_v14 main_v16 main_v17 (mulf : (⟨S131072x80, .f32⟩ : BufTy).Contents (Elt F) → (⟨S131072x80, .f32⟩ : BufTy).Contents (Elt F) → (⟨S131072x80, .f32⟩ : BufTy).Contents (Elt F)),
    unary main_arg4 main_v18 (broadcastInDim S1x80 ![1] bcast_S80_S1x80_1 : (⟨S80, .f32⟩ : BufTy).Contents (Elt F) → (⟨S1x80, .f32⟩ : BufTy).Contents (Elt F)),
    unary main_v18 main_v19 (broadcastInDim S131072x80 ![0, 1] bcast_S1x80_S131072x80_0_1 : (⟨S1x80, .f32⟩ : BufTy).Contents (Elt F) → (⟨S131072x80, .f32⟩ : BufTy).Contents (Elt F)),
    binary main_v17 main_v19 main_v20 (addf : (⟨S131072x80, .f32⟩ : BufTy).Contents (Elt F) → (⟨S131072x80, .f32⟩ : BufTy).Contents (Elt F) → (⟨S131072x80, .f32⟩ : BufTy).Contents (Elt F)),
    nullary main_cst_2 (constant S_ .f32 0xFF800000#32),
    binary main_v20 main_cst_2 main_v21 ((fun x v => Host.reduce FloatOps.maximumf x v reducesTo_S131072x80_S131072_d1 h_S_) : (⟨S131072x80, .f32⟩ : BufTy).Contents (Elt F) → (⟨S_, .f32⟩ : BufTy).Contents (Elt F) → (⟨S131072, .f32⟩ : BufTy).Contents (Elt F)),
    nullary main_cst_3 (constant S_ .f32 0xFF800000#32),
    unary main_cst_3 main_v22 (broadcastInDim S131072 ![] bcast_S_S131072 : (⟨S_, .f32⟩ : BufTy).Contents (Elt F) → (⟨S131072, .f32⟩ : BufTy).Contents (Elt F)),
    binary main_v22 main_v21 main_v23 (maximumf : (⟨S131072, .f32⟩ : BufTy).Contents (Elt F) → (⟨S131072, .f32⟩ : BufTy).Contents (Elt F) → (⟨S131072, .f32⟩ : BufTy).Contents (Elt F)),
    unary main_v23 main_v24 (broadcastInDim S131072x1 ![0] bcast_S131072_S131072x1_0 : (⟨S131072, .f32⟩ : BufTy).Contents (Elt F) → (⟨S131072x1, .f32⟩ : BufTy).Contents (Elt F)),
    unary main_v24 main_v25 (broadcastInDim S131072x80 ![0, 1] bcast_S131072x1_S131072x80_0_1 : (⟨S131072x1, .f32⟩ : BufTy).Contents (Elt F) → (⟨S131072x80, .f32⟩ : BufTy).Contents (Elt F)),
    binary main_v20 main_v25 main_v26 (subf : (⟨S131072x80, .f32⟩ : BufTy).Contents (Elt F) → (⟨S131072x80, .f32⟩ : BufTy).Contents (Elt F) → (⟨S131072x80, .f32⟩ : BufTy).Contents (Elt F)),
    unary main_v26 main_v27 (Host.exp : (⟨S131072x80, .f32⟩ : BufTy).Contents (Elt F) → (⟨S131072x80, .f32⟩ : BufTy).Contents (Elt F)),
    nullary main_cst_4 (constant S_ .f32 0x00000000#32),
    binary main_v27 main_cst_4 main_v28 ((fun x v => Host.reduceAdd x v reducesTo_S131072x80_S131072_d1 h_S_) : (⟨S131072x80, .f32⟩ : BufTy).Contents (Elt F) → (⟨S_, .f32⟩ : BufTy).Contents (Elt F) → (⟨S131072, .f32⟩ : BufTy).Contents (Elt F)),
    unary main_v28 main_v29 (broadcastInDim S131072x1 ![0] bcast_S131072_S131072x1_0 : (⟨S131072, .f32⟩ : BufTy).Contents (Elt F) → (⟨S131072x1, .f32⟩ : BufTy).Contents (Elt F)),
    unary main_v29 main_v30 (broadcastInDim S131072x80 ![0, 1] bcast_S131072x1_S131072x80_0_1 : (⟨S131072x1, .f32⟩ : BufTy).Contents (Elt F) → (⟨S131072x80, .f32⟩ : BufTy).Contents (Elt F)),
    binary main_v27 main_v30 main_v31 (Host.divf : (⟨S131072x80, .f32⟩ : BufTy).Contents (Elt F) → (⟨S131072x80, .f32⟩ : BufTy).Contents (Elt F) → (⟨S131072x80, .f32⟩ : BufTy).Contents (Elt F)),
    unary main_v31 main_v32 ((extractStridedSlice S131072x64 ![0, 0] · slices_S131072x80_S131072x64_0_0) : (⟨S131072x80, .f32⟩ : BufTy).Contents (Elt F) → (⟨S131072x64, .f32⟩ : BufTy).Contents (Elt F)),
    reshape main_v32 main_v33 rfl shapeCasts_S131072x64_S64x2048x64,
    nullary main_cst_5 (constant S_ .f32 0x00000000#32),
    binary main_v33 main_cst_5 main_v34 ((fun x v => Host.reduceAdd x v reducesTo_S64x2048x64_S64x64_d1 h_S_) : (⟨S64x2048x64, .f32⟩ : BufTy).Contents (Elt F) → (⟨S_, .f32⟩ : BufTy).Contents (Elt F) → (⟨S64x64, .f32⟩ : BufTy).Contents (Elt F)),
    binary main_arg0 main_v33 main_v35 ((fun l r => Host.dotGeneral dot_S64x2048x512_S64x2048x64_S64x512x64_1_1_2_2_0_0 none l r) : (⟨S64x2048x512, .f32⟩ : BufTy).Contents (Elt F) → (⟨S64x2048x64, .f32⟩ : BufTy).Contents (Elt F) → (⟨S64x512x64, .f32⟩ : BufTy).Contents (Elt F)),
    unary main_v34 main_v36 (broadcastInDim S64x1x64 ![0, 2] bcast_S64x64_S64x1x64_0_2 : (⟨S64x64, .f32⟩ : BufTy).Contents (Elt F) → (⟨S64x1x64, .f32⟩ : BufTy).Contents (Elt F)),
    unary main_v36 main_v37 (broadcastInDim S64x512x64 ![0, 1, 2] bcast_S64x1x64_S64x512x64_0_1_2 : (⟨S64x1x64, .f32⟩ : BufTy).Contents (Elt F) → (⟨S64x512x64, .f32⟩ : BufTy).Contents (Elt F)),
    unary main_arg2 main_v38 (broadcastInDim S64x512x64 ![0, 1, 2] bcast_S1x512x64_S64x512x64_0_1_2 : (⟨S1x512x64, .f32⟩ : BufTy).Contents (Elt F) → (⟨S64x512x64, .f32⟩ : BufTy).Contents (Elt F)),
    binary main_v37 main_v38 main_v39 (mulf : (⟨S64x512x64, .f32⟩ : BufTy).Contents (Elt F) → (⟨S64x512x64, .f32⟩ : BufTy).Contents (Elt F) → (⟨S64x512x64, .f32⟩ : BufTy).Contents (Elt F)),
    binary main_v35 main_v39 main_v40 (subf : (⟨S64x512x64, .f32⟩ : BufTy).Contents (Elt F) → (⟨S64x512x64, .f32⟩ : BufTy).Contents (Elt F) → (⟨S64x512x64, .f32⟩ : BufTy).Contents (Elt F)),
    TRef.binary (.of main_v40 : TRef sig ⟨S64x512x64, .f32⟩) (.of main_v40 : TRef sig ⟨S64x512x64, .f32⟩) main_call1.v0 mulf,
    TRef.nullary main_call1.cst (constant S_ .f32 0x00000000#32),
    TRef.binary main_call1.v0 main_call1.cst main_call1.v1 (fun x v => Host.reduceAdd x v reducesTo_S64x512x64_S64x64_d1 h_S_),
    TRef.unary main_call1.v1 main_call1.v2 (broadcastInDim S64x1x64 ![0, 2] bcast_S64x64_S64x1x64_0_2),
    TRef.unary main_call1.v2 main_call1.v3 Host.sqrt,
    nullary main_cst_6 (constant S_ .f32 0x358637BD#32),
    unary main_cst_6 main_v42 (broadcastInDim S64x1x64 ![] bcast_S_S64x1x64 : (⟨S_, .f32⟩ : BufTy).Contents (Elt F) → (⟨S64x1x64, .f32⟩ : BufTy).Contents (Elt F)),
    binary main_v41 main_v42 main_v43 (addf : (⟨S64x1x64, .f32⟩ : BufTy).Contents (Elt F) → (⟨S64x1x64, .f32⟩ : BufTy).Contents (Elt F) → (⟨S64x1x64, .f32⟩ : BufTy).Contents (Elt F)),
    unary main_v43 main_v44 (broadcastInDim S64x512x64 ![0, 1, 2] bcast_S64x1x64_S64x512x64_0_1_2 : (⟨S64x1x64, .f32⟩ : BufTy).Contents (Elt F) → (⟨S64x512x64, .f32⟩ : BufTy).Contents (Elt F)),
    binary main_v40 main_v44 main_v45 (Host.divf : (⟨S64x512x64, .f32⟩ : BufTy).Contents (Elt F) → (⟨S64x512x64, .f32⟩ : BufTy).Contents (Elt F) → (⟨S64x512x64, .f32⟩ : BufTy).Contents (Elt F)),
    reshape main_v45 main_v46 rfl shapeCasts_S64x512x64_S64x32768,
    TRef.binary (.of main_v46 : TRef sig ⟨S64x32768, .f32⟩) (.of main_v46 : TRef sig ⟨S64x32768, .f32⟩) main_call2.v0 mulf,
    TRef.nullary main_call2.cst (constant S_ .f32 0x00000000#32),
    TRef.binary main_call2.v0 main_call2.cst main_call2.v1 (fun x v => Host.reduceAdd x v reducesTo_S64x32768_S64_d1 h_S_),
    TRef.unary main_call2.v1 main_call2.v2 (broadcastInDim S64x1 ![0] bcast_S64_S64x1_0),
    TRef.unary main_call2.v2 main_call2.v3 Host.sqrt,
    nullary main_cst_7 (constant S_ .f32 0x2B8CBCCC#32),
    unary main_cst_7 main_v48 (broadcastInDim S64x1 ![] bcast_S_S64x1 : (⟨S_, .f32⟩ : BufTy).Contents (Elt F) → (⟨S64x1, .f32⟩ : BufTy).Contents (Elt F)),
    binary main_v47 main_v48 main_v49 (maximumf : (⟨S64x1, .f32⟩ : BufTy).Contents (Elt F) → (⟨S64x1, .f32⟩ : BufTy).Contents (Elt F) → (⟨S64x1, .f32⟩ : BufTy).Contents (Elt F)),
    unary main_v49 main_v50 (broadcastInDim S64x32768 ![0, 1] bcast_S64x1_S64x32768_0_1 : (⟨S64x1, .f32⟩ : BufTy).Contents (Elt F) → (⟨S64x32768, .f32⟩ : BufTy).Contents (Elt F)),
    binary main_v46 main_v50 main_v51 (Host.divf : (⟨S64x32768, .f32⟩ : BufTy).Contents (Elt F) → (⟨S64x32768, .f32⟩ : BufTy).Contents (Elt F) → (⟨S64x32768, .f32⟩ : BufTy).Contents (Elt F)) ]

set_option maxRecDepth 4096 in
set_option maxHeartbeats 1600000 in
/-- @main is that straight line: the two windows and the outlined functions unfolded at their calls, the
    sequencing reassociated. -/
theorem main_eq (c : Dev nD) : main (F := F) c = seq ops := by
  simp only [main, main_part0, main_part1, fn_var.body, fn_where.body, fn_norm.body, fn_norm_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxHeartbeats 1600000 in
theorem ops_sub : (ops : List (HloOp τ sig (Elt F))).Forall fun op => op.bufs ⊆ tcRefs τ sig :=
  ⟨reshape_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., nullary_bufs_sub .., binary_bufs_sub .., binary_bufs_sub .., unary_bufs_sub .., unary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

set_option maxHeartbeats 1600000 in
/-- Every weakly fair execution of @main ends with each buffer at the fold of the operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The nine stretches of the line, one per stage -/

def ops1 : List (HloOp τ sig (Elt F)) :=
  [ reshape main_arg0 main_v0 rfl shapeCasts_S64x2048x512_S131072x512,
    binary main_v0 main_arg1 main_v1 ((fun l r => Host.dotGeneral dot_S131072x512_S512x80_S131072x80_1_0_0_1_n_n none l r) : (⟨S131072x512, .f32⟩ : BufTy).Contents (Elt F) → (⟨S512x80, .f32⟩ : BufTy).Contents (Elt F) → (⟨S131072x80, .f32⟩ : BufTy).Contents (Elt F)) ]

def ops2 : List (HloOp τ sig (Elt F)) :=
  [ nullary main_cst (constant S_ .f32 0x00000000#32),
    binary main_v1 main_cst main_v2 ((fun x v => Host.reduceAdd x v reducesTo_S131072x80_S80_d0 h_S_) : (⟨S131072x80, .f32⟩ : BufTy).Contents (Elt F) → (⟨S_, .f32⟩ : BufTy).Contents (Elt F) → (⟨S80, .f32⟩ : BufTy).Contents (Elt F)),
    nullary main_cst_0 (constant S_ .f32 0x48000000#32),
    unary main_cst_0 main_v3 (broadcastInDim S80 ![] bcast_S_S80 : (⟨S_, .f32⟩ : BufTy).Contents (Elt F) → (⟨S80, .f32⟩ : BufTy).Contents (Elt F)),
    binary main_v2 main_v3 main_v4 (Host.divf : (⟨S80, .f32⟩ : BufTy).Contents (Elt F) → (⟨S80, .f32⟩ : BufTy).Contents (Elt F) → (⟨S80, .f32⟩ : BufTy).Contents (Elt F)) ]

def ops3 : List (HloOp τ sig (Elt F)) :=
  [ nullary main_c (constantI S_ 32 0#32),
    TRef.nullary main_call0.cst (constant S_ .f32 0x00000000#32),
    TRef.binary (.of main_v1 : TRef sig ⟨S131072x80, .f32⟩) main_call0.cst main_call0.v0 (fun x v => Host.reduceAdd x v reducesTo_S131072x80_S80_d0 h_S_),
    TRef.unary main_call0.v0 main_call0.v1 (broadcastInDim S1x80 ![1] bcast_S80_S1x80_1),
    TRef.nullary main_call0.cst_0 (constant S_ .f32 0x48000000#32),
    TRef.unary main_call0.cst_0 main_call0.v2 (broadcastInDim S1x80 ![] bcast_S_S1x80),
    TRef.binary main_call0.v1 main_call0.v2 main_call0.v3 Host.divf,
    TRef.unary main_call0.v3 main_call0.v4 (broadcastInDim S131072x80 ![0, 1] bcast_S1x80_S131072x80_0_1),
    TRef.binary (.of main_v1 : TRef sig ⟨S131072x80, .f32⟩) main_call0.v4 main_call0.v5 subf,
    TRef.binary main_call0.v5 main_call0.v5 main_call0.v6 mulf,
    TRef.unary (.of main_c : TRef sig ⟨S_, .i32⟩) main_call0.v7 (sitofp (F := F) .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S131072x80_S80_d0 h_S_),
    TRef.unary main_call0.v8 main_call0.v10 (broadcastInDim S80 ![] bcast_S_S80),
    TRef.binary main_call0.v9 main_call0.v10 main_call0.v11 Host.divf,
    TRef.nullary main_call0.cst_3 (constant S_ .f32 0x00000000#32),
    TRef.binary main_call0.v8 main_call0.cst_3 main_call0.v12 (cmpf (F := F) .ogt),
    TRef.nullary main_call0.cst_4 (constant S_ .f32 0x7FC00000#32),
    TRef.unary main_call0.cst_4 main_call0.call0.v0 id,
    TRef.unary main_call0.call0.v0 main_call0.call0.v1 (broadcastInDim S80 ![] bcast_S_S80),
    TRef.ternary main_call0.v12 main_call0.v11 main_call0.call0.v1 main_call0.call0.v2 (fun p a b => select (broadcastInDim S80 ![] bcast_S_S80 p) a b) ]

def ops4 : List (HloOp τ sig (Elt F)) :=
  [ unary main_v4 main_v6 (broadcastInDim S1x80 ![1] bcast_S80_S1x80_1 : (⟨S80, .f32⟩ : BufTy).Contents (Elt F) → (⟨S1x80, .f32⟩ : BufTy).Contents (Elt F)),
    unary main_v6 main_v7 (broadcastInDim S131072x80 ![0, 1] bcast_S1x80_S131072x80_0_1 : (⟨S1x80, .f32⟩ : BufTy).Contents (Elt F) → (⟨S131072x80, .f32⟩ : BufTy).Contents (Elt F)),
    binary main_v1 main_v7 main_v8 (subf : (⟨S131072x80, .f32⟩ : BufTy).Contents (Elt F) → (⟨S131072x80, .f32⟩ : BufTy).Contents (Elt F) → (⟨S131072x80, .f32⟩ : BufTy).Contents (Elt F)),
    nullary main_cst_1 (constant S_ .f32 0x3727C5AC#32),
    unary main_cst_1 main_v9 (broadcastInDim S80 ![] bcast_S_S80 : (⟨S_, .f32⟩ : BufTy).Contents (Elt F) → (⟨S80, .f32⟩ : BufTy).Contents (Elt F)),
    binary main_v5 main_v9 main_v10 (addf : (⟨S80, .f32⟩ : BufTy).Contents (Elt F) → (⟨S80, .f32⟩ : BufTy).Contents (Elt F) → (⟨S80, .f32⟩ : BufTy).Contents (Elt F)),
    unary main_v10 main_v11 (Host.rsqrt : (⟨S80, .f32⟩ : BufTy).Contents (Elt F) → (⟨S80, .f32⟩ : BufTy).Contents (Elt F)),
    unary main_v11 main_v12 (broadcastInDim S1x80 ![1] bcast_S80_S1x80_1 : (⟨S80, .f32⟩ : BufTy).Contents (Elt F) → (⟨S1x80, .f32⟩ : BufTy).Contents (Elt F)),
    unary main_v12 main_v13 (broadcastInDim S131072x80 ![0, 1] bcast_S1x80_S131072x80_0_1 : (⟨S1x80, .f32⟩ : BufTy).Contents (Elt F) → (⟨S131072x80, .f32⟩ : BufTy).Contents (Elt F)),
    binary main_v8 main_v13 main_v14 (mulf : (⟨S131072x80, .f32⟩ : BufTy).Contents (Elt F) → (⟨S131072x80, .f32⟩ : BufTy).Contents (Elt F) → (⟨S131072x80, .f32⟩ : BufTy).Contents (Elt F)),
    unary main_arg3 main_v15 (broadcastInDim S1x80 ![1] bcast_S80_S1x80_1 : (⟨S80, .f32⟩ : BufTy).Contents (Elt F) → (⟨S1x80, .f32⟩ : BufTy).Contents (Elt F)),
    unary main_v15 main_v16 (broadcastInDim S131072x80 ![0, 1] bcast_S1x80_S131072x80_0_1 : (⟨S1x80, .f32⟩ : BufTy).Contents (Elt F) → (⟨S131072x80, .f32⟩ : BufTy).Contents (Elt F)),
    binary main_v14 main_v16 main_v17 (mulf : (⟨S131072x80, .f32⟩ : BufTy).Contents (Elt F) → (⟨S131072x80, .f32⟩ : BufTy).Contents (Elt F) → (⟨S131072x80, .f32⟩ : BufTy).Contents (Elt F)),
    unary main_arg4 main_v18 (broadcastInDim S1x80 ![1] bcast_S80_S1x80_1 : (⟨S80, .f32⟩ : BufTy).Contents (Elt F) → (⟨S1x80, .f32⟩ : BufTy).Contents (Elt F)),
    unary main_v18 main_v19 (broadcastInDim S131072x80 ![0, 1] bcast_S1x80_S131072x80_0_1 : (⟨S1x80, .f32⟩ : BufTy).Contents (Elt F) → (⟨S131072x80, .f32⟩ : BufTy).Contents (Elt F)),
    binary main_v17 main_v19 main_v20 (addf : (⟨S131072x80, .f32⟩ : BufTy).Contents (Elt F) → (⟨S131072x80, .f32⟩ : BufTy).Contents (Elt F) → (⟨S131072x80, .f32⟩ : BufTy).Contents (Elt F)) ]

def ops5 : List (HloOp τ sig (Elt F)) :=
  [ nullary main_cst_2 (constant S_ .f32 0xFF800000#32),
    binary main_v20 main_cst_2 main_v21 ((fun x v => Host.reduce FloatOps.maximumf x v reducesTo_S131072x80_S131072_d1 h_S_) : (⟨S131072x80, .f32⟩ : BufTy).Contents (Elt F) → (⟨S_, .f32⟩ : BufTy).Contents (Elt F) → (⟨S131072, .f32⟩ : BufTy).Contents (Elt F)),
    nullary main_cst_3 (constant S_ .f32 0xFF800000#32),
    unary main_cst_3 main_v22 (broadcastInDim S131072 ![] bcast_S_S131072 : (⟨S_, .f32⟩ : BufTy).Contents (Elt F) → (⟨S131072, .f32⟩ : BufTy).Contents (Elt F)),
    binary main_v22 main_v21 main_v23 (maximumf : (⟨S131072, .f32⟩ : BufTy).Contents (Elt F) → (⟨S131072, .f32⟩ : BufTy).Contents (Elt F) → (⟨S131072, .f32⟩ : BufTy).Contents (Elt F)),
    unary main_v23 main_v24 (broadcastInDim S131072x1 ![0] bcast_S131072_S131072x1_0 : (⟨S131072, .f32⟩ : BufTy).Contents (Elt F) → (⟨S131072x1, .f32⟩ : BufTy).Contents (Elt F)),
    unary main_v24 main_v25 (broadcastInDim S131072x80 ![0, 1] bcast_S131072x1_S131072x80_0_1 : (⟨S131072x1, .f32⟩ : BufTy).Contents (Elt F) → (⟨S131072x80, .f32⟩ : BufTy).Contents (Elt F)),
    binary main_v20 main_v25 main_v26 (subf : (⟨S131072x80, .f32⟩ : BufTy).Contents (Elt F) → (⟨S131072x80, .f32⟩ : BufTy).Contents (Elt F) → (⟨S131072x80, .f32⟩ : BufTy).Contents (Elt F)),
    unary main_v26 main_v27 (Host.exp : (⟨S131072x80, .f32⟩ : BufTy).Contents (Elt F) → (⟨S131072x80, .f32⟩ : BufTy).Contents (Elt F)),
    nullary main_cst_4 (constant S_ .f32 0x00000000#32),
    binary main_v27 main_cst_4 main_v28 ((fun x v => Host.reduceAdd x v reducesTo_S131072x80_S131072_d1 h_S_) : (⟨S131072x80, .f32⟩ : BufTy).Contents (Elt F) → (⟨S_, .f32⟩ : BufTy).Contents (Elt F) → (⟨S131072, .f32⟩ : BufTy).Contents (Elt F)),
    unary main_v28 main_v29 (broadcastInDim S131072x1 ![0] bcast_S131072_S131072x1_0 : (⟨S131072, .f32⟩ : BufTy).Contents (Elt F) → (⟨S131072x1, .f32⟩ : BufTy).Contents (Elt F)),
    unary main_v29 main_v30 (broadcastInDim S131072x80 ![0, 1] bcast_S131072x1_S131072x80_0_1 : (⟨S131072x1, .f32⟩ : BufTy).Contents (Elt F) → (⟨S131072x80, .f32⟩ : BufTy).Contents (Elt F)),
    binary main_v27 main_v30 main_v31 (Host.divf : (⟨S131072x80, .f32⟩ : BufTy).Contents (Elt F) → (⟨S131072x80, .f32⟩ : BufTy).Contents (Elt F) → (⟨S131072x80, .f32⟩ : BufTy).Contents (Elt F)) ]

def ops6 : List (HloOp τ sig (Elt F)) :=
  [ unary main_v31 main_v32 ((extractStridedSlice S131072x64 ![0, 0] · slices_S131072x80_S131072x64_0_0) : (⟨S131072x80, .f32⟩ : BufTy).Contents (Elt F) → (⟨S131072x64, .f32⟩ : BufTy).Contents (Elt F)),
    reshape main_v32 main_v33 rfl shapeCasts_S131072x64_S64x2048x64 ]

def ops7 : List (HloOp τ sig (Elt F)) :=
  [ nullary main_cst_5 (constant S_ .f32 0x00000000#32),
    binary main_v33 main_cst_5 main_v34 ((fun x v => Host.reduceAdd x v reducesTo_S64x2048x64_S64x64_d1 h_S_) : (⟨S64x2048x64, .f32⟩ : BufTy).Contents (Elt F) → (⟨S_, .f32⟩ : BufTy).Contents (Elt F) → (⟨S64x64, .f32⟩ : BufTy).Contents (Elt F)),
    binary main_arg0 main_v33 main_v35 ((fun l r => Host.dotGeneral dot_S64x2048x512_S64x2048x64_S64x512x64_1_1_2_2_0_0 none l r) : (⟨S64x2048x512, .f32⟩ : BufTy).Contents (Elt F) → (⟨S64x2048x64, .f32⟩ : BufTy).Contents (Elt F) → (⟨S64x512x64, .f32⟩ : BufTy).Contents (Elt F)),
    unary main_v34 main_v36 (broadcastInDim S64x1x64 ![0, 2] bcast_S64x64_S64x1x64_0_2 : (⟨S64x64, .f32⟩ : BufTy).Contents (Elt F) → (⟨S64x1x64, .f32⟩ : BufTy).Contents (Elt F)),
    unary main_v36 main_v37 (broadcastInDim S64x512x64 ![0, 1, 2] bcast_S64x1x64_S64x512x64_0_1_2 : (⟨S64x1x64, .f32⟩ : BufTy).Contents (Elt F) → (⟨S64x512x64, .f32⟩ : BufTy).Contents (Elt F)),
    unary main_arg2 main_v38 (broadcastInDim S64x512x64 ![0, 1, 2] bcast_S1x512x64_S64x512x64_0_1_2 : (⟨S1x512x64, .f32⟩ : BufTy).Contents (Elt F) → (⟨S64x512x64, .f32⟩ : BufTy).Contents (Elt F)),
    binary main_v37 main_v38 main_v39 (mulf : (⟨S64x512x64, .f32⟩ : BufTy).Contents (Elt F) → (⟨S64x512x64, .f32⟩ : BufTy).Contents (Elt F) → (⟨S64x512x64, .f32⟩ : BufTy).Contents (Elt F)),
    binary main_v35 main_v39 main_v40 (subf : (⟨S64x512x64, .f32⟩ : BufTy).Contents (Elt F) → (⟨S64x512x64, .f32⟩ : BufTy).Contents (Elt F) → (⟨S64x512x64, .f32⟩ : BufTy).Contents (Elt F)) ]

def ops8 : List (HloOp τ sig (Elt F)) :=
  [ TRef.binary (.of main_v40 : TRef sig ⟨S64x512x64, .f32⟩) (.of main_v40 : TRef sig ⟨S64x512x64, .f32⟩) main_call1.v0 mulf,
    TRef.nullary main_call1.cst (constant S_ .f32 0x00000000#32),
    TRef.binary main_call1.v0 main_call1.cst main_call1.v1 (fun x v => Host.reduceAdd x v reducesTo_S64x512x64_S64x64_d1 h_S_),
    TRef.unary main_call1.v1 main_call1.v2 (broadcastInDim S64x1x64 ![0, 2] bcast_S64x64_S64x1x64_0_2),
    TRef.unary main_call1.v2 main_call1.v3 Host.sqrt,
    nullary main_cst_6 (constant S_ .f32 0x358637BD#32),
    unary main_cst_6 main_v42 (broadcastInDim S64x1x64 ![] bcast_S_S64x1x64 : (⟨S_, .f32⟩ : BufTy).Contents (Elt F) → (⟨S64x1x64, .f32⟩ : BufTy).Contents (Elt F)),
    binary main_v41 main_v42 main_v43 (addf : (⟨S64x1x64, .f32⟩ : BufTy).Contents (Elt F) → (⟨S64x1x64, .f32⟩ : BufTy).Contents (Elt F) → (⟨S64x1x64, .f32⟩ : BufTy).Contents (Elt F)),
    unary main_v43 main_v44 (broadcastInDim S64x512x64 ![0, 1, 2] bcast_S64x1x64_S64x512x64_0_1_2 : (⟨S64x1x64, .f32⟩ : BufTy).Contents (Elt F) → (⟨S64x512x64, .f32⟩ : BufTy).Contents (Elt F)),
    binary main_v40 main_v44 main_v45 (Host.divf : (⟨S64x512x64, .f32⟩ : BufTy).Contents (Elt F) → (⟨S64x512x64, .f32⟩ : BufTy).Contents (Elt F) → (⟨S64x512x64, .f32⟩ : BufTy).Contents (Elt F)),
    reshape main_v45 main_v46 rfl shapeCasts_S64x512x64_S64x32768 ]

def ops9 : List (HloOp τ sig (Elt F)) :=
  [ TRef.binary (.of main_v46 : TRef sig ⟨S64x32768, .f32⟩) (.of main_v46 : TRef sig ⟨S64x32768, .f32⟩) main_call2.v0 mulf,
    TRef.nullary main_call2.cst (constant S_ .f32 0x00000000#32),
    TRef.binary main_call2.v0 main_call2.cst main_call2.v1 (fun x v => Host.reduceAdd x v reducesTo_S64x32768_S64_d1 h_S_),
    TRef.unary main_call2.v1 main_call2.v2 (broadcastInDim S64x1 ![0] bcast_S64_S64x1_0),
    TRef.unary main_call2.v2 main_call2.v3 Host.sqrt,
    nullary main_cst_7 (constant S_ .f32 0x2B8CBCCC#32),
    unary main_cst_7 main_v48 (broadcastInDim S64x1 ![] bcast_S_S64x1 : (⟨S_, .f32⟩ : BufTy).Contents (Elt F) → (⟨S64x1, .f32⟩ : BufTy).Contents (Elt F)),
    binary main_v47 main_v48 main_v49 (maximumf : (⟨S64x1, .f32⟩ : BufTy).Contents (Elt F) → (⟨S64x1, .f32⟩ : BufTy).Contents (Elt F) → (⟨S64x1, .f32⟩ : BufTy).Contents (Elt F)),
    unary main_v49 main_v50 (broadcastInDim S64x32768 ![0, 1] bcast_S64x1_S64x32768_0_1 : (⟨S64x1, .f32⟩ : BufTy).Contents (Elt F) → (⟨S64x32768, .f32⟩ : BufTy).Contents (Elt F)),
    binary main_v46 main_v50 main_v51 (Host.divf : (⟨S64x32768, .f32⟩ : BufTy).Contents (Elt F) → (⟨S64x32768, .f32⟩ : BufTy).Contents (Elt F) → (⟨S64x32768, .f32⟩ : BufTy).Contents (Elt F)) ]

/-- The line is its nine stretches in order. -/
theorem ops_split : (ops : List (HloOp τ sig (Elt F))) = ops1 ++ (ops2 ++ (ops3 ++ (ops4 ++ (ops5 ++ (ops6 ++ (ops7 ++ (ops8 ++ ops9))))))) := rfl

/-- The fold over two lines run one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

section Stages

attribute [local irreducible] Host.reduce Host.reduceAdd

theorem s1 (W : Valuation τ sig (Elt Ideal)) :
    after (ops1 (F := Ideal)) W (main_v1 : DevRef τ sig) = st_v1 (W (main_arg0 : DevRef τ sig)) (W (main_arg1 : DevRef τ sig)) := by
  unfold ops1
  after_results_simp <;> (try simp only [TRef.ofBuf, TRef.toBuf, cast_eq]) <;> rfl
theorem k1_arg0 (W : Valuation τ sig (Elt Ideal)) :
    after (ops1 (F := Ideal)) W (main_arg0 : DevRef τ sig) = W (main_arg0 : DevRef τ sig) := by
  unfold ops1
  after_results_simp
theorem k1_arg2 (W : Valuation τ sig (Elt Ideal)) :
    after (ops1 (F := Ideal)) W (main_arg2 : DevRef τ sig) = W (main_arg2 : DevRef τ sig) := by
  unfold ops1
  after_results_simp
theorem k1_arg3 (W : Valuation τ sig (Elt Ideal)) :
    after (ops1 (F := Ideal)) W (main_arg3 : DevRef τ sig) = W (main_arg3 : DevRef τ sig) := by
  unfold ops1
  after_results_simp
theorem k1_arg4 (W : Valuation τ sig (Elt Ideal)) :
    after (ops1 (F := Ideal)) W (main_arg4 : DevRef τ sig) = W (main_arg4 : DevRef τ sig) := by
  unfold ops1
  after_results_simp

theorem s2 (W : Valuation τ sig (Elt Ideal)) :
    after (ops2 (F := Ideal)) W (main_v4 : DevRef τ sig) = st_mean (W (main_v1 : DevRef τ sig)) := by
  unfold ops2
  after_results_simp <;> (try simp only [TRef.ofBuf, TRef.toBuf, cast_eq]) <;> rfl
theorem k2_v1 (W : Valuation τ sig (Elt Ideal)) :
    after (ops2 (F := Ideal)) W (main_v1 : DevRef τ sig) = W (main_v1 : DevRef τ sig) := by
  unfold ops2
  after_results_simp
theorem k2_arg0 (W : Valuation τ sig (Elt Ideal)) :
    after (ops2 (F := Ideal)) W (main_arg0 : DevRef τ sig) = W (main_arg0 : DevRef τ sig) := by
  unfold ops2
  after_results_simp
theorem k2_arg2 (W : Valuation τ sig (Elt Ideal)) :
    after (ops2 (F := Ideal)) W (main_arg2 : DevRef τ sig) = W (main_arg2 : DevRef τ sig) := by
  unfold ops2
  after_results_simp
theorem k2_arg3 (W : Valuation τ sig (Elt Ideal)) :
    after (ops2 (F := Ideal)) W (main_arg3 : DevRef τ sig) = W (main_arg3 : DevRef τ sig) := by
  unfold ops2
  after_results_simp
theorem k2_arg4 (W : Valuation τ sig (Elt Ideal)) :
    after (ops2 (F := Ideal)) W (main_arg4 : DevRef τ sig) = W (main_arg4 : DevRef τ sig) := by
  unfold ops2
  after_results_simp

theorem s3 (W : Valuation τ sig (Elt Ideal)) :
    after (ops3 (F := Ideal)) W (main_v5 : DevRef τ sig) = st_var (W (main_v1 : DevRef τ sig)) := by
  unfold ops3
  after_results_simp <;> (try simp only [TRef.ofBuf, TRef.toBuf, cast_eq]) <;> rfl
theorem k3_v1 (W : Valuation τ sig (Elt Ideal)) :
    after (ops3 (F := Ideal)) W (main_v1 : DevRef τ sig) = W (main_v1 : DevRef τ sig) := by
  unfold ops3
  after_results_simp
theorem k3_v4 (W : Valuation τ sig (Elt Ideal)) :
    after (ops3 (F := Ideal)) W (main_v4 : DevRef τ sig) = W (main_v4 : DevRef τ sig) := by
  unfold ops3
  after_results_simp
theorem k3_arg0 (W : Valuation τ sig (Elt Ideal)) :
    after (ops3 (F := Ideal)) W (main_arg0 : DevRef τ sig) = W (main_arg0 : DevRef τ sig) := by
  unfold ops3
  after_results_simp
theorem k3_arg2 (W : Valuation τ sig (Elt Ideal)) :
    after (ops3 (F := Ideal)) W (main_arg2 : DevRef τ sig) = W (main_arg2 : DevRef τ sig) := by
  unfold ops3
  after_results_simp
theorem k3_arg3 (W : Valuation τ sig (Elt Ideal)) :
    after (ops3 (F := Ideal)) W (main_arg3 : DevRef τ sig) = W (main_arg3 : DevRef τ sig) := by
  unfold ops3
  after_results_simp
theorem k3_arg4 (W : Valuation τ sig (Elt Ideal)) :
    after (ops3 (F := Ideal)) W (main_arg4 : DevRef τ sig) = W (main_arg4 : DevRef τ sig) := by
  unfold ops3
  after_results_simp

theorem s4 (W : Valuation τ sig (Elt Ideal)) :
    after (ops4 (F := Ideal)) W (main_v20 : DevRef τ sig) = st_bn (W (main_v1 : DevRef τ sig)) (W (main_v4 : DevRef τ sig)) (W (main_v5 : DevRef τ sig)) (W (main_arg3 : DevRef τ sig)) (W (main_arg4 : DevRef τ sig)) := by
  unfold ops4
  after_results_simp <;> (try simp only [TRef.ofBuf, TRef.toBuf, cast_eq]) <;> rfl
theorem k4_arg0 (W : Valuation τ sig (Elt Ideal)) :
    after (ops4 (F := Ideal)) W (main_arg0 : DevRef τ sig) = W (main_arg0 : DevRef τ sig) := by
  unfold ops4
  after_results_simp
theorem k4_arg2 (W : Valuation τ sig (Elt Ideal)) :
    after (ops4 (F := Ideal)) W (main_arg2 : DevRef τ sig) = W (main_arg2 : DevRef τ sig) := by
  unfold ops4
  after_results_simp

theorem s5 (W : Valuation τ sig (Elt Ideal)) :
    after (ops5 (F := Ideal)) W (main_v31 : DevRef τ sig) = st_soft (W (main_v20 : DevRef τ sig)) := by
  unfold ops5
  after_results_simp <;> (try simp only [TRef.ofBuf, TRef.toBuf, cast_eq]) <;> rfl
theorem k5_arg0 (W : Valuation τ sig (Elt Ideal)) :
    after (ops5 (F := Ideal)) W (main_arg0 : DevRef τ sig) = W (main_arg0 : DevRef τ sig) := by
  unfold ops5
  after_results_simp
theorem k5_arg2 (W : Valuation τ sig (Elt Ideal)) :
    after (ops5 (F := Ideal)) W (main_arg2 : DevRef τ sig) = W (main_arg2 : DevRef τ sig) := by
  unfold ops5
  after_results_simp

theorem s6 (W : Valuation τ sig (Elt Ideal)) :
    after (ops6 (F := Ideal)) W (main_v33 : DevRef τ sig) = st_trim (W (main_v31 : DevRef τ sig)) := by
  unfold ops6
  after_results_simp <;> (try simp only [TRef.ofBuf, TRef.toBuf, cast_eq]) <;> rfl
theorem k6_arg0 (W : Valuation τ sig (Elt Ideal)) :
    after (ops6 (F := Ideal)) W (main_arg0 : DevRef τ sig) = W (main_arg0 : DevRef τ sig) := by
  unfold ops6
  after_results_simp
theorem k6_arg2 (W : Valuation τ sig (Elt Ideal)) :
    after (ops6 (F := Ideal)) W (main_arg2 : DevRef τ sig) = W (main_arg2 : DevRef τ sig) := by
  unfold ops6
  after_results_simp

theorem s7 (W : Valuation τ sig (Elt Ideal)) :
    after (ops7 (F := Ideal)) W (main_v40 : DevRef τ sig) = st_vlad (W (main_arg0 : DevRef τ sig)) (W (main_v33 : DevRef τ sig)) (W (main_arg2 : DevRef τ sig)) := by
  unfold ops7
  after_results_simp <;> (try simp only [TRef.ofBuf, TRef.toBuf, cast_eq]) <;> rfl

theorem s8 (W : Valuation τ sig (Elt Ideal)) :
    after (ops8 (F := Ideal)) W (main_v46 : DevRef τ sig) = st_intra (W (main_v40 : DevRef τ sig)) := by
  unfold ops8
  after_results_simp <;> (try simp only [TRef.ofBuf, TRef.toBuf, cast_eq]) <;> rfl

theorem s9 (W : Valuation τ sig (Elt Ideal)) :
    after (ops9 (F := Ideal)) W (main_v51 : DevRef τ sig) = st_final (W (main_v46 : DevRef τ sig)) := by
  unfold ops9
  after_results_simp <;> (try simp only [TRef.ofBuf, TRef.toBuf, cast_eq]) <;> rfl

end Stages

/-- The result buffer after the whole line is ref_out of the arguments: each stretch's result is its stage of what
    the stretch reads, and what a later stretch reads is kept by the stretches between. -/
theorem out_eq (V : Valuation τ sig (Elt Ideal)) :
    after (ops (F := Ideal)) V (main_v51 : DevRef τ sig)
      = ref_out (V (main_arg0 : DevRef τ sig)) (V (main_arg1 : DevRef τ sig)) (V (main_arg2 : DevRef τ sig))
          (V (main_arg3 : DevRef τ sig)) (V (main_arg4 : DevRef τ sig)) := by
  rw [ops_split]
  simp only [after_append]
  rw [s9, s8, s7, s6, k6_arg0, k6_arg2, s5, k5_arg0, k5_arg2, s4, k4_arg0, k4_arg2, s3, k3_v1, k3_v4, k3_arg0, k3_arg2, k3_arg3, k3_arg4, s2, k2_v1, k2_arg0, k2_arg2, k2_arg3, k2_arg4, s1, k1_arg0, k1_arg2, k1_arg3, k1_arg4]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

end Line

/-- Every weakly fair execution of the reference ends with its result at ref_out of the argument arrays and the
    arguments unchanged: the run of the line, read at the result buffer and at each argument. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
          = ref_out (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v51).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.RefRun

end
-- ==== Proof.RefValueA.lean ====
/-
  The reference's stages up to the trimmed softmax, read at an index: the flattened projection, the column means
  and variances, batch normalisation, the softmax over the 80 columns and its first 64 columns by batch.
-/
import proofs.«417997_j17514876633265_3_alg».proof.Proof.RefStages
import proofs.«417997_j17514876633265_3_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.Lib.KernelVsHost
import Idealize.ShloMosaic.PureOps.Ideal.Laws
import Idealize.ShloMosaic.PureOps.Reduce

noncomputable section

namespace Cert.ReferenceIdeal.RefValue

open Cert.ReferenceIdeal Cert.ReferenceIdeal.Stages Idealize.ShloMosaic Idealize.ShloMosaic.ValueIdx

/-- The arrays as plain families. -/
abbrev X3 (x : FV S64x2048x512) : Fin 64 → Fin 2048 → Fin 512 → EReal := fun b n k => x (ix3 b n k)
abbrev M2 (cl : FV S512x80) : Fin 512 → Fin 80 → EReal := fun k j => cl (ix2 k j)
abbrev V1 (w : FV S80) : Fin 80 → EReal := fun j => w (ix1 j)

/-! The auxiliary lemmas: each operation of the six stages read at an index. -/
namespace RefValueA

/-! ## The projection -/

/-- The program's dimension numbers are the plain matrix product's. -/
theorem dot_eq_plain : dot_S131072x512_S512x80_S131072x80_1_0_0_1_n_n = DotDims.plain 131072 512 80 := rfl

/-- The flattened batch at (r, c) is the batch array at (batch of r, row of r, c). -/
theorem flat_apply (x : FV S64x2048x512) (r : Fin 131072) (c : Fin 512) :
    shapeCast S131072x512 x Facts₀.shapeCasts_S64x2048x512_S131072x512 (ix2 r c) = x (ix3 (Vlad.rowB r) (Vlad.rowN r) c) := by
  refine shapeCast_apply x _ (ix2 r c) (ix3 (Vlad.rowB r) (Vlad.rowN r) c) ?_
  rw [Shape.rowMajor_val_three, Shape.rowMajor_val_two]
  show (r.val / 2048 * 2048 + r.val % 2048) * 512 + c.val = r.val * 512 + c.val
  rw [Nat.div_add_mod']

/-- The projection at (r, j): the sum over the 512 features. -/
theorem v1_apply (x : FV S64x2048x512) (cl : FV S512x80) (r : Fin 131072) (j : Fin 80) :
    st_v1 x cl (ix2 r j) = Vlad.proj (X3 x) (M2 cl) r j := by
  unfold st_v1
  rw [dot_eq_plain, StackMember.dotGeneral_plain_apply]
  unfold Vlad.proj
  refine Finset.sum_congr rfl fun c _ => ?_
  rw [flat_apply]

/-! ## Broadcasts of a scalar, of a row vector down the rows and of a column vector along the columns -/

section Bcast
variable {α : Type}

/-- A scalar broadcast to any shape reads the scalar everywhere. -/
theorem bcScalar_apply {t : Shape} (h : S_.BroadcastsInDim t (![] : Fin 0 → Fin t.rank)) (u : S_.Idx → α) (j : t.Idx) :
    broadcastInDim t ![] h u j = u ix0 :=
  broadcastInDim_apply _ h u j ix0 (fun a => a.elim0)

/-- A vector of 80 as a one-row matrix, at (0, j). -/
theorem bcRow1_apply (u : S80.Idx → α) (z : Fin 1) (j : Fin 80) :
    broadcastInDim S1x80 ![1] Facts₀.bcast_S80_S1x80_1 u (ix2 z j) = u (ix1 j) := by
  refine broadcastInDim_apply _ _ u (ix2 z j) (ix1 j) ?_
  intro a
  match a with
  | ⟨0, _⟩ => rfl

/-- A vector of 80 broadcast down the 131072 rows, at (r, j). -/
theorem bcRow_apply (u : S80.Idx → α) (r : Fin 131072) (j : Fin 80) :
    broadcastInDim S131072x80 ![0, 1] Facts₀.bcast_S1x80_S131072x80_0_1
      (broadcastInDim S1x80 ![1] Facts₀.bcast_S80_S1x80_1 u) (ix2 r j) = u (ix1 j) := by
  rw [broadcastInDim_oneRow_apply, bcRow1_apply]

/-- A vector of 131072 broadcast along the 80 columns, at (r, j). -/
theorem bcCol_apply (u : S131072.Idx → α) (r : Fin 131072) (j : Fin 80) :
    broadcastInDim S131072x80 ![0, 1] Facts₀.bcast_S131072x1_S131072x80_0_1
      (broadcastInDim S131072x1 ![0] Facts₀.bcast_S131072_S131072x1_0 u) (ix2 r j) = u (ix1 r) := by
  refine (broadcastInDim_apply _ _ _ (ix2 r j) (ix2 r (0 : Fin 1)) ?_).trans
    (broadcastInDim_apply _ _ u (ix2 r (0 : Fin 1)) (ix1 r) ?_)
  · intro a
    match a with
    | ⟨0, _⟩ => rfl
    | ⟨1, _⟩ => rfl
  · intro a
    match a with
    | ⟨0, _⟩ => rfl

end Bcast

/-! ## The host's pointwise operations at an index -/

section HostOps
variable {s : Shape} {φ : FTy}

theorem hostDivf_apply (a b : FVec Ideal s φ) (i : s.Idx) : Host.divf a b i = Ideal.div (a i) (b i) := rfl
theorem hostRsqrt_apply (a : FVec Ideal s φ) (i : s.Idx) : Host.rsqrt a i = Ideal.rsqrt (a i) := rfl
theorem hostExp_apply (a : FVec Ideal s φ) (i : s.Idx) : Host.exp a i = Ideal.exp (a i) := rfl

end HostOps

/-! ## The reductions over the rows (axis 0) and over the columns (axis 1) -/

/-- The shape facts that name the index with the reduced coordinate inserted. -/
theorem red0 : S131072x80.Reduces [0] S80 := by decide
theorem red1 : S131072x80.Reduces [1] S131072 := by decide

/-- Column j with row r inserted is (r, j). -/
theorem lift0 (j : Fin 80) (r : Fin 131072) : red0.lift (ix1 j) r = ix2 r j := by
  funext a; apply Fin.ext
  match a with
  | ⟨0, _⟩ => rfl
  | ⟨1, _⟩ => rfl

/-- Row r with column j inserted is (r, j). -/
theorem lift1 (r : Fin 131072) (j : Fin 80) : red1.lift (ix1 r) j = ix2 r j := by
  funext a; apply Fin.ext
  match a with
  | ⟨0, _⟩ => rfl
  | ⟨1, _⟩ => rfl

/-- The column sums: the 131072 rows of a column, summed from zero. -/
theorem sum0_apply (v : FV S131072x80) (j : Fin 80) :
    Host.reduceAdd (F := Ideal) v (constant S_ .f32 0x00000000#32) Facts₀.reducesTo_S131072x80_S80_d0 Facts₀.h_S_ (ix1 j)
      = ∑ r : Fin 131072, v (ix2 r j) := by
  unfold Host.reduceAdd
  rw [Ideal.hostReduceAdd_def, Ideal.hostReduceAdd_single _ red0, constant_apply, Ideal.ofBits_zero_f32, zero_add]
  exact Finset.sum_congr rfl fun (r : Fin 131072) _ => congrArg v (lift0 j r)

/-- The row sums: the 80 columns of a row, summed from zero. -/
theorem sum1_apply (v : FV S131072x80) (r : Fin 131072) :
    Host.reduceAdd (F := Ideal) v (constant S_ .f32 0x00000000#32) Facts₀.reducesTo_S131072x80_S131072_d1 Facts₀.h_S_ (ix1 r)
      = ∑ j : Fin 80, v (ix2 r j) := by
  unfold Host.reduceAdd
  rw [Ideal.hostReduceAdd_def, Ideal.hostReduceAdd_single _ red1, constant_apply, Ideal.ofBits_zero_f32, zero_add]
  exact Finset.sum_congr rfl fun (j : Fin 80) _ => congrArg v (lift1 r j)

/-- The row maxima: the fold of max over the 80 columns of a row, from the word of -∞. -/
theorem max1_apply (v : FV S131072x80) (r : Fin 131072) :
    Host.reduce FloatOps.maximumf v (constant (F := Ideal) S_ .f32 0xFF800000#32) Facts₀.reducesTo_S131072x80_S131072_d1 Facts₀.h_S_ (ix1 r)
      = (Finset.univ : Finset (Fin 80)).fold max Vlad.negInf (fun j => v (ix2 r j)) := by
  rw [Host.reduce_eq_fold_single FloatOps.maximumf v _ _ red1 _ (ix1 r)]
  have e : (v ∘ red1.lift (ix1 r)) = fun j : Fin 80 => v (ix2 r j) := funext fun (j : Fin 80) => congrArg v (lift1 r j)
  rw [e]
  rfl

/-! ## The column means and variances -/

/-- The column means. -/
theorem mean_apply (v1 : FV S131072x80) (j : Fin 80) :
    st_mean v1 (ix1 j) = Vlad.meanR (fun r j => v1 (ix2 r j)) j := by
  unfold st_mean Vlad.meanR
  rw [hostDivf_apply, sum0_apply, bcScalar_apply, constant_apply]

/-- The centred squares: the deviation from the column mean, squared. -/
theorem var_sq_apply (v1 : FV S131072x80) (r : Fin 131072) (j : Fin 80) :
    st_var_sq v1 (ix2 r j)
      = (v1 (ix2 r j) - Vlad.meanR (fun r j => v1 (ix2 r j)) j) * (v1 (ix2 r j) - Vlad.meanR (fun r j => v1 (ix2 r j)) j) := by
  unfold st_var_sq Vlad.meanR
  dsimp only
  rw [mulf_apply, subf_apply, broadcastInDim_oneRow_apply, hostDivf_apply, bcRow1_apply, bcScalar_apply, sum0_apply,
    constant_apply]

/-- The row count the programs print is the real 131072. -/
theorem cR_val : Vlad.cR = ((131072 : ℝ) : EReal) := by
  simp [Ideal.ofBits, Ideal.ieee, -EReal.coe_mul]; norm_num

/-- The variance's divisor: the row count less the integer zero read as a real. -/
theorem var_n_apply : st_var_n ix0 = Vlad.cR - ((0 : ℝ) : EReal) := by
  unfold st_var_n
  rw [subf_apply, constant_apply, sitofp_apply, constantI_apply]
  show Vlad.cR - (((0#32 : BitVec 32).toInt : ℝ) : EReal) = _
  rw [BitVec.toInt_zero, Int.cast_zero]

/-- The divisor is positive, so the select keeps the quotient. -/
theorem var_cond : cmpf .ogt st_var_n (constant (F := Ideal) S_ .f32 0x00000000#32) ix0 = 1#1 := by
  rw [cmpf_apply, Ideal.cmpf_def, var_n_apply, constant_apply, Ideal.ofBits_zero_f32, cR_val]
  unfold Ideal.cmp
  have h : (0 : EReal) < ((131072 : ℝ) : EReal) - ((0 : ℝ) : EReal) := by
    rw [← EReal.coe_sub]
    exact_mod_cast (by norm_num : (0 : ℝ) < 131072 - 0)
  simp [h]

/-- The column variances. -/
theorem var_apply (v1 : FV S131072x80) (j : Fin 80) :
    st_var v1 (ix1 j) = Vlad.varR (fun r j => v1 (ix2 r j)) j := by
  unfold st_var
  rw [select_apply, bcScalar_apply, var_cond, select_one, hostDivf_apply, sum0_apply, bcScalar_apply, var_n_apply]
  unfold Vlad.varR
  exact congrArg (fun s => Ideal.div s (Vlad.cR - ((0 : ℝ) : EReal)))
    (Finset.sum_congr rfl fun r _ => var_sq_apply v1 r j)

/-! ## Batch normalisation, the softmax and its first 64 columns by batch -/

/-- Batch normalisation at (r, j). -/
theorem bn_apply (v1 : FV S131072x80) (μ var w β : FV S80) (r : Fin 131072) (j : Fin 80) :
    st_bn v1 μ var w β (ix2 r j) = Vlad.bn (fun j => v1 (ix2 r j)) (V1 μ) (V1 var) (V1 w) (V1 β) j := by
  unfold st_bn Vlad.bn
  dsimp only
  rw [addf_apply, mulf_apply, mulf_apply, subf_apply, bcRow_apply, bcRow_apply, bcRow_apply, bcRow_apply, hostRsqrt_apply,
    addf_apply, bcScalar_apply, constant_apply]

/-- The softmax of a row at column j: the exponential of the entry less the row's maximum, over the sum of those. -/
theorem soft_apply (v20 : FV S131072x80) (r : Fin 131072) (j : Fin 80) :
    st_soft v20 (ix2 r j)
      = Ideal.div (Ideal.exp (v20 (ix2 r j) - (Finset.univ : Finset (Fin 80)).fold max Vlad.negInf (fun j => v20 (ix2 r j))))
          (∑ j' : Fin 80, Ideal.exp (v20 (ix2 r j') - (Finset.univ : Finset (Fin 80)).fold max Vlad.negInf (fun j => v20 (ix2 r j)))) := by
  -- the maximum of the word of -∞ with a fold of max that starts from it is the fold
  have hmax : ∀ r' : Fin 131072,
      maximumf (broadcastInDim S131072 ![] Facts₀.bcast_S_S131072 (constant (F := Ideal) S_ .f32 0xFF800000#32))
        (Host.reduce FloatOps.maximumf v20 (constant (F := Ideal) S_ .f32 0xFF800000#32) Facts₀.reducesTo_S131072x80_S131072_d1 Facts₀.h_S_)
        (ix1 r')
        = (Finset.univ : Finset (Fin 80)).fold max Vlad.negInf (fun j => v20 (ix2 r' j)) := fun r' => by
    rw [maximumf_apply, bcScalar_apply, constant_apply, max1_apply]
    exact max_eq_right ((Finset.le_fold_max _).2 (Or.inl le_rfl))
  unfold st_soft
  dsimp only
  rw [hostDivf_apply, bcCol_apply, sum1_apply, hostExp_apply, subf_apply, bcCol_apply, hmax]
  refine congrArg (Ideal.div _) (Finset.sum_congr rfl fun j' _ => ?_)
  rw [hostExp_apply, subf_apply, bcCol_apply, hmax]

/-- The first 64 columns by batch: entry (b, n, k) is entry (row n of batch b, column k). -/
theorem trim_at (v31 : FV S131072x80) (b : Fin 64) (n : Fin 2048) (k : Fin 64) :
    st_trim v31 (ix3 b n k) = v31 (ix2 (Vlad.row b n) (Vlad.col k)) := by
  unfold st_trim
  refine (shapeCast_apply _ _ (ix3 b n k) (ix2 (Vlad.row b n) k) ?_).trans
    (extractStridedSlice_apply _ v31 _ (ix2 (Vlad.row b n) k) (ix2 (Vlad.row b n) (Vlad.col k)) ?_)
  · rw [Shape.rowMajor_val_three, Shape.rowMajor_val_two]
    show (b.val * 2048 + n.val) * 64 + k.val = (b.val * 2048 + n.val) * 64 + k.val
    rfl
  · intro a
    match a with
    | ⟨0, _⟩ => show b.val * 2048 + n.val = 0 + (b.val * 2048 + n.val); omega
    | ⟨1, _⟩ => show k.val = 0 + k.val; omega

end RefValueA

open RefValueA

/-- The trimmed softmax of the batch-normalised projection at batch b, row n, cluster k. -/
theorem trim_apply (x : FV S64x2048x512) (cl : FV S512x80) (w β : FV S80) (b : Fin 64) (n : Fin 2048) (k : Fin 64) :
    st_trim (st_soft (st_bn (st_v1 x cl) (st_mean (st_v1 x cl)) (st_var (st_v1 x cl)) w β)) (ix3 b n k)
      = Vlad.soft (fun j => Vlad.proj (X3 x) (M2 cl) (Vlad.row b n) j)
          (Vlad.meanR (Vlad.proj (X3 x) (M2 cl))) (Vlad.varR (Vlad.proj (X3 x) (M2 cl))) (V1 w) (V1 β) k := by
  -- the projection, its means and its variances as families
  have hp : (fun r j => st_v1 x cl (ix2 r j)) = Vlad.proj (X3 x) (M2 cl) :=
    funext fun r => funext fun j => v1_apply x cl r j
  have hμ : V1 (st_mean (st_v1 x cl)) = Vlad.meanR (Vlad.proj (X3 x) (M2 cl)) :=
    funext fun j => by rw [← hp]; exact mean_apply (st_v1 x cl) j
  have hv : V1 (st_var (st_v1 x cl)) = Vlad.varR (Vlad.proj (X3 x) (M2 cl)) :=
    funext fun j => by rw [← hp]; exact var_apply (st_v1 x cl) j
  have hrow : (fun j => st_v1 x cl (ix2 (Vlad.row b n) j)) = fun j => Vlad.proj (X3 x) (M2 cl) (Vlad.row b n) j :=
    funext fun j => v1_apply x cl (Vlad.row b n) j
  -- batch normalisation of row (b, n) as a family over the columns
  have hbn : ∀ j : Fin 80,
      st_bn (st_v1 x cl) (st_mean (st_v1 x cl)) (st_var (st_v1 x cl)) w β (ix2 (Vlad.row b n) j)
        = Vlad.bn (fun j => Vlad.proj (X3 x) (M2 cl) (Vlad.row b n) j)
            (Vlad.meanR (Vlad.proj (X3 x) (M2 cl))) (Vlad.varR (Vlad.proj (X3 x) (M2 cl))) (V1 w) (V1 β) j := fun j => by
    rw [bn_apply, hμ, hv, hrow]
  rw [trim_at, soft_apply]
  simp only [hbn]
  rfl

end Cert.ReferenceIdeal.RefValue

end
-- ==== Proof.RefValueB.lean ====
/-
  The reference's last three stages read at an index, for any soft assignment s: the aggregated residuals, the
  normalisation within each cluster and the normalisation of the whole descriptor (a sum over the 32768 flattened
  positions, which is the double sum over clusters and features).
-/
import proofs.«417997_j17514876633265_3_alg».proof.Proof.RefStages
import proofs.«417997_j17514876633265_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Stages Cert.ReferenceIdeal.Facts₀ Idealize.ShloMosaic Idealize.ShloMosaic.ValueIdx

/-! The auxiliary lemmas: each operation of the three stages read at an index. -/
namespace RefValueB

/-! ## The reference's quotient and square root at an index -/

/-- The quotient of two arrays at an index is the quotient of the elements. -/
theorem hdivf_apply {s : Shape} (a c : FVec Ideal s .f32) (i : s.Idx) : Host.divf a c i = Ideal.div (a i) (c i) := rfl
/-- The square root of an array at an index is the square root of the element. -/
theorem hsqrt_apply {s : Shape} (a : FVec Ideal s .f32) (i : s.Idx) : Host.sqrt a i = Ideal.sqrt (a i) := rfl

/-! ## The aggregated residuals at an index -/

/-- The batched product of the rows with the soft assignment, at (b, d, k): the sum over the batch's rows. -/
theorem dot_apply (x : FV S64x2048x512) (s : FV S64x2048x64) (b : Fin 64) (d : Fin 512) (k : Fin 64) :
    Host.dotGeneral dot_S64x2048x512_S64x2048x64_S64x512x64_1_1_2_2_0_0 none x s (ix3 b d k)
      = ∑ n : Fin 2048, x (ix3 b n d) * s (ix3 b n k) := by
  show FloatOps.dotGeneral _ none _ x s (ix3 b d k) = _
  rw [Ideal.dotGeneral_apply,
    ← Equiv.sum_comp (contrEquiv1 dot_S64x2048x512_S64x2048x64_S64x512x64_1_1_2_2_0_0 2048 rfl rfl).symm]
  refine Finset.sum_congr rfl fun n _ => ?_
  have c3 := contrEquiv1_symm_val dot_S64x2048x512_S64x2048x64_S64x512x64_1_1_2_2_0_0 2048 rfl rfl n
  have l3 : dot_S64x2048x512_S64x2048x64_S64x512x64_1_1_2_2_0_0.lhsIdx (ix3 b d k)
      ((contrEquiv1 _ 2048 rfl rfl).symm n) = ix3 b n d := by
    funext ax; apply Fin.ext
    match ax with
    | ⟨0, _⟩ => simp [DotDims.lhsIdx, dot_S64x2048x512_S64x2048x64_S64x512x64_1_1_2_2_0_0]; rfl
    | ⟨1, _⟩ => simp [DotDims.lhsIdx, dot_S64x2048x512_S64x2048x64_S64x512x64_1_1_2_2_0_0]; exact c3
    | ⟨2, _⟩ => simp [DotDims.lhsIdx, dot_S64x2048x512_S64x2048x64_S64x512x64_1_1_2_2_0_0]; rfl
  have r3 : dot_S64x2048x512_S64x2048x64_S64x512x64_1_1_2_2_0_0.rhsIdx (ix3 b d k)
      ((contrEquiv1 _ 2048 rfl rfl).symm n) = ix3 b n k := by
    funext ax; apply Fin.ext
    match ax with
    | ⟨0, _⟩ => simp [DotDims.rhsIdx, dot_S64x2048x512_S64x2048x64_S64x512x64_1_1_2_2_0_0]; rfl
    | ⟨1, _⟩ => simp [DotDims.rhsIdx, dot_S64x2048x512_S64x2048x64_S64x512x64_1_1_2_2_0_0]; exact c3
    | ⟨2, _⟩ => simp [DotDims.rhsIdx, dot_S64x2048x512_S64x2048x64_S64x512x64_1_1_2_2_0_0]; rfl
  rw [l3, r3]

/-- The soft assignment summed over a batch's rows, at (b, k). -/
theorem asum_apply (s : FV S64x2048x64) (b : Fin 64) (k : Fin 64) :
    Host.reduceAdd (F := Ideal) s (constant S_ .f32 0x00000000#32) reducesTo_S64x2048x64_S64x64_d1 h_S_ (ix2 b k)
      = ∑ n : Fin 2048, s (ix3 b n k) := by
  have h : S64x2048x64.Reduces [1] S64x64 := by decide
  show Ideal.hostReduceAdd reducesTo_S64x2048x64_S64x64_d1 s (Ideal.ofBits .f32 0x00000000#32) (ix2 b k) = _
  rw [Ideal.hostReduceAdd_single _ h, Ideal.ofBits_zero_f32, zero_add]
  show ∑ n : Fin 2048, s (h.lift (ix2 b k) n) = _
  refine Finset.sum_congr rfl fun n _ => congrArg s ?_
  funext a; apply Fin.ext
  match a with
  | ⟨0, _⟩ => rfl
  | ⟨1, _⟩ => rfl
  | ⟨2, _⟩ => rfl

/-- A (batch, cluster) array spread along the feature axis reads, at (b, d, k), its entry (b, k). -/
theorem bc_bk_apply (u : FV S64x64) (b : Fin 64) (d : Fin 512) (k : Fin 64) :
    broadcastInDim S64x512x64 ![0, 1, 2] bcast_S64x1x64_S64x512x64_0_1_2
        (broadcastInDim S64x1x64 ![0, 2] bcast_S64x64_S64x1x64_0_2 u) (ix3 b d k) = u (ix2 b k) := by
  refine (broadcastInDim_apply _ _ _ (ix3 b d k) (ix3 b (0 : Fin 1) k) ?_).trans ?_
  · intro a
    match a with
    | ⟨0, _⟩ => rfl
    | ⟨1, _⟩ => rfl
    | ⟨2, _⟩ => rfl
  · refine broadcastInDim_apply _ _ _ (ix3 b (0 : Fin 1) k) (ix2 b k) ?_
    intro a
    match a with
    | ⟨0, _⟩ => rfl
    | ⟨1, _⟩ => rfl

/-- The cluster centres spread along the batch axis read, at (b, d, k), their entry (0, d, k). -/
theorem bc_c2_apply (c2 : FV S1x512x64) (b : Fin 64) (d : Fin 512) (k : Fin 64) :
    broadcastInDim S64x512x64 ![0, 1, 2] bcast_S1x512x64_S64x512x64_0_1_2 c2 (ix3 b d k) = c2 (ix3 (0 : Fin 1) d k) := by
  refine broadcastInDim_apply _ _ _ (ix3 b d k) (ix3 (0 : Fin 1) d k) ?_
  intro a
  match a with
  | ⟨0, _⟩ => rfl
  | ⟨1, _⟩ => rfl
  | ⟨2, _⟩ => rfl

/-- The aggregated residuals at (b, d, k). -/
theorem vlad_apply (x : FV S64x2048x512) (s : FV S64x2048x64) (c2 : FV S1x512x64) (b : Fin 64) (d : Fin 512) (k : Fin 64) :
    st_vlad x s c2 (ix3 b d k)
      = Vlad.vlad (fun n d => x (ix3 b n d)) (fun n k => s (ix3 b n k)) (fun d k => c2 (ix3 0 d k)) d k := by
  unfold st_vlad
  rw [subf_apply, mulf_apply, dot_apply, bc_bk_apply, asum_apply, bc_c2_apply]
  rfl

/-! ## The normalisation within each cluster at an index -/

/-- The squares summed over the features, at (b, k). -/
theorem sqsum_d_apply (v : FV S64x512x64) (b : Fin 64) (k : Fin 64) :
    Host.reduceAdd (F := Ideal) (mulf v v) (constant S_ .f32 0x00000000#32) reducesTo_S64x512x64_S64x64_d1 h_S_ (ix2 b k)
      = ∑ d : Fin 512, v (ix3 b d k) * v (ix3 b d k) := by
  have h : S64x512x64.Reduces [1] S64x64 := by decide
  show Ideal.hostReduceAdd reducesTo_S64x512x64_S64x64_d1 (mulf v v) (Ideal.ofBits .f32 0x00000000#32) (ix2 b k) = _
  rw [Ideal.hostReduceAdd_single _ h, Ideal.ofBits_zero_f32, zero_add]
  show ∑ d : Fin 512, mulf v v (h.lift (ix2 b k) d) = _
  refine Finset.sum_congr rfl fun d _ => ?_
  have e : h.lift (ix2 b k) d = ix3 b d k := by
    funext a; apply Fin.ext
    match a with
    | ⟨0, _⟩ => rfl
    | ⟨1, _⟩ => rfl
    | ⟨2, _⟩ => rfl
  rw [e, mulf_apply]

/-- The within-cluster norm plus ε, spread along the feature axis, at (b, d, k). -/
theorem nrm_apply (v : FV S64x512x64) (b : Fin 64) (d : Fin 512) (k : Fin 64) :
    broadcastInDim S64x512x64 ![0, 1, 2] bcast_S64x1x64_S64x512x64_0_1_2
      (addf (Host.sqrt (broadcastInDim S64x1x64 ![0, 2] bcast_S64x64_S64x1x64_0_2
          (Host.reduceAdd (F := Ideal) (mulf v v) (constant S_ .f32 0x00000000#32) reducesTo_S64x512x64_S64x64_d1 h_S_)))
        (broadcastInDim S64x1x64 ![] bcast_S_S64x1x64 (constant (F := Ideal) S_ .f32 0x358637BD#32))) (ix3 b d k)
      = Ideal.sqrt (∑ d' : Fin 512, v (ix3 b d' k) * v (ix3 b d' k)) + Vlad.eps6 := by
  refine (broadcastInDim_apply _ _ _ (ix3 b d k) (ix3 b (0 : Fin 1) k) ?_).trans ?_
  · intro a
    match a with
    | ⟨0, _⟩ => rfl
    | ⟨1, _⟩ => rfl
    | ⟨2, _⟩ => rfl
  · rw [addf_apply]
    refine congrArg₂ (· + ·) ?_ ?_
    · rw [hsqrt_apply]
      refine congrArg Ideal.sqrt ?_
      refine (broadcastInDim_apply _ _ _ (ix3 b (0 : Fin 1) k) (ix2 b k) ?_).trans (sqsum_d_apply v b k)
      intro a
      match a with
      | ⟨0, _⟩ => rfl
      | ⟨1, _⟩ => rfl
    · rfl

/-- The normalisation within each cluster at the flattened position of (d, k). -/
theorem intra_apply (v : FV S64x512x64) (b : Fin 64) (d : Fin 512) (k : Fin 64) :
    st_intra v (ix2 b (Vlad.flat d k))
      = Ideal.div (v (ix3 b d k)) (Ideal.sqrt (∑ d' : Fin 512, v (ix3 b d' k) * v (ix3 b d' k)) + Vlad.eps6) := by
  unfold st_intra
  refine (shapeCast_apply _ _ (ix2 b (Vlad.flat d k)) (ix3 b d k) ?_).trans ?_
  · rw [Shape.rowMajor_val_three, Shape.rowMajor_val_two]
    show (b.val * 512 + d.val) * 64 + k.val = b.val * 32768 + (d.val * 64 + k.val)
    omega
  · rw [hdivf_apply, nrm_apply]

/-! ## The normalisation of each whole descriptor at an index -/

/-- The squares summed over a descriptor's 32768 positions, at b. -/
theorem sqsum_q_apply (v : FV S64x32768) (b : Fin 64) :
    Host.reduceAdd (F := Ideal) (mulf v v) (constant S_ .f32 0x00000000#32) reducesTo_S64x32768_S64_d1 h_S_ (ix1 b)
      = ∑ q : Fin 32768, v (ix2 b q) * v (ix2 b q) := by
  have h : S64x32768.Reduces [1] S64 := by decide
  show Ideal.hostReduceAdd reducesTo_S64x32768_S64_d1 (mulf v v) (Ideal.ofBits .f32 0x00000000#32) (ix1 b) = _
  rw [Ideal.hostReduceAdd_single _ h, Ideal.ofBits_zero_f32, zero_add]
  show ∑ q : Fin 32768, mulf v v (h.lift (ix1 b) q) = _
  refine Finset.sum_congr rfl fun q _ => ?_
  have e : h.lift (ix1 b) q = ix2 b q := by
    funext a; apply Fin.ext
    match a with
    | ⟨0, _⟩ => rfl
    | ⟨1, _⟩ => rfl
  rw [e, mulf_apply]

/-- The normalisation of each whole descriptor at (b, q). -/
theorem final_stage_apply (v : FV S64x32768) (b : Fin 64) (q : Fin 32768) :
    st_final v (ix2 b q)
      = Ideal.div (v (ix2 b q)) (max (Ideal.sqrt (∑ q' : Fin 32768, v (ix2 b q') * v (ix2 b q'))) Vlad.eps12) := by
  unfold st_final
  rw [hdivf_apply]
  refine congrArg (Ideal.div (v (ix2 b q))) ?_
  refine (broadcastInDim_apply _ _ _ (ix2 b q) (ix2 b (0 : Fin 1)) ?_).trans ?_
  · intro a
    match a with
    | ⟨0, _⟩ => rfl
    | ⟨1, _⟩ => rfl
  · rw [maximumf_apply]
    refine congrArg₂ max ?_ ?_
    · rw [hsqrt_apply]
      refine congrArg Ideal.sqrt ?_
      refine (broadcastInDim_apply _ _ _ (ix2 b (0 : Fin 1)) (ix1 b) ?_).trans (sqsum_q_apply v b)
      intro a
      match a with
      | ⟨0, _⟩ => rfl
    · rfl

/-! ## The 32768 positions as the pairs (feature, cluster) -/

/-- Position d * 64 + k of a flattened descriptor is the pair (d, k). -/
def flatEquiv : Fin 512 × Fin 64 ≃ Fin 32768 where
  toFun p := Vlad.flat p.1 p.2
  invFun q := (⟨q.val / 64, by omega⟩, ⟨q.val % 64, Nat.mod_lt _ (by decide)⟩)
  left_inv p := by
    obtain ⟨d, k⟩ := p
    refine Prod.ext (Fin.ext ?_) (Fin.ext ?_)
    · show (d.val * 64 + k.val) / 64 = d.val
      omega
    · show (d.val * 64 + k.val) % 64 = k.val
      omega
  right_inv q := by
    refine Fin.ext ?_
    show q.val / 64 * 64 + q.val % 64 = q.val
    omega

/-- A sum over the 32768 positions is the double sum over clusters and features. -/
theorem sum_flat {M : Type*} [AddCommMonoid M] (f : Fin 32768 → M) :
    ∑ q : Fin 32768, f q = ∑ k : Fin 64, ∑ d : Fin 512, f (Vlad.flat d k) := by
  rw [← Equiv.sum_comp flatEquiv f, Fintype.sum_prod_type, Finset.sum_comm]
  rfl

/-! ## The three stages composed -/

/-- The within-cluster normalised residuals of the reference are the specification's. -/
theorem intra_vlad_apply (x : FV S64x2048x512) (s : FV S64x2048x64) (c2 : FV S1x512x64) (b : Fin 64) (d : Fin 512) (k : Fin 64) :
    st_intra (st_vlad x s c2) (ix2 b (Vlad.flat d k))
      = Vlad.vn (fun n d => x (ix3 b n d)) (fun n k => s (ix3 b n k)) (fun d k => c2 (ix3 0 d k)) d k := by
  rw [intra_apply]
  unfold Vlad.vn Vlad.nrm
  rw [vlad_apply]
  refine congrArg (Ideal.div _) (congrArg (· + Vlad.eps6) (congrArg Ideal.sqrt ?_))
  exact Finset.sum_congr rfl fun d' _ => by rw [vlad_apply]

end RefValueB

open RefValueB

/-- The reference's last three stages at the flattened position of (d, k) of batch b: the specification's
    descriptor entry of the batch's rows, its soft assignment and the cluster centres. -/
theorem final_apply (x : FV S64x2048x512) (s : FV S64x2048x64) (c2 : FV S1x512x64) (b : Fin 64) (d : Fin 512) (k : Fin 64) :
    st_final (st_intra (st_vlad x s c2)) (ix2 b (Vlad.flat d k))
      = Vlad.out (fun n d => x (ix3 b n d)) (fun n k => s (ix3 b n k)) (fun d k => c2 (ix3 0 d k)) d k := by
  rw [final_stage_apply, sum_flat, intra_vlad_apply]
  unfold Vlad.out Vlad.tot
  refine congrArg (Ideal.div _) (congrArg (max · Vlad.eps12) (congrArg Ideal.sqrt ?_))
  exact Finset.sum_congr rfl fun k' _ => Finset.sum_congr rfl fun d' _ => by rw [intra_vlad_apply]

end Cert.ReferenceIdeal.RefValue

end
-- ==== Proof.RefValue.lean ====
/-
  The reference's result at an index is the specification's descriptor with the reference's statistics.
-/
import proofs.«417997_j17514876633265_3_alg».proof.Proof.RefValueA
import proofs.«417997_j17514876633265_3_alg».proof.Proof.RefValueB

noncomputable section

namespace Cert.ReferenceIdeal.RefValue

open Cert.ReferenceIdeal Cert.ReferenceIdeal.Stages Idealize.ShloMosaic Idealize.ShloMosaic.ValueIdx

theorem ref_out_apply (x : FV S64x2048x512) (cl : FV S512x80) (c2 : FV S1x512x64) (w β : FV S80)
    (b : Fin 64) (d : Fin 512) (k : Fin 64) :
    ref_out x cl c2 w β (ix2 b (Vlad.flat d k))
      = Vlad.descr (Vlad.meanR (Vlad.proj (X3 x) (M2 cl))) (Vlad.varR (Vlad.proj (X3 x) (M2 cl)))
          (X3 x) (M2 cl) (fun d k => c2 (ix3 0 d k)) (V1 w) (V1 β) b d k := by
  unfold ref_out
  rw [final_apply]
  unfold Vlad.descr
  refine congrArg (fun s => Vlad.out (X3 x b) s (fun d k => c2 (ix3 0 d k)) d k) ?_
  funext n k
  exact trim_apply x cl w β b n k

end Cert.ReferenceIdeal.RefValue

end
-- ==== Proof.Stats.lean ====
/-
  The two ways of forming the batch statistics agree on finite values: the 32 block sums of 4096 rows add up to
  the sum over all 131072 rows, and on the reals E[a²] - μ² = E[(a - μ)²] ≥ 0, so the clamp at zero is the identity.
-/
import proofs.«417997_j17514876633265_3_alg».proof.Proof.Spec
import Mathlib.Data.Fintype.BigOperators
import Mathlib.Tactic.Ring
import Mathlib.Tactic.FieldSimp
import Mathlib.Tactic.NormNum

noncomputable section

namespace Cert.Vlad

open Idealize.ShloMosaic

/-- The printed row count denotes the real 131072. -/
theorem cR_eq : cR = ((131072 : ℝ) : EReal) := by
  show Ideal.ofBits .f32 0x48000000#32 = ((131072 : ℝ) : EReal)
  simp [Ideal.ofBits, Ideal.ieee, -EReal.coe_mul]; norm_num

namespace Stats

/-! ## Coercion of finite sums of reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Stats

open Stats in
/-- A projection of finite inputs is finite. -/
theorem proj_finite (x : Fin 64 → Fin 2048 → Fin 512 → EReal) (cl : Fin 512 → Fin 80 → EReal)
    (hx : ∀ b n k, ∃ y : ℝ, x b n k = (y : EReal)) (hcl : ∀ k j, ∃ y : ℝ, cl k j = (y : EReal)) (r : Fin 131072) (j : Fin 80) :
    ∃ y : ℝ, proj x cl r j = (y : EReal) := by
  choose xr hxr using hx
  choose cr hcr using hcl
  refine ⟨∑ k : Fin 512, xr (rowB r) (rowN r) k * cr k j, ?_⟩
  rw [coe_sum]
  unfold proj
  refine Finset.sum_congr rfl (fun k _ => ?_)
  rw [hxr, hcr, EReal.coe_mul]

namespace Stats

/-! ## The blocks of 4096 rows tile the 131072 rows -/

/-- Block i, row ρ ↦ flattened row i * 4096 + ρ is a bijection of 32 × 4096 onto the 131072 rows. -/
def browEquiv : Fin 32 × Fin 4096 ≃ Fin 131072 where
  toFun p := brow p.1 p.2
  invFun r := (⟨r.val / 4096, by omega⟩, ⟨r.val % 4096, Nat.mod_lt _ (by decide)⟩)
  left_inv := by
    rintro ⟨i, ρ⟩
    apply Prod.ext
    · apply Fin.ext
      show (i.val * 4096 + ρ.val) / 4096 = i.val
      omega
    · apply Fin.ext
      show (i.val * 4096 + ρ.val) % 4096 = ρ.val
      omega
  right_inv := by
    intro r
    apply Fin.ext
    show r.val / 4096 * 4096 + r.val % 4096 = r.val
    omega

/-- The double sum over blocks and rows within a block is the sum over all rows. -/
theorem sum_brow {M : Type*} [AddCommMonoid M] (f : Fin 131072 → M) :
    ∑ i : Fin 32, ∑ ρ : Fin 4096, f (brow i ρ) = ∑ r : Fin 131072, f r := by
  rw [← browEquiv.sum_comp f, Fintype.sum_prod_type]
  rfl

/-! ## The variance identity on the reals -/

/-- With μ the mean of g over a finite index of N ≠ 0 elements: the mean of the squares less μ² is the mean of
    the squared deviations. -/
theorem var_identity {ι : Type*} [Fintype ι] (g : ι → ℝ) (N : ℝ) (hN : N = (Fintype.card ι : ℝ)) (hN0 : N ≠ 0) :
    (∑ r, g r * g r) * (1 / N) - ((∑ r, g r) * (1 / N)) * ((∑ r, g r) * (1 / N))
      = (∑ r, (g r - (∑ r, g r) * (1 / N)) * (g r - (∑ r, g r) * (1 / N))) * (1 / N) := by
  have h1 : ∀ μ : ℝ, ∑ r, (g r - μ) * (g r - μ) = (∑ r, g r * g r) - 2 * μ * (∑ r, g r) + N * (μ * μ) := by
    intro μ
    have h : ∀ r, (g r - μ) * (g r - μ) = g r * g r - 2 * μ * g r + μ * μ := fun r => by ring
    simp only [h]
    rw [Finset.sum_add_distrib, Finset.sum_sub_distrib, ← Finset.mul_sum, Finset.sum_const, Finset.card_univ,
      nsmul_eq_mul, ← hN]
  rw [h1]
  field_simp
  ring

/-- The mean of squared deviations is not negative. -/
theorem var_nonneg {ι : Type*} [Fintype ι] (g : ι → ℝ) (μ N : ℝ) (hN : 0 ≤ N) :
    0 ≤ (∑ r, (g r - μ) * (g r - μ)) * (1 / N) :=
  mul_nonneg (Finset.sum_nonneg (fun r _ => mul_self_nonneg _)) (by positivity)

end Stats

/-! ## The statistics -/

open Stats in
/-- On finite activations the kernel's statistics are the reference's. -/
theorem stats_eq (af : Fin 131072 → Fin 80 → EReal) (hfin : ∀ r j, ∃ y : ℝ, af r j = (y : EReal)) (j : Fin 80) :
    meanK af j = meanR af j ∧ varK af j = varR af j := by
  choose g hg using hfin
  have hN0 : (131072 : ℝ) ≠ 0 := by norm_num
  have hmean : meanK af j = meanR af j := by
    unfold meanK meanR
    rw [sum_brow (fun r => af r j)]
  -- the mean as a real
  have hμ : meanR af j = (((∑ r, g r j) * (1 / 131072) : ℝ) : EReal) := by
    unfold meanR
    rw [cR_eq, Ideal.div_coe hN0, EReal.coe_mul, coe_sum]
    simp only [hg]
  refine ⟨hmean, ?_⟩
  unfold varK varR
  rw [hmean, hμ, sum_brow (fun r => af r j * af r j), EReal.coe_zero, sub_zero, cR_eq, Ideal.div_coe hN0,
    Ideal.div_coe hN0]
  simp only [hg]
  simp only [← EReal.coe_sub, ← EReal.coe_mul, ← coe_sum]
  rw [var_identity (fun r => g r j) 131072 (by simp) hN0]
  exact max_eq_left (EReal.coe_nonneg.mpr (var_nonneg _ _ _ (by norm_num)))

end Cert.Vlad

end
-- ==== Proof.Pre.lean ====
/-
  The precondition read at an element: every entry of the feature array and of the cluster matrix is a real number.
-/
import proofs.«417997_j17514876633265_3_alg».proof.Defs
import proofs.«417997_j17514876633265_3_alg».proof.Proof.Gen.KernelIdeal
import proofs.«417997_j17514876633265_3_alg».proof.Proof.Gen.Pre_finite_inputs
import Idealize.ShloMosaic.Lib.ReduceAll
import Idealize.ShloMosaic.Lib.ValueIdx

noncomputable section

namespace Cert.PreFinite

open Cert.KernelIdeal Idealize.ShloMosaic Idealize.SL.Sem

/-- The word the predicate compares against is the positive infinity. -/
theorem top_word : Ideal.ofBits .f32 0x7F800000#32 = (⊤ : EReal) := by
  simp [Ideal.ofBits, Ideal.ieee]

/-- An extended real whose absolute value max x (-x) is strictly below the positive infinity is a real:
    at either infinity the absolute value is the positive infinity itself. -/
theorem real_of_abs_lt (x : EReal)
    (h : Ideal.cmp .olt (max x (-x)) (Ideal.ofBits .f32 0x7F800000#32) = 1#1) : ∃ y : ℝ, x = (y : EReal) := by
  rw [top_word] at h
  induction x using EReal.rec with
  | bot => simp [Ideal.cmp] at h
  | coe r => exact ⟨r, rfl⟩
  | top => simp [Ideal.cmp] at h

/-- The scalar shape has exactly one index. -/
instance : Subsingleton Cert.Pre_finite_inputs.S_.Idx := ⟨fun a b => funext fun d => d.elim0⟩

/-- One conjunct of the predicate, read at an element: an all-axes conjunction of |x| < +inf that came out 1
    makes every entry of x a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf CmpFPredicate.olt (Host.absf x)
            (broadcastInDim s ![] hb (constant (F := Ideal) Cert.Pre_finite_inputs.S_ FTy.f32 0x7F800000#32)))
          (constantI Cert.Pre_finite_inputs.S_ 1 1#1) hr hu ValueIdx.ix0 = 1#1)
    (i : s.Idx) : ∃ y : ℝ, x i = (y : EReal) :=
  real_of_abs_lt (x i) (Host.reduce_andi_all _ _ hr hu ValueIdx.ix0 e i)

theorem finite_x (m : (ℓ : Loc nD τ sig) → Buf (Elt Ideal) ℓ) (h : Cert.Pre_KernelIdeal m) (c : Dev nD) (i : S64x2048x512.Idx) :
    ∃ y : ℝ, m ((c.tc : Thread nD τ).loc main_arg0) i = (y : EReal) := by
  have h0 := congrFun (h c) ValueIdx.ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).1
  exact real_of_all _ _ _ _ h4 i

theorem finite_cl (m : (ℓ : Loc nD τ sig) → Buf (Elt Ideal) ℓ) (h : Cert.Pre_KernelIdeal m) (c : Dev nD) (i : S512x80.Idx) :
    ∃ y : ℝ, m ((c.tc : Thread nD τ).loc main_arg1) i = (y : EReal) := by
  have h0 := congrFun (h c) ValueIdx.ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).2
  exact real_of_all _ _ _ _ h4 i

end Cert.PreFinite

end
-- ==== Proof.lean ====
/-
  The certificate of a NetVLAD kernel pair against its jnp reference, over the extended reals.

  Both programs compute, per batch, the descriptor of Proof/Spec.lean from the same projection of the features on
  80 columns. They differ in the batch statistics only: the kernel program sums 32 blocks of 4096 rows and forms
  the variance as E[a²] - μ² clamped at zero, the reference sums all 131072 rows and forms E[(a - μ)²]. The inputs
  are finite (the precondition), so the projection is finite and the two statistics agree (Proof/Stats.lean); all
  that follows the statistics is the same function on both sides.

  The kernel program's result is read off its run (Proof/KernelRun.lean, Proof/KernelValue.lean: the two regions'
  blocks tile their arrays, Proof/K0Value.lean and Proof/K1Value.lean), the reference's off its straight line of
  host operations (Proof/RefRun.lean, Proof/RefValue.lean). The three frames are the generated ones and the
  reference's run with its result dropped; nothing was rewritten by the ideal pass, so preserves is trivial.
-/
import proofs.«417997_j17514876633265_3_alg».proof.Defs
import proofs.«417997_j17514876633265_3_alg».proof.Proof.Gen.Kernel
import proofs.«417997_j17514876633265_3_alg».proof.Proof.Gen.Kernel.Skeleton
import proofs.«417997_j17514876633265_3_alg».proof.Proof.Gen.Kernel.Launch
import proofs.«417997_j17514876633265_3_alg».proof.Proof.Gen.Kernel.Points
import proofs.«417997_j17514876633265_3_alg».proof.Proof.Gen.Kernel.Frame
import proofs.«417997_j17514876633265_3_alg».proof.Proof.Gen.KernelIdeal
import proofs.«417997_j17514876633265_3_alg».proof.Proof.Gen.KernelIdeal.Skeleton
import proofs.«417997_j17514876633265_3_alg».proof.Proof.Gen.KernelIdeal.Launch
import proofs.«417997_j17514876633265_3_alg».proof.Proof.Gen.KernelIdeal.Points
import proofs.«417997_j17514876633265_3_alg».proof.Proof.Gen.KernelIdeal.Frame
import proofs.«417997_j17514876633265_3_alg».proof.Proof.Gen.ReferenceIdeal
import proofs.«417997_j17514876633265_3_alg».proof.Proof.Gen.Pre_finite_inputs
import proofs.«417997_j17514876633265_3_alg».proof.Proof.KernelRun
import proofs.«417997_j17514876633265_3_alg».proof.Proof.KernelValue
import proofs.«417997_j17514876633265_3_alg».proof.Proof.RefRun
import proofs.«417997_j17514876633265_3_alg».proof.Proof.RefValue
import proofs.«417997_j17514876633265_3_alg».proof.Proof.Stats
import proofs.«417997_j17514876633265_3_alg».proof.Proof.Pre
import Idealize.ShloMosaic.Adequacy
import Idealize.ShloMosaic.Init

noncomputable section

namespace Cert.Proof

open Idealize.ShloMosaic Idealize.ShloMosaic.ValueIdx Idealize.SL.Sem

/-- A position of a flattened descriptor is (feature, cluster) = (q / 64, q % 64). -/
theorem flat_div_mod (q : Fin 32768) :
    q = Vlad.flat ⟨q.val / 64, by omega⟩ ⟨q.val % 64, Nat.mod_lt _ (by decide)⟩ :=
  Fin.ext (by unfold Vlad.flat; exact (Nat.div_add_mod' q.val 64).symm)

/-- The specification's descriptor with the reference's statistics at batch b and flattened position q. -/
def Gq (x : FVec Ideal Cert.KernelIdeal.S64x2048x512 .f32) (cl : FVec Ideal Cert.KernelIdeal.S512x80 .f32)
    (c2 : FVec Ideal Cert.KernelIdeal.S1x512x64 .f32) (w β : FVec Ideal Cert.KernelIdeal.S80 .f32) (b : Fin 64) (q : Fin 32768) : EReal :=
  Vlad.descr (Vlad.meanR (Vlad.proj (fun b n k => x (ix3 b n k)) (fun k j => cl (ix2 k j))))
    (Vlad.varR (Vlad.proj (fun b n k => x (ix3 b n k)) (fun k j => cl (ix2 k j))))
    (fun b n k => x (ix3 b n k)) (fun k j => cl (ix2 k j)) (fun d k => c2 (ix3 0 d k)) (fun j => w (ix1 j)) (fun j => β (ix1 j))
    b ⟨q.val / 64, by have := q.isLt; omega⟩ ⟨q.val % 64, Nat.mod_lt _ (by decide)⟩

/-- The common result, laid out [64, 32768]. -/
def G (x : FVec Ideal Cert.KernelIdeal.S64x2048x512 .f32) (cl : FVec Ideal Cert.KernelIdeal.S512x80 .f32)
    (c2 : FVec Ideal Cert.KernelIdeal.S1x512x64 .f32) (w β : FVec Ideal Cert.KernelIdeal.S80 .f32) :
    FVec Ideal Cert.KernelIdeal.S64x32768 .f32 := fun i => Gq x cl c2 w β (i 0) (i 1)

/-- G at batch b and position (d, k). -/
theorem G_apply (x : FVec Ideal Cert.KernelIdeal.S64x2048x512 .f32) (cl : FVec Ideal Cert.KernelIdeal.S512x80 .f32)
    (c2 : FVec Ideal Cert.KernelIdeal.S1x512x64 .f32) (w β : FVec Ideal Cert.KernelIdeal.S80 .f32)
    (b : Fin 64) (d : Fin 512) (k : Fin 64) :
    G x cl c2 w β (ix2 b (Vlad.flat d k))
      = Vlad.descr (Vlad.meanR (Vlad.proj (fun b n k => x (ix3 b n k)) (fun k j => cl (ix2 k j))))
          (Vlad.varR (Vlad.proj (fun b n k => x (ix3 b n k)) (fun k j => cl (ix2 k j))))
          (fun b n k => x (ix3 b n k)) (fun k j => cl (ix2 k j)) (fun d k => c2 (ix3 0 d k)) (fun j => w (ix1 j))
          (fun j => β (ix1 j)) b d k := by
  have hd : (⟨(Vlad.flat d k).val / 64, by have := (Vlad.flat d k).isLt; omega⟩ : Fin 512) = d :=
    Fin.ext (by show (d.val * 64 + k.val) / 64 = d.val; omega)
  have hk : (⟨(Vlad.flat d k).val % 64, Nat.mod_lt _ (by decide)⟩ : Fin 64) = k :=
    Fin.ext (by show (d.val * 64 + k.val) % 64 = k.val; omega)
  have hG : G x cl c2 w β (ix2 b (Vlad.flat d k)) = Gq x cl c2 w β b (Vlad.flat d k) := rfl
  rw [hG]
  unfold Gq
  have key : ∀ (d' : Fin 512) (k' : Fin 64), d' = d → k' = k →
      Vlad.descr (Vlad.meanR (Vlad.proj (fun b n k => x (ix3 b n k)) (fun k j => cl (ix2 k j))))
          (Vlad.varR (Vlad.proj (fun b n k => x (ix3 b n k)) (fun k j => cl (ix2 k j))))
          (fun b n k => x (ix3 b n k)) (fun k j => cl (ix2 k j)) (fun d k => c2 (ix3 0 d k)) (fun j => w (ix1 j))
          (fun j => β (ix1 j)) b d' k'
        = Vlad.descr (Vlad.meanR (Vlad.proj (fun b n k => x (ix3 b n k)) (fun k j => cl (ix2 k j))))
          (Vlad.varR (Vlad.proj (fun b n k => x (ix3 b n k)) (fun k j => cl (ix2 k j))))
          (fun b n k => x (ix3 b n k)) (fun k j => cl (ix2 k j)) (fun d k => c2 (ix3 0 d k)) (fun j => w (ix1 j))
          (fun j => β (ix1 j)) b d k := by
    rintro _ _ rfl rfl; rfl
  exact key _ _ hd hk

/-- Every index of a [64, 32768] array is (b, flat d k). -/
theorem idx_cases (i : Cert.KernelIdeal.S64x32768.Idx) : ∃ (b : Fin 64) (d : Fin 512) (k : Fin 64), i = ix2 b (Vlad.flat d k) :=
  ⟨i 0, _, _, (eq_ix2 i).trans (congrArg (ix2 (i 0)) (flat_div_mod (i 1)))⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- The kernel program's result is G of its arguments: its descriptor carries the kernel's statistics, which on
    the finite projection are the reference's. -/
theorem kernel_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Gen.W5 (F := Ideal) m ρ c (Proc.devRef .tc Cert.KernelIdeal.main_v18) : FVec Ideal Cert.KernelIdeal.S64x32768 .f32)
      = G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  funext i
  have hfin := Vlad.proj_finite (Cert.KernelIdeal.KValue.X3 m c) (Cert.KernelIdeal.KValue.CL m c)
    (fun b n k => Cert.PreFinite.finite_x m hpre c (ix3 b n k)) (fun k j => Cert.PreFinite.finite_cl m hpre c (ix2 k j))
  have hμ : Vlad.meanK (Vlad.proj (Cert.KernelIdeal.KValue.X3 m c) (Cert.KernelIdeal.KValue.CL m c))
      = Vlad.meanR (Vlad.proj (Cert.KernelIdeal.KValue.X3 m c) (Cert.KernelIdeal.KValue.CL m c)) :=
    funext fun j => (Vlad.stats_eq _ hfin j).1
  have hv : Vlad.varK (Vlad.proj (Cert.KernelIdeal.KValue.X3 m c) (Cert.KernelIdeal.KValue.CL m c))
      = Vlad.varR (Vlad.proj (Cert.KernelIdeal.KValue.X3 m c) (Cert.KernelIdeal.KValue.CL m c)) :=
    funext fun j => (Vlad.stats_eq _ hfin j).2
  obtain ⟨b, d, k, rfl⟩ := idx_cases i
  rw [G_apply, Cert.KernelIdeal.KValue.kernel_value m ρ c b d k, hμ, hv]

theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_eq m ρ hpre c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2]
    funext i
    obtain ⟨b, d, k, rfl⟩ := idx_cases i
    exact (Cert.ReferenceIdeal.RefValue.ref_out_apply _ _ _ _ _ b d k).trans (G_apply _ _ _ _ _ b d k).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
